-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x24x4096x9 : Shape := ⟨4, ![8, 24, 4096, 9]⟩
abbrev S4096x9 : Shape := ⟨2, ![4096, 9]⟩
abbrev S32x9 : Shape := ⟨2, ![32, 9]⟩
abbrev S32 : Shape := ⟨1, ![32]⟩
abbrev S16x288 : Shape := ⟨2, ![16, 288]⟩
abbrev S16 : Shape := ⟨1, ![16]⟩
abbrev S1x144 : Shape := ⟨2, ![1, 144]⟩
abbrev S1 : Shape := ⟨1, ![1]⟩
abbrev S_ : Shape := ⟨0, ![]⟩

class Facts : Prop where
  bcast_S_S8x24x4096x9 : S_.BroadcastsInDim S8x24x4096x9 (![] : Fin 0 → Fin S8x24x4096x9.rank)
  reducesTo_S8x24x4096x9_S_d0_1_2_3 : S8x24x4096x9.ReducesTo [0, 1, 2, 3] S_
  h_S_ : 0 < S_.numel
  bcast_S_S32x9 : S_.BroadcastsInDim S32x9 (![] : Fin 0 → Fin S32x9.rank)
  reducesTo_S32x9_S_d0_1 : S32x9.ReducesTo [0, 1] S_
  bcast_S_S32 : S_.BroadcastsInDim S32 (![] : Fin 0 → Fin S32.rank)
  reducesTo_S32_S_d0 : S32.ReducesTo [0] S_
  bcast_S_S16x288 : S_.BroadcastsInDim S16x288 (![] : Fin 0 → Fin S16x288.rank)
  reducesTo_S16x288_S_d0_1 : S16x288.ReducesTo [0, 1] S_
  bcast_S_S16 : S_.BroadcastsInDim S16 (![] : Fin 0 → Fin S16.rank)
  reducesTo_S16_S_d0 : S16.ReducesTo [0] S_
  bcast_S_S1x144 : S_.BroadcastsInDim S1x144 (![] : Fin 0 → Fin S1x144.rank)
  reducesTo_S1x144_S_d0_1 : S1x144.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x144 .f32) (main_arg9 : FVec F S1 .f32) (main_v33 : IVec S_ 1) : IVec S_ 1 :=
  let main_v34 : FVec F S1x144 .f32 := Host.absf main_arg8
  let main_cst_12 : FVec F S_ .f32 := constant S_ .f32 0x7F800000#32
  let main_v35 : FVec F S1x144 .f32 := broadcastInDim S1x144 ![] bcast_S_S1x144 main_cst_12
  let main_v36 : IVec S1x144 1 := cmpf .olt main_v34 main_v35
  let main_c_13 : IVec S_ 1 := constantI S_ 1 1#1
  let main_v37 : IVec S_ 1 := (fun x v => Host.reduce IntOp.andi x v reducesTo_S1x144_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S16 .f32) (main_arg6 : FVec F S16 .f32) (main_arg7 : FVec F S16 .f32) (main_arg8 : FVec F S1x144 .f32) (main_arg9 : FVec F S1 .f32) (main_v13 : IVec S_ 1) (main_v16 : IVec S16x288 1) : IVec S_ 1 :=
  let main_c_5 : IVec S_ 1 := constantI S_ 1 1#1
  let main_v17 : IVec S_ 1 := (fun x v => Host.reduce IntOp.andi x v reducesTo_S16x288_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S8x24x4096x9 .f32) (main_arg1 : IVec S4096x9 32) (main_arg2 : FVec F S32x9 .f32) (main_arg3 : FVec F S32 .f32) (main_arg4 : FVec F S16x288 .f32) (main_arg5 : FVec F S16 .f32) (main_arg6 : FVec F S16 .f32) (main_arg7 : FVec F S16 .f32) (main_arg8 : FVec F S1x144 .f32) (main_arg9 : FVec F S1 .f32) : IVec S_ 1 :=
  let main_v0 : FVec F S8x24x4096x9 .f32 := Host.absf main_arg0
  let main_cst : FVec F S_ .f32 := constant S_ .f32 0x7F800000#32
  let main_v1 : FVec F S8x24x4096x9 .f32 := broadcastInDim S8x24x4096x9 ![] bcast_S_S8x24x4096x9 main_cst
  let main_v2 : IVec S8x24x4096x9 1 := cmpf .olt main_v0 main_v1
  let main_c : IVec S_ 1 := constantI S_ 1 1#1
  let main_v3 : IVec S_ 1 := (fun x v => Host.reduce IntOp.andi x v reducesTo_S8x24x4096x9_S_d0_1_2_3 h_S_) main_v2 main_c
  let main_v4 : FVec F S32x9 .f32 := Host.absf main_arg2
  let main_cst_0 : FVec F S_ .f32 := constant S_ .f32 0x7F800000#32
  let main_v5 : FVec F S32x9 .f32 := broadcastInDim S32x9 ![] bcast_S_S32x9 main_cst_0
  let main_v6 : IVec S32x9 1 := cmpf .olt main_v4 main_v5
  let main_c_1 : IVec S_ 1 := constantI S_ 1 1#1
  let main_v7 : IVec S_ 1 := (fun x v => Host.reduce IntOp.andi x v reducesTo_S32x9_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16x288 .f32 := Host.absf main_arg4
  let main_cst_4 : FVec F S_ .f32 := constant S_ .f32 0x7F800000#32
  let main_v15 : FVec F S16x288 .f32 := broadcastInDim S16x288 ![] bcast_S_S16x288 main_cst_4
  let main_v16 : IVec S16x288 1 := cmpf .olt main_v14 main_v15
  fn_part1 (F := F) main_arg5 main_arg6 main_arg7 main_arg8 main_arg9 main_v13 main_v16
-- ==== Kernel.lean ====
abbrev S8x24x4096x9 : Shape := ⟨4, ![8, 24, 4096, 9]⟩
abbrev S4096x9 : Shape := ⟨2, ![4096, 9]⟩
abbrev S32x9 : Shape := ⟨2, ![32, 9]⟩
abbrev S32 : Shape := ⟨1, ![32]⟩
abbrev S16x288 : Shape := ⟨2, ![16, 288]⟩
abbrev S16 : Shape := ⟨1, ![16]⟩
abbrev S1x144 : Shape := ⟨2, ![1, 144]⟩
abbrev S1 : Shape := ⟨1, ![1]⟩
abbrev S192x4096x9 : Shape := ⟨3, ![192, 4096, 9]⟩
abbrev S192x9x4096 : Shape := ⟨3, ![192, 9, 4096]⟩
abbrev S192x4096x32 : Shape := ⟨3, ![192, 4096, 32]⟩
abbrev S2x4096x9 : Shape := ⟨3, ![2, 4096, 9]⟩
abbrev S2x4096x32 : Shape := ⟨3, ![2, 4096, 32]⟩
abbrev S8192x9 : Shape := ⟨2, ![8192, 9]⟩
abbrev S9x32 : Shape := ⟨2, ![9, 32]⟩
abbrev S8192x32 : Shape := ⟨2, ![8192, 32]⟩
abbrev S1x32 : Shape := ⟨2, ![1, 32]⟩
abbrev S192x32x4096 : Shape := ⟨3, ![192, 32, 4096]⟩
abbrev S_ : Shape := ⟨0, ![]⟩
abbrev S4096x9x1 : Shape := ⟨3, ![4096, 9, 1]⟩
abbrev S192x32x4096x9 : Shape := ⟨4, ![192, 32, 4096, 9]⟩
abbrev S192x32x9x4096 : Shape := ⟨4, ![192, 32, 9, 4096]⟩
abbrev S192x4096x288 : Shape := ⟨3, ![192, 4096, 288]⟩
abbrev S192x4096x16 : Shape := ⟨3, ![192, 4096, 16]⟩
abbrev S2x4096x288 : Shape := ⟨3, ![2, 4096, 288]⟩
abbrev S2x4096x16 : Shape := ⟨3, ![2, 4096, 16]⟩
abbrev S8192x288 : Shape := ⟨2, ![8192, 288]⟩
abbrev S288x16 : Shape := ⟨2, ![288, 16]⟩
abbrev S8192x16 : Shape := ⟨2, ![8192, 16]⟩
abbrev S1x16 : Shape := ⟨2, ![1, 16]⟩
abbrev S8x24x4096x16 : Shape := ⟨4, ![8, 24, 4096, 16]⟩
abbrev S24x16 : Shape := ⟨2, ![24, 16]⟩
abbrev S1x24x1x16 : Shape := ⟨4, ![1, 24, 1, 16]⟩
abbrev S8x24x1x16 : Shape := ⟨4, ![8, 24, 1, 16]⟩
abbrev S192x16 : Shape := ⟨2, ![192, 16]⟩
abbrev S192x1x16 : Shape := ⟨3, ![192, 1, 16]⟩
abbrev S2x1x16 : Shape := ⟨3, ![2, 1, 16]⟩
abbrev S1x1x16 : Shape := ⟨3, ![1, 1, 16]⟩
abbrev S192x16x4096 : Shape := ⟨3, ![192, 16, 4096]⟩
abbrev S192x16x4096x9 : Shape := ⟨4, ![192, 16, 4096, 9]⟩
abbrev S192x16x9x4096 : Shape := ⟨4, ![192, 16, 9, 4096]⟩
abbrev S192x4096x144 : Shape := ⟨3, ![192, 4096, 144]⟩
abbrev S192x4096x1 : Shape := ⟨3, ![192, 4096, 1]⟩
abbrev S2x4096x144 : Shape := ⟨3, ![2, 4096, 144]⟩
abbrev S2x4096x1 : Shape := ⟨3, ![2, 4096, 1]⟩
abbrev S8192x144 : Shape := ⟨2, ![8192, 144]⟩
abbrev S144x1 : Shape := ⟨2, ![144, 1]⟩
abbrev S8192x1 : Shape := ⟨2, ![8192, 1]⟩
abbrev S1x1 : Shape := ⟨2, ![1, 1]⟩
abbrev S192x4096 : Shape := ⟨2, ![192, 4096]⟩
abbrev S8x24x4096 : Shape := ⟨3, ![8, 24, 4096]⟩

abbrev nBuf : Space → Nat
  | .hbm => 80
  | .vmem => 28
  | .smem => 0
  | _ => 0

abbrev bufTy : (tb : Table) → Fin (tcTables nBuf tb) → BufTy
  | .hbm, ⟨0, _⟩ => ⟨S8x24x4096x9, .f32⟩
  | .hbm, ⟨1, _⟩ => ⟨S4096x9, .i32⟩
  | .hbm, ⟨2, _⟩ => ⟨S32x9, .f32⟩
  | .hbm, ⟨3, _⟩ => ⟨S32, .f32⟩
  | .hbm, ⟨4, _⟩ => ⟨S16x288, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1x144, .f32⟩
  | .hbm, ⟨9, _⟩ => ⟨S1, .f32⟩
  | .hbm, ⟨10, _⟩ => ⟨S192x4096x9, .f32⟩
  | .hbm, ⟨11, _⟩ => ⟨S192x9x4096, .f32⟩
  | .hbm, ⟨12, _⟩ => ⟨S192x4096x9, .f32⟩
  | .hbm, ⟨13, _⟩ => ⟨S192x4096x32, .f32⟩
  | .hbm, ⟨14, _⟩ => ⟨S192x32x4096, .f32⟩
  | .hbm, ⟨15, _⟩ => ⟨S_, .i32⟩
  | .hbm, ⟨16, _⟩ => ⟨S4096x9, .i32⟩
  | .hbm, ⟨17, _⟩ => ⟨S4096x9, .i1⟩
  | .hbm, ⟨18, _⟩ => ⟨S_, .i32⟩
  | .hbm, ⟨19, _⟩ => ⟨S4096x9, .i32⟩
  | .hbm, ⟨20, _⟩ => ⟨S4096x9, .i32⟩
  | .hbm, ⟨21, _⟩ => ⟨S4096x9, .i32⟩
  | .hbm, ⟨22, _⟩ => ⟨S4096x9x1, .i32⟩
  | .hbm, ⟨23, _⟩ => ⟨S192x32x4096x9, .f32⟩
  | .hbm, ⟨24, _⟩ => ⟨S192x32x9x4096, .f32⟩
  | .hbm, ⟨25, _⟩ => ⟨S192x4096x288, .f32⟩
  | .hbm, ⟨26, _⟩ => ⟨S192x4096x16, .f32⟩
  | .hbm, ⟨27, _⟩ => ⟨S8x24x4096x16, .f32⟩
  | .hbm, ⟨28, _⟩ => ⟨S_, .f32⟩
  | .hbm, ⟨29, _⟩ => ⟨S24x16, .f32⟩
  | .hbm, ⟨30, _⟩ => ⟨S_, .f32⟩
  | .hbm, ⟨31, _⟩ => ⟨S24x16, .f32⟩
  | .hbm, ⟨32, _⟩ => ⟨S24x16, .f32⟩
  | .hbm, ⟨33, _⟩ => ⟨S_, .i32⟩
  | .hbm, ⟨34, _⟩ => ⟨S_, .f32⟩
  | .hbm, ⟨35, _⟩ => ⟨S24x16, .f32⟩
  | .hbm, ⟨36, _⟩ => ⟨S1x24x1x16, .f32⟩
  | .hbm, ⟨37, _⟩ => ⟨S_, .f32⟩
  | .hbm, ⟨38, _⟩ => ⟨S1x24x1x16, .f32⟩
  | .hbm, ⟨39, _⟩ => ⟨S1x24x1x16, .f32⟩
  | .hbm, ⟨40, _⟩ => ⟨S8x24x4096x16, .f32⟩
  | .hbm, ⟨41, _⟩ => ⟨S8x24x4096x16, .f32⟩
  | .hbm, ⟨42, _⟩ => ⟨S8x24x4096x16, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S24x16, .f32⟩
  | .hbm, ⟨48, _⟩ => ⟨S24x16, .f32⟩
  | .hbm, ⟨49, _⟩ => ⟨S24x16, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S24x16, .f32⟩
  | .hbm, ⟨55, _⟩ => ⟨S24x16, .f32⟩
  | .hbm, ⟨56, _⟩ => ⟨S1x24x1x16, .f32⟩
  | .hbm, ⟨57, _⟩ => ⟨S8x24x1x16, .f32⟩
  | .hbm, ⟨58, _⟩ => ⟨S192x16, .f32⟩
  | .hbm, ⟨59, _⟩ => ⟨S192x1x16, .f32⟩
  | .hbm, ⟨60, _⟩ => ⟨S1x24x1x16, .f32⟩
  | .hbm, ⟨61, _⟩ => ⟨S8x24x1x16, .f32⟩
  | .hbm, ⟨62, _⟩ => ⟨S192x16, .f32⟩
  | .hbm, ⟨63, _⟩ => ⟨S192x1x16, .f32⟩
  | .hbm, ⟨64, _⟩ => ⟨S192x4096x16, .f32⟩
  | .hbm, ⟨65, _⟩ => ⟨S192x16x4096, .f32⟩
  | .hbm, ⟨66, _⟩ => ⟨S_, .i32⟩
  | .hbm, ⟨67, _⟩ => ⟨S4096x9, .i32⟩
  | .hbm, ⟨68, _⟩ => ⟨S4096x9, .i1⟩
  | .hbm, ⟨69, _⟩ => ⟨S_, .i32⟩
  | .hbm, ⟨70, _⟩ => ⟨S4096x9, .i32⟩
  | .hbm, ⟨71, _⟩ => ⟨S4096x9, .i32⟩
  | .hbm, ⟨72, _⟩ => ⟨S4096x9, .i32⟩
  | .hbm, ⟨73, _⟩ => ⟨S4096x9x1, .i32⟩
  | .hbm, ⟨74, _⟩ => ⟨S192x16x4096x9, .f32⟩
  | .hbm, ⟨75, _⟩ => ⟨S192x16x9x4096, .f32⟩
  | .hbm, ⟨76, _⟩ => ⟨S192x4096x144, .f32⟩
  | .hbm, ⟨77, _⟩ => ⟨S192x4096x1, .f32⟩
  | .hbm, ⟨78, _⟩ => ⟨S192x4096, .f32⟩
  | .hbm, ⟨79, _⟩ => ⟨S8x24x4096, .f32⟩
  | .local _ .vmem, ⟨0, _⟩ => ⟨S2x4096x9, .f32⟩
  | .local _ .vmem, ⟨1, _⟩ => ⟨S2x4096x9, .f32⟩
  | .local _ .vmem, ⟨2, _⟩ => ⟨S32x9, .f32⟩
  | .local _ .vmem, ⟨3, _⟩ => ⟨S32, .f32⟩
  | .local _ .vmem, ⟨4, _⟩ => ⟨S2x4096x32, .f32⟩
  | .local _ .vmem, ⟨5, _⟩ => ⟨S2x4096x32, .f32⟩
  | .local _ .vmem, ⟨6, _⟩ => ⟨S2x4096x288, .f32⟩
  | .local _ .vmem, ⟨7, _⟩ => ⟨S2x4096x288, .f32⟩
  | .local _ .vmem, ⟨8, _⟩ => ⟨S16x288, .f32⟩
  | .local _ .vmem, ⟨9, _⟩ => ⟨S16, .f32⟩
  | .local _ .vmem, ⟨10, _⟩ => ⟨S2x4096x16, .f32⟩
  | .local _ .vmem, ⟨11, _⟩ => ⟨S2x4096x16, .f32⟩
  | .local _ .vmem, ⟨12, _⟩ => ⟨S2x4096x16, .f32⟩
  | .local _ .vmem, ⟨13, _⟩ => ⟨S2x4096x16, .f32⟩
  | .local _ .vmem, ⟨14, _⟩ => ⟨S2x1x16, .f32⟩
  | .local _ .vmem, ⟨15, _⟩ => ⟨S2x1x16, .f32⟩
  | .local _ .vmem, ⟨16, _⟩ => ⟨S2x1x16, .f32⟩
  | .local _ .vmem, ⟨17, _⟩ => ⟨S2x1x16, .f32⟩
  | .local _ .vmem, ⟨18, _⟩ => ⟨S16, .f32⟩
  | .local _ .vmem, ⟨19, _⟩ => ⟨S16, .f32⟩
  | .local _ .vmem, ⟨20, _⟩ => ⟨S2x4096x16, .f32⟩
  | .local _ .vmem, ⟨21, _⟩ => ⟨S2x4096x16, .f32⟩
  | .local _ .vmem, ⟨22, _⟩ => ⟨S2x4096x144, .f32⟩
  | .local _ .vmem, ⟨23, _⟩ => ⟨S2x4096x144, .f32⟩
  | .local _ .vmem, ⟨24, _⟩ => ⟨S1x144, .f32⟩
  | .local _ .vmem, ⟨25, _⟩ => ⟨S1, .f32⟩
  | .local _ .vmem, ⟨26, _⟩ => ⟨S2x4096x1, .f32⟩
  | .local _ .vmem, ⟨27, _⟩ => ⟨S2x4096x1, .f32⟩
  | _, _ => ⟨S8x24x4096x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_cst_3 : Ref sig .tc := ⟨.hbm, 50, rfl⟩
abbrev main_call0_v12 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_3 : Ref sig .tc := ⟨.hbm, 66, rfl⟩
abbrev main_v30 : Ref sig .tc := ⟨.hbm, 67, rfl⟩
abbrev main_v31 : Ref sig .tc := ⟨.hbm, 68, rfl⟩
abbrev main_c_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x4096x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![96], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x4096x288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x4096x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![96], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2x4096x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x1x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2x1x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2x4096x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![96], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2x4096x144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x144 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2x4096x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S8x24x4096x9_S192x4096x9 : S8x24x4096x9.ShapeCasts S192x4096x9
  transposes_S192x4096x9_S192x9x4096_0_2_1 : S192x4096x9.Transposes [0, 2, 1] S192x9x4096
  shapeCasts_S192x9x4096_S192x4096x9 : S192x9x4096.ShapeCasts S192x4096x9
  inb_S2x4096x9_S2x4096x9_0_0_0 : ∀ a, (![0, 0, 0] : Fin 3 → Nat) a + S2x4096x9.size a ≤ S2x4096x9.size a
  h_S2x4096x9 : 0 < S2x4096x9.numel
  shapeCasts_S2x4096x9_S2x4096x9 : S2x4096x9.ShapeCasts S2x4096x9
  inb_S32x9_S32x9_0_0 : ∀ a, (![0, 0] : Fin 2 → Nat) a + S32x9.size a ≤ S32x9.size a
  h_S32x9 : 0 < S32x9.numel
  inb_S32_S32_0 : ∀ a, (![0] : Fin 1 → Nat) a + S32.size a ≤ S32.size a
  h_S32 : 0 < S32.numel
  shapeCasts_S2x4096x9_S8192x9 : S2x4096x9.ShapeCasts S8192x9
  bitsLt_bf16_f32 : FTy.bits .bf16 < FTy.bits .f32
  transposes_S32x9_p1_0_S9x32 : S32x9.Transposes [1, 0] S9x32
  shapeCasts_S32_S1x32 : S32.ShapeCasts S1x32
  broadcasts_S1x32_S8192x32 : S1x32.Broadcasts S8192x32
  shapeCasts_S8192x32_S2x4096x32 : S8192x32.ShapeCasts S2x4096x32
  inb_S2x4096x32_S2x4096x32_0_0_0 : ∀ a, (![0, 0, 0] : Fin 3 → Nat) a + S2x4096x32.size a ≤ S2x4096x32.size a
  h_S2x4096x32 : 0 < S2x4096x32.numel
  transposes_S192x4096x32_S192x32x4096_0_2_1 : S192x4096x32.Transposes [0, 2, 1] S192x32x4096
  bcast_S_S4096x9 : S_.BroadcastsInDim S4096x9 (![] : Fin 0 → Fin S4096x9.rank)
  bcast_S4096x9_S4096x9x1_0_1 : S4096x9.BroadcastsInDim S4096x9x1 (![0, 1] : Fin 2 → Fin S4096x9x1.rank)
  transposes_S192x32x4096x9_S192x32x9x4096_0_1_3_2 : S192x32x4096x9.Transposes [0, 1, 3, 2] S192x32x9x4096
  shapeCasts_S192x32x9x4096_S192x4096x288 : S192x32x9x4096.ShapeCasts S192x4096x288
  inb_S2x4096x288_S2x4096x288_0_0_0 : ∀ a, (![0, 0, 0] : Fin 3 → Nat) a + S2x4096x288.size a ≤ S2x4096x288.size a
  h_S2x4096x288 : 0 < S2x4096x288.numel
  shapeCasts_S2x4096x288_S2x4096x288 : S2x4096x288.ShapeCasts S2x4096x288
  inb_S16x288_S16x288_0_0 : ∀ a, (![0, 0] : Fin 2 → Nat) a + S16x288.size a ≤ S16x288.size a
  h_S16x288 : 0 < S16x288.numel
  inb_S16_S16_0 : ∀ a, (![0] : Fin 1 → Nat) a + S16.size a ≤ S16.size a
  h_S16 : 0 < S16.numel
  shapeCasts_S2x4096x288_S8192x288 : S2x4096x288.ShapeCasts S8192x288
  transposes_S16x288_p1_0_S288x16 : S16x288.Transposes [1, 0] S288x16
  shapeCasts_S16_S1x16 : S16.ShapeCasts S1x16
  broadcasts_S1x16_S8192x16 : S1x16.Broadcasts S8192x16
  shapeCasts_S8192x16_S2x4096x16 : S8192x16.ShapeCasts S2x4096x16
  inb_S2x4096x16_S2x4096x16_0_0_0 : ∀ a, (![0, 0, 0] : Fin 3 → Nat) a + S2x4096x16.size a ≤ S2x4096x16.size a
  h_S2x4096x16 : 0 < S2x4096x16.numel
  shapeCasts_S192x4096x16_S8x24x4096x16 : S192x4096x16.ShapeCasts S8x24x4096x16
  reducesTo_S8x24x4096x16_S24x16_d0_2 : S8x24x4096x16.ReducesTo [0, 2] S24x16
  h_S_ : 0 < S_.numel
  bcast_S_S24x16 : S_.BroadcastsInDim S24x16 (![] : Fin 0 → Fin S24x16.rank)
  bcast_S24x16_S1x24x1x16_1_3 : S24x16.BroadcastsInDim S1x24x1x16 (![1, 3] : Fin 2 → Fin S1x24x1x16.rank)
  bcast_S_S1x24x1x16 : S_.BroadcastsInDim S1x24x1x16 (![] : Fin 0 → Fin S1x24x1x16.rank)
  bcast_S1x24x1x16_S8x24x4096x16_0_1_2_3 : S1x24x1x16.BroadcastsInDim S8x24x4096x16 (![0, 1, 2, 3] : Fin 4 → Fin S8x24x4096x16.rank)
  shapeCasts_S24x16_S1x24x1x16 : S24x16.ShapeCasts S1x24x1x16
  bcast_S1x24x1x16_S8x24x1x16_0_1_2_3 : S1x24x1x16.BroadcastsInDim S8x24x1x16 (![0, 1, 2, 3] : Fin 4 → Fin S8x24x1x16.rank)
  shapeCasts_S8x24x1x16_S192x16 : S8x24x1x16.ShapeCasts S192x16
  shapeCasts_S192x16_S192x1x16 : S192x16.ShapeCasts S192x1x16
  shapeCasts_S2x4096x16_S2x4096x16 : S2x4096x16.ShapeCasts S2x4096x16
  inb_S2x1x16_S2x1x16_0_0_0 : ∀ a, (![0, 0, 0] : Fin 3 → Nat) a + S2x1x16.size a ≤ S2x1x16.size a
  h_S2x1x16 : 0 < S2x1x16.numel
  shapeCasts_S2x1x16_S2x1x16 : S2x1x16.ShapeCasts S2x1x16
  shapeCasts_S16_S1x1x16 : S16.ShapeCasts S1x1x16
  broadcasts_S2x1x16_S2x4096x16 : S2x1x16.Broadcasts S2x4096x16
  broadcasts_S1x1x16_S2x4096x16 : S1x1x16.Broadcasts S2x4096x16
  transposes_S192x4096x16_S192x16x4096_0_2_1 : S192x4096x16.Transposes [0, 2, 1] S192x16x4096
  transposes_S192x16x4096x9_S192x16x9x4096_0_1_3_2 : S192x16x4096x9.Transposes [0, 1, 3, 2] S192x16x9x4096
  shapeCasts_S192x16x9x4096_S192x4096x144 : S192x16x9x4096.ShapeCasts S192x4096x144
  inb_S2x4096x144_S2x4096x144_0_0_0 : ∀ a, (![0, 0, 0] : Fin 3 → Nat) a + S2x4096x144.size a ≤ S2x4096x144.size a
  h_S2x4096x144 : 0 < S2x4096x144.numel
  shapeCasts_S2x4096x144_S2x4096x144 : S2x4096x144.ShapeCasts S2x4096x144
  inb_S1x144_S1x144_0_0 : ∀ a, (![0, 0] : Fin 2 → Nat) a + S1x144.size a ≤ S1x144.size a
  h_S1x144 : 0 < S1x144.numel
  inb_S1_S1_0 : ∀ a, (![0] : Fin 1 → Nat) a + S1.size a ≤ S1.size a
  h_S1 : 0 < S1.numel
  shapeCasts_S2x4096x144_S8192x144 : S2x4096x144.ShapeCasts S8192x144
  transposes_S1x144_p1_0_S144x1 : S1x144.Transposes [1, 0] S144x1
  shapeCasts_S1_S1x1 : S1.ShapeCasts S1x1
  broadcasts_S1x1_S8192x1 : S1x1.Broadcasts S8192x1
  shapeCasts_S8192x1_S2x4096x1 : S8192x1.ShapeCasts S2x4096x1
  inb_S2x4096x1_S2x4096x1_0_0_0 : ∀ a, (![0, 0, 0] : Fin 3 → Nat) a + S2x4096x1.size a ≤ S2x4096x1.size a
  h_S2x4096x1 : 0 < S2x4096x1.numel
  shapeCasts_S192x4096x1_S192x4096 : S192x4096x1.ShapeCasts S192x4096
  shapeCasts_S192x4096_S8x24x4096 : S192x4096.ShapeCasts S8x24x4096
  dot_S8192x9_S9x32_S8192x32_1_0_0_1_n_n_wf : DotDims.WF S8192x9 S9x32 S8192x32 [1] [0] [0] [1] [] []
  gather_S192x32x4096_S4096x9x1_S192x32x4096x9_01_2_n_n_2_2_192321_wf : GatherDims.WF S192x32x4096 S4096x9x1 S192x32x4096x9 [0, 1] [2] [] [2] [] 2 ![192, 32, 1]
  dot_S8192x288_S288x16_S8192x16_1_0_0_1_n_n_wf : DotDims.WF S8192x288 S288x16 S8192x16 [1] [0] [0] [1] [] []
  gather_S192x16x4096_S4096x9x1_S192x16x4096x9_01_2_n_n_2_2_192161_wf : GatherDims.WF S192x16x4096 S4096x9x1 S192x16x4096x9 [0, 1] [2] [] [2] [] 2 ![192, 16, 1]
  dot_S8192x144_S144x1_S8192x1_1_0_0_1_n_n_wf : DotDims.WF S8192x144 S144x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x9.size a ≤ S192x4096x9.size a
  hwx0_0 : ∀ i : grid0.Coords, EltTy.bits .f32 = 32 ∨ (Rect.block (s := S192x4096x9) S2x4096x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x9.size a ≤ S32x9.size a
  hwx0_1 : ∀ i : grid0.Coords, EltTy.bits .f32 = 32 ∨ (Rect.block (s := S32x9) S32x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x4096x32.size a ≤ S192x4096x32.size a
  hwx0_3 : ∀ i : grid0.Coords, EltTy.bits .f32 = 32 ∨ (Rect.block (s := S192x4096x32) S2x4096x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x4096x288.size a ≤ S192x4096x288.size a
  hwx1_0 : ∀ i : grid1.Coords, EltTy.bits .f32 = 32 ∨ (Rect.block (s := S192x4096x288) S2x4096x288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x288.size a ≤ S16x288.size a
  hwx1_1 : ∀ i : grid1.Coords, EltTy.bits .f32 = 32 ∨ (Rect.block (s := S16x288) S16x288.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x4096x16.size a ≤ S192x4096x16.size a
  hwx1_3 : ∀ i : grid1.Coords, EltTy.bits .f32 = 32 ∨ (Rect.block (s := S192x4096x16) S2x4096x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x4096x16.size a ≤ S192x4096x16.size a
  hwx2_0 : ∀ i : grid2.Coords, EltTy.bits .f32 = 32 ∨ (Rect.block (s := S192x4096x16) S2x4096x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x1x16.size a ≤ S192x1x16.size a
  hwx2_1 : ∀ i : grid2.Coords, EltTy.bits .f32 = 32 ∨ (Rect.block (s := S192x1x16) S2x1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2x1x16.size a ≤ S192x1x16.size a
  hwx2_2 : ∀ i : grid2.Coords, EltTy.bits .f32 = 32 ∨ (Rect.block (s := S192x1x16) S2x1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16.size a ≤ S16.size a
  hwx2_3 : ∀ i : grid2.Coords, EltTy.bits .f32 = 32 ∨ (Rect.block (s := S16) S16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16.size a ≤ S16.size a
  hwx2_4 : ∀ i : grid2.Coords, EltTy.bits .f32 = 32 ∨ (Rect.block (s := S16) S16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2x4096x16.size a ≤ S192x4096x16.size a
  hwx2_5 : ∀ i : grid2.Coords, EltTy.bits .f32 = 32 ∨ (Rect.block (s := S192x4096x16) S2x4096x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2x4096x144.size a ≤ S192x4096x144.size a
  hwx3_0 : ∀ i : grid3.Coords, EltTy.bits .f32 = 32 ∨ (Rect.block (s := S192x4096x144) S2x4096x144.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x144.size a ≤ S1x144.size a
  hwx3_1 : ∀ i : grid3.Coords, EltTy.bits .f32 = 32 ∨ (Rect.block (s := S1x144) S1x144.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1.size a ≤ S1.size a
  hwx3_2 : ∀ i : grid3.Coords, EltTy.bits .f32 = 32 ∨ (Rect.block (s := S1) S1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2x4096x1.size a ≤ S192x4096x1.size a
  hwx3_3 : ∀ i : grid3.Coords, EltTy.bits .f32 = 32 ∨ (Rect.block (s := S192x4096x1) S2x4096x1.size (cc3_transform_3 i) (hinb3_3 i)).WholeWords (EltTy.packing .f32)

variable [Facts₀]

def dot_S8192x9_S9x32_S8192x32_1_0_0_1_n_n : DotDims S8192x9 S9x32 S8192x32 where
  lhsContracting := [1]
  rhsContracting := [0]
  lhsNonContracting := [0]
  rhsNonContracting := [1]
  lhsBatch := []
  rhsBatch := []
  wf := dot_S8192x9_S9x32_S8192x32_1_0_0_1_n_n_wf
def gather_S192x32x4096_S4096x9x1_S192x32x4096x9_01_2_n_n_2_2_192321 : GatherDims S192x32x4096 S4096x9x1 S192x32x4096x9 where
  offsetDims := [0, 1]
  collapsedSliceDims := [2]
  operandBatchingDims := []
  startIndicesBatchingDims := []
  startIndexMap := [2]
  indexVectorDim := 2
  sliceSizes := ![192, 32, 1]
  wf := gather_S192x32x4096_S4096x9x1_S192x32x4096x9_01_2_n_n_2_2_192321_wf
def dot_S8192x288_S288x16_S8192x16_1_0_0_1_n_n : DotDims S8192x288 S288x16 S8192x16 where
  lhsContracting := [1]
  rhsContracting := [0]
  lhsNonContracting := [0]
  rhsNonContracting := [1]
  lhsBatch := []
  rhsBatch := []
  wf := dot_S8192x288_S288x16_S8192x16_1_0_0_1_n_n_wf
def gather_S192x16x4096_S4096x9x1_S192x16x4096x9_01_2_n_n_2_2_192161 : GatherDims S192x16x4096 S4096x9x1 S192x16x4096x9 where
  offsetDims := [0, 1]
  collapsedSliceDims := [2]
  operandBatchingDims := []
  startIndicesBatchingDims := []
  startIndexMap := [2]
  indexVectorDim := 2
  sliceSizes := ![192, 16, 1]
  wf := gather_S192x16x4096_S4096x9x1_S192x16x4096x9_01_2_n_n_2_2_192161_wf
def dot_S8192x144_S144x1_S8192x1_1_0_0_1_n_n : DotDims S8192x144 S144x1 S8192x1 where
  lhsContracting := [1]
  rhsContracting := [0]
  lhsNonContracting := [0]
  rhsNonContracting := [1]
  lhsBatch := []
  rhsBatch := []
  wf := dot_S8192x144_S144x1_S8192x1_1_0_0_1_n_n_wf

abbrev win0_0 : Pipeline.Window sig grid0 :=
  Pipeline.Window.ofSpec (Memref.whole main_v2) S2x4096x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x4096x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S2x4096x288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x288.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2x4096x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S2x4096x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S2x1x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2x1x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S2x4096x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S2x4096x144.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S1x144.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S2x4096x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x24x4096x9 : Shape := ⟨4, ![8, 24, 4096, 9]⟩
abbrev S4096x9 : Shape := ⟨2, ![4096, 9]⟩
abbrev S32x9 : Shape := ⟨2, ![32, 9]⟩
abbrev S32 : Shape := ⟨1, ![32]⟩
abbrev S16x288 : Shape := ⟨2, ![16, 288]⟩
abbrev S16 : Shape := ⟨1, ![16]⟩
abbrev S1x144 : Shape := ⟨2, ![1, 144]⟩
abbrev S1 : Shape := ⟨1, ![1]⟩
abbrev S8x24x1x4096x9 : Shape := ⟨5, ![8, 24, 1, 4096, 9]⟩
abbrev S8x24x1x9x4096 : Shape := ⟨5, ![8, 24, 1, 9, 4096]⟩
abbrev S8x24x4096x32 : Shape := ⟨4, ![8, 24, 4096, 32]⟩
abbrev S1x1x1x32 : Shape := ⟨4, ![1, 1, 1, 32]⟩
abbrev S8x24x32x4096 : Shape := ⟨4, ![8, 24, 32, 4096]⟩
abbrev S8x24x32x4096x1 : Shape := ⟨5, ![8, 24, 32, 4096, 1]⟩
abbrev S_ : Shape := ⟨0, ![]⟩
abbrev S8x24x32x1x4096 : Shape := ⟨5, ![8, 24, 32, 1, 4096]⟩
abbrev S4096x9x1 : Shape := ⟨3, ![4096, 9, 1]⟩
abbrev S8x24x32x4096x9 : Shape := ⟨5, ![8, 24, 32, 4096, 9]⟩
abbrev S8x24x32x9x4096 : Shape := ⟨5, ![8, 24, 32, 9, 4096]⟩
abbrev S8x24x4096x288 : Shape := ⟨4, ![8, 24, 4096, 288]⟩
abbrev S8x24x4096x16 : Shape := ⟨4, ![8, 24, 4096, 16]⟩
abbrev S1x1x1x16 : Shape := ⟨4, ![1, 1, 1, 16]⟩
abbrev S8x24x16x4096 : Shape := ⟨4, ![8, 24, 16, 4096]⟩
abbrev S8x24x16x4096x1 : Shape := ⟨5, ![8, 24, 16, 4096, 1]⟩
abbrev S24x16 : Shape := ⟨2, ![24, 16]⟩
abbrev S1x24x16x1x1 : Shape := ⟨5, ![1, 24, 16, 1, 1]⟩
abbrev S1x1x16x1x1 : Shape := ⟨5, ![1, 1, 16, 1, 1]⟩
abbrev S8x24x16x1x4096 : Shape := ⟨5, ![8, 24, 16, 1, 4096]⟩
abbrev S8x24x16x4096x9 : Shape := ⟨5, ![8, 24, 16, 4096, 9]⟩
abbrev S8x24x16x9x4096 : Shape := ⟨5, ![8, 24, 16, 9, 4096]⟩
abbrev S8x24x4096x144 : Shape := ⟨4, ![8, 24, 4096, 144]⟩
abbrev S8x24x4096x1 : Shape := ⟨4, ![8, 24, 4096, 1]⟩
abbrev S1x1x1x1 : Shape := ⟨4, ![1, 1, 1, 1]⟩
abbrev S8x24x1x4096 : Shape := ⟨4, ![8, 24, 1, 4096]⟩
abbrev S8x24x1x4096x1 : Shape := ⟨5, ![8, 24, 1, 4096, 1]⟩
abbrev S8x24x4096 : Shape := ⟨3, ![8, 24, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8x24x4096x9, .f32⟩
  | .hbm, ⟨1, _⟩ => ⟨S4096x9, .i32⟩
  | .hbm, ⟨2, _⟩ => ⟨S32x9, .f32⟩
  | .hbm, ⟨3, _⟩ => ⟨S32, .f32⟩
  | .hbm, ⟨4, _⟩ => ⟨S16x288, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1x144, .f32⟩
  | .hbm, ⟨9, _⟩ => ⟨S1, .f32⟩
  | .hbm, ⟨10, _⟩ => ⟨S8x24x1x4096x9, .f32⟩
  | .hbm, ⟨11, _⟩ => ⟨S8x24x1x9x4096, .f32⟩
  | .hbm, ⟨12, _⟩ => ⟨S8x24x4096x9, .f32⟩
  | .hbm, ⟨13, _⟩ => ⟨S8x24x4096x32, .f32⟩
  | .hbm, ⟨14, _⟩ => ⟨S1x1x1x32, .f32⟩
  | .hbm, ⟨15, _⟩ => ⟨S8x24x4096x32, .f32⟩
  | .hbm, ⟨16, _⟩ => ⟨S8x24x4096x32, .f32⟩
  | .hbm, ⟨17, _⟩ => ⟨S8x24x32x4096, .f32⟩
  | .hbm, ⟨18, _⟩ => ⟨S8x24x32x4096x1, .f32⟩
  | .hbm, ⟨19, _⟩ => ⟨S_, .f32⟩
  | .hbm, ⟨20, _⟩ => ⟨S8x24x32x4096x1, .f32⟩
  | .hbm, ⟨21, _⟩ => ⟨S8x24x32x4096x1, .f32⟩
  | .hbm, ⟨22, _⟩ => ⟨S8x24x32x1x4096, .f32⟩
  | .hbm, ⟨23, _⟩ => ⟨S8x24x32x4096, .f32⟩
  | .hbm, ⟨24, _⟩ => ⟨S_, .i32⟩
  | .hbm, ⟨25, _⟩ => ⟨S4096x9, .i32⟩
  | .hbm, ⟨26, _⟩ => ⟨S4096x9, .i1⟩
  | .hbm, ⟨27, _⟩ => ⟨S_, .i32⟩
  | .hbm, ⟨28, _⟩ => ⟨S4096x9, .i32⟩
  | .hbm, ⟨29, _⟩ => ⟨S4096x9, .i32⟩
  | .hbm, ⟨30, _⟩ => ⟨S4096x9, .i32⟩
  | .hbm, ⟨31, _⟩ => ⟨S4096x9x1, .i32⟩
  | .hbm, ⟨32, _⟩ => ⟨S8x24x32x4096x9, .f32⟩
  | .hbm, ⟨33, _⟩ => ⟨S8x24x32x9x4096, .f32⟩
  | .hbm, ⟨34, _⟩ => ⟨S8x24x4096x288, .f32⟩
  | .hbm, ⟨35, _⟩ => ⟨S8x24x4096x16, .f32⟩
  | .hbm, ⟨36, _⟩ => ⟨S1x1x1x16, .f32⟩
  | .hbm, ⟨37, _⟩ => ⟨S8x24x4096x16, .f32⟩
  | .hbm, ⟨38, _⟩ => ⟨S8x24x4096x16, .f32⟩
  | .hbm, ⟨39, _⟩ => ⟨S8x24x16x4096, .f32⟩
  | .hbm, ⟨40, _⟩ => ⟨S8x24x16x4096x1, .f32⟩
  | .hbm, ⟨41, _⟩ => ⟨S_, .f32⟩
  | .hbm, ⟨42, _⟩ => ⟨S24x16, .f32⟩
  | .hbm, ⟨43, _⟩ => ⟨S1x24x16x1x1, .f32⟩
  | .hbm, ⟨44, _⟩ => ⟨S_, .f32⟩
  | .hbm, ⟨45, _⟩ => ⟨S1x24x16x1x1, .f32⟩
  | .hbm, ⟨46, _⟩ => ⟨S1x24x16x1x1, .f32⟩
  | .hbm, ⟨47, _⟩ => ⟨S_, .i32⟩
  | .hbm, ⟨48, _⟩ => ⟨S_, .f32⟩
  | .hbm, ⟨49, _⟩ => ⟨S24x16, .f32⟩
  | .hbm, ⟨50, _⟩ => ⟨S1x24x16x1x1, .f32⟩
  | .hbm, ⟨51, _⟩ => ⟨S_, .f32⟩
  | .hbm, ⟨52, _⟩ => ⟨S1x24x16x1x1, .f32⟩
  | .hbm, ⟨53, _⟩ => ⟨S1x24x16x1x1, .f32⟩
  | .hbm, ⟨54, _⟩ => ⟨S8x24x16x4096x1, .f32⟩
  | .hbm, ⟨55, _⟩ => ⟨S8x24x16x4096x1, .f32⟩
  | .hbm, ⟨56, _⟩ => ⟨S8x24x16x4096x1, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S24x16, .f32⟩
  | .hbm, ⟨62, _⟩ => ⟨S1x24x16x1x1, .f32⟩
  | .hbm, ⟨63, _⟩ => ⟨S1x24x16x1x1, .f32⟩
  | .hbm, ⟨64, _⟩ => ⟨S1x24x16x1x1, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S1x24x16x1x1, .f32⟩
  | .hbm, ⟨70, _⟩ => ⟨S1x24x16x1x1, .f32⟩
  | .hbm, ⟨71, _⟩ => ⟨S1x1x16x1x1, .f32⟩
  | .hbm, ⟨72, _⟩ => ⟨S8x24x16x4096x1, .f32⟩
  | .hbm, ⟨73, _⟩ => ⟨S8x24x16x4096x1, .f32⟩
  | .hbm, ⟨74, _⟩ => ⟨S8x24x16x4096x1, .f32⟩
  | .hbm, ⟨75, _⟩ => ⟨S8x24x16x4096x1, .f32⟩
  | .hbm, ⟨76, _⟩ => ⟨S_, .f32⟩
  | .hbm, ⟨77, _⟩ => ⟨S1x24x16x1x1, .f32⟩
  | .hbm, ⟨78, _⟩ => ⟨S1x24x16x1x1, .f32⟩
  | .hbm, ⟨79, _⟩ => ⟨S1x24x16x1x1, .f32⟩
  | .hbm, ⟨80, _⟩ => ⟨S8x24x16x4096x1, .f32⟩
  | .hbm, ⟨81, _⟩ => ⟨S8x24x16x4096x1, .f32⟩
  | .hbm, ⟨82, _⟩ => ⟨S1x1x16x1x1, .f32⟩
  | .hbm, ⟨83, _⟩ => ⟨S8x24x16x4096x1, .f32⟩
  | .hbm, ⟨84, _⟩ => ⟨S8x24x16x4096x1, .f32⟩
  | .hbm, ⟨85, _⟩ => ⟨S_, .f32⟩
  | .hbm, ⟨86, _⟩ => ⟨S8x24x16x4096x1, .f32⟩
  | .hbm, ⟨87, _⟩ => ⟨S8x24x16x4096x1, .f32⟩
  | .hbm, ⟨88, _⟩ => ⟨S8x24x16x1x4096, .f32⟩
  | .hbm, ⟨89, _⟩ => ⟨S8x24x16x4096, .f32⟩
  | .hbm, ⟨90, _⟩ => ⟨S_, .i32⟩
  | .hbm, ⟨91, _⟩ => ⟨S4096x9, .i32⟩
  | .hbm, ⟨92, _⟩ => ⟨S4096x9, .i1⟩
  | .hbm, ⟨93, _⟩ => ⟨S_, .i32⟩
  | .hbm, ⟨94, _⟩ => ⟨S4096x9, .i32⟩
  | .hbm, ⟨95, _⟩ => ⟨S4096x9, .i32⟩
  | .hbm, ⟨96, _⟩ => ⟨S4096x9, .i32⟩
  | .hbm, ⟨97, _⟩ => ⟨S4096x9x1, .i32⟩
  | .hbm, ⟨98, _⟩ => ⟨S8x24x16x4096x9, .f32⟩
  | .hbm, ⟨99, _⟩ => ⟨S8x24x16x9x4096, .f32⟩
  | .hbm, ⟨100, _⟩ => ⟨S8x24x4096x144, .f32⟩
  | .hbm, ⟨101, _⟩ => ⟨S8x24x4096x1, .f32⟩
  | .hbm, ⟨102, _⟩ => ⟨S1x1x1x1, .f32⟩
  | .hbm, ⟨103, _⟩ => ⟨S8x24x4096x1, .f32⟩
  | .hbm, ⟨104, _⟩ => ⟨S8x24x4096x1, .f32⟩
  | .hbm, ⟨105, _⟩ => ⟨S8x24x1x4096, .f32⟩
  | .hbm, ⟨106, _⟩ => ⟨S8x24x1x4096x1, .f32⟩
  | .hbm, ⟨107, _⟩ => ⟨S_, .f32⟩
  | .hbm, ⟨108, _⟩ => ⟨S8x24x1x4096x1, .f32⟩
  | .hbm, ⟨109, _⟩ => ⟨S8x24x1x4096x1, .f32⟩
  | .hbm, ⟨110, _⟩ => ⟨S8x24x4096, .f32⟩
  | _, _ => ⟨S8x24x4096x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_cst_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_cst_1 : Ref sig .tc := ⟨.hbm, 58, rfl⟩
abbrev main_call1_v8 : Ref sig .tc := ⟨.hbm, 59, rfl⟩
abbrev main_call1_cst_2 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_cst_3 : Ref sig .tc := ⟨.hbm, 65, rfl⟩
abbrev main_call1_v13 : Ref sig .tc := ⟨.hbm, 66, rfl⟩
abbrev main_call1_cst_4 : Ref sig .tc := ⟨.hbm, 67, rfl⟩
abbrev main_call1_call0_v0 : Ref sig .tc := ⟨.hbm, 68, rfl⟩
abbrev main_call1_call0_v1 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_3 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call2_cst : Ref sig .tc := ⟨.hbm, 85, rfl⟩
abbrev main_call2_v0 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_4 : Ref sig .tc := ⟨.hbm, 90, rfl⟩
abbrev main_v48 : Ref sig .tc := ⟨.hbm, 91, rfl⟩
abbrev main_v49 : Ref sig .tc := ⟨.hbm, 92, rfl⟩
abbrev main_c_5 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_call3_cst : Ref sig .tc := ⟨.hbm, 107, rfl⟩
abbrev main_call3_v0 : Ref sig .tc := ⟨.hbm, 108, rfl⟩
abbrev main_v63 : Ref sig .tc := ⟨.hbm, 109, rfl⟩
abbrev main_v64 : Ref sig .tc := ⟨.hbm, 110, rfl⟩

abbrev nD : Nat := 1
abbrev τ : Topo := Topo.v7x

variable {F : FTy → Type} [FloatOps F]

class Facts₀ : Prop where
  bcast_S8x24x4096x9_S8x24x1x4096x9_0_1_3_4 : S8x24x4096x9.BroadcastsInDim S8x24x1x4096x9 (![0, 1, 3, 4] : Fin 4 → Fin S8x24x1x4096x9.rank)
  transposes_S8x24x1x4096x9_S8x24x1x9x4096_0_1_2_4_3 : S8x24x1x4096x9.Transposes [0, 1, 2, 4, 3] S8x24x1x9x4096
  shapeCasts_S8x24x1x9x4096_S8x24x4096x9 : S8x24x1x9x4096.ShapeCasts S8x24x4096x9
  bcast_S32_S1x1x1x32_3 : S32.BroadcastsInDim S1x1x1x32 (![3] : Fin 1 → Fin S1x1x1x32.rank)
  bcast_S1x1x1x32_S8x24x4096x32_0_1_2_3 : S1x1x1x32.BroadcastsInDim S8x24x4096x32 (![0, 1, 2, 3] : Fin 4 → Fin S8x24x4096x32.rank)
  transposes_S8x24x4096x32_S8x24x32x4096_0_1_3_2 : S8x24x4096x32.Transposes [0, 1, 3, 2] S8x24x32x4096
  bcast_S8x24x32x4096_S8x24x32x4096x1_0_1_2_3 : S8x24x32x4096.BroadcastsInDim S8x24x32x4096x1 (![0, 1, 2, 3] : Fin 4 → Fin S8x24x32x4096x1.rank)
  bcast_S_S8x24x32x4096x1 : S_.BroadcastsInDim S8x24x32x4096x1 (![] : Fin 0 → Fin S8x24x32x4096x1.rank)
  transposes_S8x24x32x4096x1_S8x24x32x1x4096_0_1_2_4_3 : S8x24x32x4096x1.Transposes [0, 1, 2, 4, 3] S8x24x32x1x4096
  shapeCasts_S8x24x32x1x4096_S8x24x32x4096 : S8x24x32x1x4096.ShapeCasts S8x24x32x4096
  bcast_S_S4096x9 : S_.BroadcastsInDim S4096x9 (![] : Fin 0 → Fin S4096x9.rank)
  bcast_S4096x9_S4096x9x1_0_1 : S4096x9.BroadcastsInDim S4096x9x1 (![0, 1] : Fin 2 → Fin S4096x9x1.rank)
  transposes_S8x24x32x4096x9_S8x24x32x9x4096_0_1_2_4_3 : S8x24x32x4096x9.Transposes [0, 1, 2, 4, 3] S8x24x32x9x4096
  shapeCasts_S8x24x32x9x4096_S8x24x4096x288 : S8x24x32x9x4096.ShapeCasts S8x24x4096x288
  bcast_S16_S1x1x1x16_3 : S16.BroadcastsInDim S1x1x1x16 (![3] : Fin 1 → Fin S1x1x1x16.rank)
  bcast_S1x1x1x16_S8x24x4096x16_0_1_2_3 : S1x1x1x16.BroadcastsInDim S8x24x4096x16 (![0, 1, 2, 3] : Fin 4 → Fin S8x24x4096x16.rank)
  transposes_S8x24x4096x16_S8x24x16x4096_0_1_3_2 : S8x24x4096x16.Transposes [0, 1, 3, 2] S8x24x16x4096
  bcast_S8x24x16x4096_S8x24x16x4096x1_0_1_2_3 : S8x24x16x4096.BroadcastsInDim S8x24x16x4096x1 (![0, 1, 2, 3] : Fin 4 → Fin S8x24x16x4096x1.rank)
  reducesTo_S8x24x16x4096x1_S24x16_d0_3_4 : S8x24x16x4096x1.ReducesTo [0, 3, 4] S24x16
  h_S_ : 0 < S_.numel
  bcast_S24x16_S1x24x16x1x1_1_2 : S24x16.BroadcastsInDim S1x24x16x1x1 (![1, 2] : Fin 2 → Fin S1x24x16x1x1.rank)
  bcast_S_S1x24x16x1x1 : S_.BroadcastsInDim S1x24x16x1x1 (![] : Fin 0 → Fin S1x24x16x1x1.rank)
  bcast_S1x24x16x1x1_S8x24x16x4096x1_0_1_2_3_4 : S1x24x16x1x1.BroadcastsInDim S8x24x16x4096x1 (![0, 1, 2, 3, 4] : Fin 5 → Fin S8x24x16x4096x1.rank)
  shapeCasts_S16_S1x1x16x1x1 : S16.ShapeCasts S1x1x16x1x1
  bcast_S1x1x16x1x1_S8x24x16x4096x1_0_1_2_3_4 : S1x1x16x1x1.BroadcastsInDim S8x24x16x4096x1 (![0, 1, 2, 3, 4] : Fin 5 → Fin S8x24x16x4096x1.rank)
  bcast_S_S8x24x16x4096x1 : S_.BroadcastsInDim S8x24x16x4096x1 (![] : Fin 0 → Fin S8x24x16x4096x1.rank)
  transposes_S8x24x16x4096x1_S8x24x16x1x4096_0_1_2_4_3 : S8x24x16x4096x1.Transposes [0, 1, 2, 4, 3] S8x24x16x1x4096
  shapeCasts_S8x24x16x1x4096_S8x24x16x4096 : S8x24x16x1x4096.ShapeCasts S8x24x16x4096
  transposes_S8x24x16x4096x9_S8x24x16x9x4096_0_1_2_4_3 : S8x24x16x4096x9.Transposes [0, 1, 2, 4, 3] S8x24x16x9x4096
  shapeCasts_S8x24x16x9x4096_S8x24x4096x144 : S8x24x16x9x4096.ShapeCasts S8x24x4096x144
  bcast_S1_S1x1x1x1_3 : S1.BroadcastsInDim S1x1x1x1 (![3] : Fin 1 → Fin S1x1x1x1.rank)
  bcast_S1x1x1x1_S8x24x4096x1_0_1_2_3 : S1x1x1x1.BroadcastsInDim S8x24x4096x1 (![0, 1, 2, 3] : Fin 4 → Fin S8x24x4096x1.rank)
  transposes_S8x24x4096x1_S8x24x1x4096_0_1_3_2 : S8x24x4096x1.Transposes [0, 1, 3, 2] S8x24x1x4096
  bcast_S8x24x1x4096_S8x24x1x4096x1_0_1_2_3 : S8x24x1x4096.BroadcastsInDim S8x24x1x4096x1 (![0, 1, 2, 3] : Fin 4 → Fin S8x24x1x4096x1.rank)
  bcast_S_S8x24x1x4096x1 : S_.BroadcastsInDim S8x24x1x4096x1 (![] : Fin 0 → Fin S8x24x1x4096x1.rank)
  shapeCasts_S8x24x1x4096x1_S8x24x4096 : S8x24x1x4096x1.ShapeCasts S8x24x4096
  dot_S8x24x4096x9_S32x9_S8x24x4096x32_3_1_012_0_n_n_wf : DotDims.WF S8x24x4096x9 S32x9 S8x24x4096x32 [3] [1] [0, 1, 2] [0] [] []
  gather_S8x24x32x4096_S4096x9x1_S8x24x32x4096x9_012_3_n_n_3_2_824321_wf : GatherDims.WF S8x24x32x4096 S4096x9x1 S8x24x32x4096x9 [0, 1, 2] [3] [] [3] [] 2 ![8, 24, 32, 1]
  dot_S8x24x4096x288_S16x288_S8x24x4096x16_3_1_012_0_n_n_wf : DotDims.WF S8x24x4096x288 S16x288 S8x24x4096x16 [3] [1] [0, 1, 2] [0] [] []
  gather_S8x24x16x4096_S4096x9x1_S8x24x16x4096x9_012_3_n_n_3_2_824161_wf : GatherDims.WF S8x24x16x4096 S4096x9x1 S8x24x16x4096x9 [0, 1, 2] [3] [] [3] [] 2 ![8, 24, 16, 1]
  dot_S8x24x4096x144_S1x144_S8x24x4096x1_3_1_012_0_n_n_wf : DotDims.WF S8x24x4096x144 S1x144 S8x24x4096x1 [3] [1] [0, 1, 2] [0] [] []

variable [Facts₀]

def dot_S8x24x4096x9_S32x9_S8x24x4096x32_3_1_012_0_n_n : DotDims S8x24x4096x9 S32x9 S8x24x4096x32 where
  lhsContracting := [3]
  rhsContracting := [1]
  lhsNonContracting := [0, 1, 2]
  rhsNonContracting := [0]
  lhsBatch := []
  rhsBatch := []
  wf := dot_S8x24x4096x9_S32x9_S8x24x4096x32_3_1_012_0_n_n_wf
def gather_S8x24x32x4096_S4096x9x1_S8x24x32x4096x9_012_3_n_n_3_2_824321 : GatherDims S8x24x32x4096 S4096x9x1 S8x24x32x4096x9 where
  offsetDims := [0, 1, 2]
  collapsedSliceDims := [3]
  operandBatchingDims := []
  startIndicesBatchingDims := []
  startIndexMap := [3]
  indexVectorDim := 2
  sliceSizes := ![8, 24, 32, 1]
  wf := gather_S8x24x32x4096_S4096x9x1_S8x24x32x4096x9_012_3_n_n_3_2_824321_wf
def dot_S8x24x4096x288_S16x288_S8x24x4096x16_3_1_012_0_n_n : DotDims S8x24x4096x288 S16x288 S8x24x4096x16 where
  lhsContracting := [3]
  rhsContracting := [1]
  lhsNonContracting := [0, 1, 2]
  rhsNonContracting := [0]
  lhsBatch := []
  rhsBatch := []
  wf := dot_S8x24x4096x288_S16x288_S8x24x4096x16_3_1_012_0_n_n_wf
def gather_S8x24x16x4096_S4096x9x1_S8x24x16x4096x9_012_3_n_n_3_2_824161 : GatherDims S8x24x16x4096 S4096x9x1 S8x24x16x4096x9 where
  offsetDims := [0, 1, 2]
  collapsedSliceDims := [3]
  operandBatchingDims := []
  startIndicesBatchingDims := []
  startIndexMap := [3]
  indexVectorDim := 2
  sliceSizes := ![8, 24, 16, 1]
  wf := gather_S8x24x16x4096_S4096x9x1_S8x24x16x4096x9_012_3_n_n_3_2_824161_wf
def dot_S8x24x4096x144_S1x144_S8x24x4096x1_3_1_012_0_n_n : DotDims S8x24x4096x144 S1x144 S8x24x4096x1 where
  lhsContracting := [3]
  rhsContracting := [1]
  lhsNonContracting := [0, 1, 2]
  rhsNonContracting := [0]
  lhsBatch := []
  rhsBatch := []
  wf := dot_S8x24x4096x144_S1x144_S8x24x4096x1_3_1_012_0_n_n_wf

class Facts : Prop extends Facts₀ where

variable [Facts]
-- ==== Proof.Spec.lean ====
/-
  The mathematics both programs compute, index by index over the extended reals, as curried functions of
  coordinates: three "irregular convolution" layers over 4096 nodes with 9 sorted neighbours each.
  A layer reads, for node n, the 9·C values (channel c, neighbour slot k) of its neighbourhood through a SCRAMBLED
  re-layout — the (C, 9, 4096) row-major array of gathered values re-read as 4096 rows of C·9 columns, so that row n,
  column m is the element at flat position q = n·(C·9) + m, that is channel q / 36864, slot (q / 4096) % 9 and
  node q % 4096 — and multiplies that row by a weight matrix, adds a bias and (layers 1 and 3) clips at zero.
  Between layers 2 and 3 stands a batch normalization whose mean and (biased) variance are taken, per sequence
  step s and channel o, over the 8 batch entries and the 4096 nodes.
-/
import Idealize.ShloMosaic.PureOps.Ideal
import Idealize.ShloMosaic.Lib.ValueIdx

noncomputable section

open scoped BigOperators

namespace Cert.Spec

open Idealize.ShloMosaic Idealize.ShloMosaic.ValueIdx

/-! ## The four float words the programs share, read as extended reals (never evaluated: the same word on both sides) -/

/-- The word of 0.0. -/
abbrev Z : EReal := Ideal.ofBits .f32 0x00000000#32
/-- The word of 32768.0, the number of elements a statistic is taken over. -/
abbrev CNT : EReal := Ideal.ofBits .f32 0x47000000#32
/-- The word of the normalization's epsilon. -/
abbrev EPS : EReal := Ideal.ofBits .f32 0x3727C5AC#32
/-- The word the variance falls back to when its divisor is not positive. -/
abbrev NAN : EReal := Ideal.ofBits .f32 0x7FC00000#32
/-- The variance's divisor: the count minus the (zero) degrees of freedom, converted from an integer word. -/
abbrev DEN : EReal := CNT - (FloatOps.sitofp (F := Ideal) .f32 (0#32 : BitVec 32) : Ideal .f32)

/-! ## Shapes (the programs' own, spelt once more so that this file imports no program) -/

namespace Shapes
abbrev S_ : Shape := ⟨0, ![]⟩
abbrev S8x24x4096x9 : Shape := ⟨4, ![8, 24, 4096, 9]⟩
abbrev S4096x9 : Shape := ⟨2, ![4096, 9]⟩
abbrev S4096x9x1 : Shape := ⟨3, ![4096, 9, 1]⟩
abbrev S32x9 : Shape := ⟨2, ![32, 9]⟩
abbrev S32 : Shape := ⟨1, ![32]⟩
abbrev S16x288 : Shape := ⟨2, ![16, 288]⟩
abbrev S16 : Shape := ⟨1, ![16]⟩
abbrev S1x144 : Shape := ⟨2, ![1, 144]⟩
abbrev S1 : Shape := ⟨1, ![1]⟩
abbrev S8x24x4096 : Shape := ⟨3, ![8, 24, 4096]⟩
end Shapes
open Shapes

/-! ## Coordinates -/

/-- Batch entry b and sequence step s as one row of the flattened (8·24)-row arrays. -/
def bs (b : Fin 8) (s : Fin 24) : Fin 192 := ⟨b.val * 24 + s.val, by omega⟩

/-- The scrambled re-layout at C = 1 (width 9): the node and the slot that row n, column k reads. -/
def scrN9 (n : Fin 4096) (k : Fin 9) : Fin 4096 := ⟨(n.val * 9 + k.val) % 4096, Nat.mod_lt _ (by norm_num)⟩
def scrK9 (n : Fin 4096) (k : Fin 9) : Fin 9 := ⟨(n.val * 9 + k.val) / 4096, by omega⟩
/-- At C = 32 (width 288): node, slot and channel that row n, column m reads. -/
def scrN288 (n : Fin 4096) (m : Fin 288) : Fin 4096 := ⟨(n.val * 288 + m.val) % 4096, Nat.mod_lt _ (by norm_num)⟩
def scrK288 (n : Fin 4096) (m : Fin 288) : Fin 9 := ⟨(n.val * 288 + m.val) / 4096 % 9, Nat.mod_lt _ (by norm_num)⟩
def scrC288 (n : Fin 4096) (m : Fin 288) : Fin 32 := ⟨(n.val * 288 + m.val) / 36864, by omega⟩
/-- At C = 16 (width 144). -/
def scrN144 (n : Fin 4096) (m : Fin 144) : Fin 4096 := ⟨(n.val * 144 + m.val) % 4096, Nat.mod_lt _ (by norm_num)⟩
def scrK144 (n : Fin 4096) (m : Fin 144) : Fin 9 := ⟨(n.val * 144 + m.val) / 4096 % 9, Nat.mod_lt _ (by norm_num)⟩
def scrC144 (n : Fin 4096) (m : Fin 144) : Fin 16 := ⟨(n.val * 144 + m.val) / 36864, by omega⟩

/-- The node a neighbour word names: read signed and clamped into [0, 4095], as the host's gather clamps a start index. -/
def gnode (I : Fin 4096 → Fin 9 → BitVec 32) (n : Fin 4096) (k : Fin 9) : Fin 4096 :=
  ⟨min (I n k).toInt.toNat 4095, by omega⟩

/-! ## Arrays as curried functions of their coordinates -/

def cur4 {n0 n1 n2 n3 : Nat} {α : Type} (x : (⟨4, ![n0, n1, n2, n3]⟩ : Shape).Idx → α) : Fin n0 → Fin n1 → Fin n2 → Fin n3 → α :=
  fun a b c d => x (ix4 a b c d)
def cur2 {n0 n1 : Nat} {α : Type} (x : (⟨2, ![n0, n1]⟩ : Shape).Idx → α) : Fin n0 → Fin n1 → α := fun a b => x (ix2 a b)
def cur1 {n0 : Nat} {α : Type} (x : (⟨1, ![n0]⟩ : Shape).Idx → α) : Fin n0 → α := fun a => x (ix1 a)
/-- The prepared neighbour words, an array [4096, 9, 1], by node and slot. -/
def curI (I : IVec S4096x9x1 32) : Fin 4096 → Fin 9 → BitVec 32 := fun n k => I (ix3 n k (0 : Fin 1))

/-- The neighbour words as both programs prepare them for the gather: a negative word wraps by 4096 (numpy's negative
    indexing), then a unit axis is appended. -/
def idxPrep (neigh : IVec S4096x9 32) : IVec S4096x9x1 32 :=
  broadcastInDim S4096x9x1 ![0, 1] (by decide)
    (select (cmpi .slt neigh (broadcastInDim S4096x9 ![] (by decide) (constantI S_ 32 0#32)))
      (addi neigh (broadcastInDim S4096x9 ![] (by decide) (constantI S_ 32 4096#32))) neigh)

/-! ## The layers -/

/-- Layer 1's rows: the input re-read through the scrambled layout (one channel). -/
def sT1 (x : Fin 8 → Fin 24 → Fin 4096 → Fin 9 → EReal) : Fin 8 → Fin 24 → Fin 4096 → Fin 9 → EReal :=
  fun b s n k => x b s (scrN9 n k) (scrK9 n k)

/-- Layer 1: row times weights plus bias, clipped at zero. -/
def sH1 (t : Fin 8 → Fin 24 → Fin 4096 → Fin 9 → EReal) (W : Fin 32 → Fin 9 → EReal) (bias : Fin 32 → EReal) :
    Fin 8 → Fin 24 → Fin 4096 → Fin 32 → EReal :=
  fun b s n o => max (∑ k : Fin 9, t b s n k * W o k + bias o) Z

/-- Layer 2's rows: the neighbours' layer-1 values (the node a word names, channel c), re-read through the scrambled layout. -/
def sT2 (h : Fin 8 → Fin 24 → Fin 4096 → Fin 32 → EReal) (I : Fin 4096 → Fin 9 → BitVec 32) :
    Fin 8 → Fin 24 → Fin 4096 → Fin 288 → EReal :=
  fun b s n m => h b s (gnode I (scrN288 n m) (scrK288 n m)) (scrC288 n m)

/-- Layer 2: row times weights plus bias. -/
def sY2 (t : Fin 8 → Fin 24 → Fin 4096 → Fin 288 → EReal) (W : Fin 16 → Fin 288 → EReal) (bias : Fin 16 → EReal) :
    Fin 8 → Fin 24 → Fin 4096 → Fin 16 → EReal :=
  fun b s n o => ∑ m : Fin 288, t b s n m * W o m + bias o

/-- The mean over batch and nodes. -/
def sMean (y : Fin 8 → Fin 24 → Fin 4096 → Fin 16 → EReal) : Fin 24 → Fin 16 → EReal :=
  fun s o => Ideal.div (Z + ∑ b : Fin 8, ∑ n : Fin 4096, y b s n o) CNT

/-- The biased variance over batch and nodes, as jnp.var spells it. -/
def sVar (y : Fin 8 → Fin 24 → Fin 4096 → Fin 16 → EReal) : Fin 24 → Fin 16 → EReal :=
  fun s o => Scalar.select (FloatOps.cmpf (F := Ideal) (φ := .f32) .ogt DEN Z)
    (Ideal.div (Z + ∑ b : Fin 8, ∑ n : Fin 4096, (y b s n o - sMean y s o) * (y b s n o - sMean y s o)) DEN) NAN

/-- The normalization with its affine map, clipped at zero. -/
def sY2n (y : Fin 8 → Fin 24 → Fin 4096 → Fin 16 → EReal) (γ β : Fin 16 → EReal) :
    Fin 8 → Fin 24 → Fin 4096 → Fin 16 → EReal :=
  fun b s n o => max (γ o * (y b s n o - sMean y s o) * Ideal.rsqrt (sVar y s o + EPS) + β o) Z

/-- Layer 3's rows. -/
def sT3 (h : Fin 8 → Fin 24 → Fin 4096 → Fin 16 → EReal) (I : Fin 4096 → Fin 9 → BitVec 32) :
    Fin 8 → Fin 24 → Fin 4096 → Fin 144 → EReal :=
  fun b s n m => h b s (gnode I (scrN144 n m) (scrK144 n m)) (scrC144 n m)

/-- Layer 3: one output channel, clipped at zero. -/
def sOut (t : Fin 8 → Fin 24 → Fin 4096 → Fin 144 → EReal) (W : Fin 1 → Fin 144 → EReal) (bias : Fin 1 → EReal) :
    Fin 8 → Fin 24 → Fin 4096 → EReal :=
  fun b s n => max (∑ m : Fin 144, t b s n m * W 0 m + bias 0) Z

/-- The whole network. -/
def sNet (x : Fin 8 → Fin 24 → Fin 4096 → Fin 9 → EReal) (I : Fin 4096 → Fin 9 → BitVec 32)
    (W1 : Fin 32 → Fin 9 → EReal) (b1 : Fin 32 → EReal) (W2 : Fin 16 → Fin 288 → EReal) (b2 : Fin 16 → EReal)
    (γ β : Fin 16 → EReal) (W3 : Fin 1 → Fin 144 → EReal) (b3 : Fin 1 → EReal) : Fin 8 → Fin 24 → Fin 4096 → EReal :=
  sOut (sT3 (sY2n (sY2 (sT2 (sH1 (sT1 x) W1 b1) I) W2 b2) γ β) I) W3 b3

/-- The network as an array [8, 24, 4096] of the ten argument arrays. -/
def net (x : FVec Ideal S8x24x4096x9 .f32) (neigh : IVec S4096x9 32) (W1 : FVec Ideal S32x9 .f32) (b1 : FVec Ideal S32 .f32)
    (W2 : FVec Ideal S16x288 .f32) (b2 : FVec Ideal S16 .f32) (γ β : FVec Ideal S16 .f32) (W3 : FVec Ideal S1x144 .f32)
    (b3 : FVec Ideal S1 .f32) : FVec Ideal S8x24x4096 .f32 :=
  fun j => sNet (cur4 x) (curI (idxPrep neigh)) (cur2 W1) (cur1 b1) (cur2 W2) (cur1 b2) (cur1 γ) (cur1 β) (cur2 W3) (cur1 b3)
    (j 0) (j 1) (j 2)

end Cert.Spec

end
-- ==== Proof.KStages.lean ====
/-
  The kernel program's host stretches and its four kernel calls as pure functions of arrays: each host stretch the
  composition of its printed operations (so that the run's fold through the stretch IS the function, by unfolding), each
  kernel call the whole-array function its grid of row blocks computes (rows of the flattened 192-row arrays are
  independent: a block of two rows is the restriction of the function to those rows).
-/
import proofs.«410499_j42975442764370_3_alg».proof.KernelIdeal
import proofs.«410499_j42975442764370_3_alg».proof.Proof.Gen.KernelIdeal
import proofs.«410499_j42975442764370_3_alg».proof.Proof.Spec

noncomputable section

open scoped BigOperators

namespace Cert.KStages

open Cert.KernelIdeal Cert.KernelIdeal.Gen Idealize.ShloMosaic Idealize.ShloMosaic.ValueIdx

variable {F : FTy → Type} [FloatOps F]

/-! ## The host stretches (at any float instance) -/

/-- Before the first call: the input flattened to 192 rows and re-read through the scrambled layout at one channel. -/
def pre0 (x : (⟨S8x24x4096x9, .f32⟩ : BufTy).Contents (Elt F)) : (⟨S192x4096x9, .f32⟩ : BufTy).Contents (Elt F) :=
  shapeCast S192x4096x9
    (transpose S192x9x4096 [0, 2, 1] (shapeCast S192x4096x9 x shapeCasts_S8x24x4096x9_S192x4096x9) transposes_S192x4096x9_S192x9x4096_0_2_1)
    shapeCasts_S192x9x4096_S192x4096x9

/-- Between calls 1 and 2: channels first, the neighbours gathered along the node axis, slots before nodes, and the
    (32, 9, 4096) rows re-read as 4096 rows of 288. -/
def mid1 (h : (⟨S192x4096x32, .f32⟩ : BufTy).Contents (Elt F)) (I : (⟨S4096x9x1, .i32⟩ : BufTy).Contents (Elt F)) :
    (⟨S192x4096x288, .f32⟩ : BufTy).Contents (Elt F) :=
  shapeCast S192x4096x288
    (transpose S192x32x9x4096 [0, 1, 3, 2]
      (Host.gather gather_S192x32x4096_S4096x9x1_S192x32x4096x9_01_2_n_n_2_2_192321
        (transpose S192x32x4096 [0, 2, 1] h transposes_S192x4096x32_S192x32x4096_0_2_1) I)
      transposes_S192x32x4096x9_S192x32x9x4096_0_1_3_2)
    shapeCasts_S192x32x9x4096_S192x4096x288

/-- The same between calls 3 and 4, at 16 channels. -/
def mid3 (h : (⟨S192x4096x16, .f32⟩ : BufTy).Contents (Elt F)) (I : (⟨S4096x9x1, .i32⟩ : BufTy).Contents (Elt F)) :
    (⟨S192x4096x144, .f32⟩ : BufTy).Contents (Elt F) :=
  shapeCast S192x4096x144
    (transpose S192x16x9x4096 [0, 1, 3, 2]
      (Host.gather gather_S192x16x4096_S4096x9x1_S192x16x4096x9_01_2_n_n_2_2_192161
        (transpose S192x16x4096 [0, 2, 1] h transposes_S192x4096x16_S192x16x4096_0_2_1) I)
      transposes_S192x16x4096x9_S192x16x9x4096_0_1_3_2)
    shapeCasts_S192x16x9x4096_S192x4096x144

/-- Layer 2's result with batch and sequence step apart again. -/
def unflat (y : (⟨S192x4096x16, .f32⟩ : BufTy).Contents (Elt F)) : (⟨S8x24x4096x16, .f32⟩ : BufTy).Contents (Elt F) :=
  shapeCast S8x24x4096x16 y shapeCasts_S192x4096x16_S8x24x4096x16

/-- The mean per step and channel: the sum over batch and nodes, divided by the count. -/
def mean (y4 : (⟨S8x24x4096x16, .f32⟩ : BufTy).Contents (Elt F)) : (⟨S24x16, .f32⟩ : BufTy).Contents (Elt F) :=
  Host.divf (Host.reduceAdd y4 (constant S_ .f32 0x00000000#32) reducesTo_S8x24x4096x16_S24x16_d0_2 h_S_)
    (broadcastInDim S24x16 ![] bcast_S_S24x16 (constant S_ .f32 0x47000000#32))

/-- The variance per step and channel, as jnp.var's outlined function computes it. -/
def var (y4 : (⟨S8x24x4096x16, .f32⟩ : BufTy).Contents (Elt F)) : (⟨S24x16, .f32⟩ : BufTy).Contents (Elt F) :=
  select
    (broadcastInDim S24x16 ![] bcast_S_S24x16
      (cmpf (F := F) .ogt (subf (constant S_ .f32 0x47000000#32) (sitofp .f32 (constantI S_ 32 0#32))) (constant S_ .f32 0x00000000#32)))
    (Host.divf
      (Host.reduceAdd
        (mulf
          (subf y4 (broadcastInDim S8x24x4096x16 ![0, 1, 2, 3] bcast_S1x24x1x16_S8x24x4096x16_0_1_2_3
            (Host.divf
              (broadcastInDim S1x24x1x16 ![1, 3] bcast_S24x16_S1x24x1x16_1_3
                (Host.reduceAdd y4 (constant S_ .f32 0x00000000#32) reducesTo_S8x24x4096x16_S24x16_d0_2 h_S_))
              (broadcastInDim S1x24x1x16 ![] bcast_S_S1x24x1x16 (constant S_ .f32 0x47000000#32)))))
          (subf y4 (broadcastInDim S8x24x4096x16 ![0, 1, 2, 3] bcast_S1x24x1x16_S8x24x4096x16_0_1_2_3
            (Host.divf
              (broadcastInDim S1x24x1x16 ![1, 3] bcast_S24x16_S1x24x1x16_1_3
                (Host.reduceAdd y4 (constant S_ .f32 0x00000000#32) reducesTo_S8x24x4096x16_S24x16_d0_2 h_S_))
              (broadcastInDim S1x24x1x16 ![] bcast_S_S1x24x1x16 (constant S_ .f32 0x47000000#32))))))
        (constant S_ .f32 0x00000000#32) reducesTo_S8x24x4096x16_S24x16_d0_2 h_S_)
      (broadcastInDim S24x16 ![] bcast_S_S24x16 (subf (constant S_ .f32 0x47000000#32) (sitofp .f32 (constantI S_ 32 0#32)))))
    (broadcastInDim S24x16 ![] bcast_S_S24x16 (id (constant S_ .f32 0x7FC00000#32)))

/-- A per-step statistic repeated over the batch and laid out by flattened row, with a unit middle axis. -/
def toRows (v : (⟨S24x16, .f32⟩ : BufTy).Contents (Elt F)) : (⟨S192x1x16, .f32⟩ : BufTy).Contents (Elt F) :=
  shapeCast S192x1x16
    (shapeCast S192x16
      (broadcastInDim S8x24x1x16 ![0, 1, 2, 3] bcast_S1x24x1x16_S8x24x1x16_0_1_2_3 (shapeCast S1x24x1x16 v shapeCasts_S24x16_S1x24x1x16))
      shapeCasts_S8x24x1x16_S192x16)
    shapeCasts_S192x16_S192x1x16

/-- After the last call: the unit channel dropped and the rows split into batch and step. -/
def post (o : (⟨S192x4096x1, .f32⟩ : BufTy).Contents (Elt F)) : (⟨S8x24x4096, .f32⟩ : BufTy).Contents (Elt F) :=
  shapeCast S8x24x4096 (shapeCast S192x4096 o shapeCasts_S192x4096x1_S192x4096) shapeCasts_S192x4096_S8x24x4096

/-! ## The four kernel calls as whole-array functions (at the extended reals) -/

/-- Call 1: each row of 9 against each of the 32 weight rows, plus bias, clipped at zero. -/
def G0 (t : FVec Ideal S192x4096x9 .f32) (W : FVec Ideal S32x9 .f32) (b : FVec Ideal S32 .f32) : FVec Ideal S192x4096x32 .f32 :=
  fun j => max (∑ k : Fin 9, t (ix3 (j 0) (j 1) k) * W (ix2 (j 2) k) + b (ix1 (j 2))) Spec.Z
theorem G0_apply (t : FVec Ideal S192x4096x9 .f32) (W : FVec Ideal S32x9 .f32) (b : FVec Ideal S32 .f32) (a : Fin 192) (n : Fin 4096) (o : Fin 32) :
    G0 t W b (ix3 a n o) = max (∑ k : Fin 9, t (ix3 a n k) * W (ix2 o k) + b (ix1 o)) Spec.Z := rfl

/-- Call 2: each row of 288 against each of the 16 weight rows, plus bias. -/
def G1 (t : FVec Ideal S192x4096x288 .f32) (W : FVec Ideal S16x288 .f32) (b : FVec Ideal S16 .f32) : FVec Ideal S192x4096x16 .f32 :=
  fun j => ∑ k : Fin 288, t (ix3 (j 0) (j 1) k) * W (ix2 (j 2) k) + b (ix1 (j 2))
theorem G1_apply (t : FVec Ideal S192x4096x288 .f32) (W : FVec Ideal S16x288 .f32) (b : FVec Ideal S16 .f32) (a : Fin 192) (n : Fin 4096) (o : Fin 16) :
    G1 t W b (ix3 a n o) = ∑ k : Fin 288, t (ix3 a n k) * W (ix2 o k) + b (ix1 o) := rfl

/-- Call 3: the normalization of each element by its row's mean and variance, the affine map, clipped at zero. -/
def G2 (y : FVec Ideal S192x4096x16 .f32) (mu va : FVec Ideal S192x1x16 .f32) (γ β : FVec Ideal S16 .f32) : FVec Ideal S192x4096x16 .f32 :=
  fun j => max (γ (ix1 (j 2)) * (y (ix3 (j 0) (j 1) (j 2)) - mu (ix3 (j 0) (0 : Fin 1) (j 2)))
    * Ideal.rsqrt (va (ix3 (j 0) (0 : Fin 1) (j 2)) + Spec.EPS) + β (ix1 (j 2))) Spec.Z
theorem G2_apply (y : FVec Ideal S192x4096x16 .f32) (mu va : FVec Ideal S192x1x16 .f32) (γ β : FVec Ideal S16 .f32) (a : Fin 192) (n : Fin 4096) (o : Fin 16) :
    G2 y mu va γ β (ix3 a n o) = max (γ (ix1 o) * (y (ix3 a n o) - mu (ix3 a (0 : Fin 1) o))
      * Ideal.rsqrt (va (ix3 a (0 : Fin 1) o) + Spec.EPS) + β (ix1 o)) Spec.Z := rfl

/-- Call 4: each row of 144 against the one weight row, plus bias, clipped at zero. -/
def G3 (t : FVec Ideal S192x4096x144 .f32) (W : FVec Ideal S1x144 .f32) (b : FVec Ideal S1 .f32) : FVec Ideal S192x4096x1 .f32 :=
  fun j => max (∑ k : Fin 144, t (ix3 (j 0) (j 1) k) * W (ix2 (j 2) k) + b (ix1 (j 2))) Spec.Z
theorem G3_apply (t : FVec Ideal S192x4096x144 .f32) (W : FVec Ideal S1x144 .f32) (b : FVec Ideal S1 .f32) (a : Fin 192) (n : Fin 4096) (o : Fin 1) :
    G3 t W b (ix3 a n o) = max (∑ k : Fin 144, t (ix3 a n k) * W (ix2 o k) + b (ix1 o)) Spec.Z := rfl

/-! ## The program's result as one function of its arguments -/

def kOut (x : FVec Ideal S8x24x4096x9 .f32) (neigh : IVec S4096x9 32) (W1 : FVec Ideal S32x9 .f32) (b1 : FVec Ideal S32 .f32)
    (W2 : FVec Ideal S16x288 .f32) (b2 : FVec Ideal S16 .f32) (γ β : FVec Ideal S16 .f32) (W3 : FVec Ideal S1x144 .f32)
    (b3 : FVec Ideal S1 .f32) : FVec Ideal S8x24x4096 .f32 :=
  post (F := Ideal) (G3 (mid3 (F := Ideal)
    (G2 (G1 (mid1 (F := Ideal) (G0 (pre0 (F := Ideal) x) W1 b1) (Spec.idxPrep neigh)) W2 b2)
      (toRows (F := Ideal) (mean (F := Ideal) (unflat (F := Ideal) (G1 (mid1 (F := Ideal) (G0 (pre0 (F := Ideal) x) W1 b1) (Spec.idxPrep neigh)) W2 b2))))
      (toRows (F := Ideal) (var (F := Ideal) (unflat (F := Ideal) (G1 (mid1 (F := Ideal) (G0 (pre0 (F := Ideal) x) W1 b1) (Spec.idxPrep neigh)) W2 b2))))
      γ β)
    (Spec.idxPrep neigh)) W3 b3)

end Cert.KStages

end
-- ==== Proof.KReg0.lean ====
/-
  The first pallas_call's output array after the call, as one function of the arrays it reads: every row of 9 against
  every one of the 32 weight rows, plus the bias, clipped at zero. The body's arithmetic at one element of a block of
  two rows, the block each grid point writes back as the restriction of that function to its two rows, and the 96
  blocks covering the 192 rows.
-/
import proofs.«410499_j42975442764370_3_alg».proof.Proof.Gen.KernelIdeal.Frame
import proofs.«410499_j42975442764370_3_alg».proof.Proof.KStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KReg0

open Cert.KernelIdeal Cert.KernelIdeal.Gen Idealize.ShloMosaic Idealize.ShloMosaic.ValueIdx Idealize.SL.Sem
open Idealize.ShloMosaic.TcCoe
open Idealize.ShloMosaic.Pipeline (Dat)

/-! ## The matrix product at an index -/

/-- On the rows' axis the left operand's index is the output's row. -/
theorem lhs_axis0 (j : S8192x32.Idx) (k : dot_S8192x9_S9x32_S8192x32_1_0_0_1_n_n.contr.Idx) :
    (dot_S8192x9_S9x32_S8192x32_1_0_0_1_n_n.lhsIdx j k (0 : Fin 2)).val = (j (0 : Fin 2)).val := by
  unfold DotDims.lhsIdx
  rw [dif_neg (show ¬(0 : Fin S8192x9.rank) ∈ dot_S8192x9_S9x32_S8192x32_1_0_0_1_n_n.lhsBatch by decide),
    dif_pos (show (0 : Fin S8192x9.rank) ∈ dot_S8192x9_S9x32_S8192x32_1_0_0_1_n_n.lhsNonContracting by decide)]
  rfl

/-- On the contracted axis the left operand's index is the contraction's coordinate. -/
theorem lhs_axis1 (j : S8192x32.Idx) (k : dot_S8192x9_S9x32_S8192x32_1_0_0_1_n_n.contr.Idx) :
    (dot_S8192x9_S9x32_S8192x32_1_0_0_1_n_n.lhsIdx j k (1 : Fin 2)).val = (k ⟨0, by decide⟩).val :=
  dot_S8192x9_S9x32_S8192x32_1_0_0_1_n_n.lhsIdx_val_of_single (cl := (1 : Fin 2)) rfl j k

/-- On the contracted axis the right operand's index is the contraction's coordinate. -/
theorem rhs_axis0 (j : S8192x32.Idx) (k : dot_S8192x9_S9x32_S8192x32_1_0_0_1_n_n.contr.Idx) :
    (dot_S8192x9_S9x32_S8192x32_1_0_0_1_n_n.rhsIdx j k (0 : Fin 2)).val = (k ⟨0, by decide⟩).val :=
  dot_S8192x9_S9x32_S8192x32_1_0_0_1_n_n.rhsIdx_val_of_single (cr := (0 : Fin 2)) rfl j k

/-- On the columns' axis the right operand's index is the output's column. -/
theorem rhs_axis1 (j : S8192x32.Idx) (k : dot_S8192x9_S9x32_S8192x32_1_0_0_1_n_n.contr.Idx) :
    (dot_S8192x9_S9x32_S8192x32_1_0_0_1_n_n.rhsIdx j k (1 : Fin 2)).val = (j (1 : Fin 2)).val := by
  unfold DotDims.rhsIdx
  rw [dif_neg (show ¬(1 : Fin S9x32.rank) ∈ dot_S8192x9_S9x32_S8192x32_1_0_0_1_n_n.rhsBatch by decide),
    dif_pos (show (1 : Fin S9x32.rank) ∈ dot_S8192x9_S9x32_S8192x32_1_0_0_1_n_n.rhsNonContracting by decide)]
  rfl

/-- The product into the zero accumulator at row p, column o: the sum over the 9 shared coordinates. -/
theorem matmul_zero_apply {φ₁ φ₂ : FTy} (A : FVec Ideal S8192x9 φ₁) (B : FVec Ideal S9x32 φ₂) (p : Fin 8192) (o : Fin 32) :
    matmul dot_S8192x9_S9x32_S8192x32_1_0_0_1_n_n none A B (constant S8192x32 .f32 0x00000000#32) (ix2 p o)
      = ∑ k : Fin 9, A (ix2 p k) * B (ix2 k o) := by
  show FloatOps.matmul _ none A B _ (ix2 p o) = _
  rw [Ideal.matmul_constant_zero_apply,
    ← Equiv.sum_comp (contrEquiv1 dot_S8192x9_S9x32_S8192x32_1_0_0_1_n_n 9 rfl rfl).symm]
  refine Finset.sum_congr rfl fun c _ => ?_
  have cv := contrEquiv1_symm_val dot_S8192x9_S9x32_S8192x32_1_0_0_1_n_n 9 rfl rfl c
  have hl : dot_S8192x9_S9x32_S8192x32_1_0_0_1_n_n.lhsIdx (ix2 p o)
      ((contrEquiv1 dot_S8192x9_S9x32_S8192x32_1_0_0_1_n_n 9 rfl rfl).symm c) = ix2 p c := by
    funext ax; apply Fin.ext
    match ax with
    | ⟨0, _⟩ => exact lhs_axis0 _ _
    | ⟨1, _⟩ => exact (lhs_axis1 _ _).trans cv
  have hr : dot_S8192x9_S9x32_S8192x32_1_0_0_1_n_n.rhsIdx (ix2 p o)
      ((contrEquiv1 dot_S8192x9_S9x32_S8192x32_1_0_0_1_n_n 9 rfl rfl).symm c) = ix2 c o := by
    funext ax; apply Fin.ext
    match ax with
    | ⟨0, _⟩ => exact (rhs_axis0 _ _).trans cv
    | ⟨1, _⟩ => exact rhs_axis1 _ _
  rw [hl, hr]

/-! ## The body's arithmetic at an index -/

/-- The body's result at row r of the block, node n, channel o: the row of 9 against weight row o, plus the bias,
    clipped at zero. -/
theorem pay_apply (x0 : Vec Ideal S2x4096x9 .f32) (x1 : Vec Ideal S32x9 .f32) (x2 : Vec Ideal S32 .f32)
    (r : Fin 2) (n : Fin 4096) (o : Fin 32) :
    k0_pay1 x0 x1 x2 (ix3 r n o) = max (∑ k : Fin 9, x0 (ix3 r n k) * x1 (ix2 o k) + x2 (ix1 o)) Spec.Z := by
  unfold k0_pay1
  -- the block's two rows of 4096 nodes are the 8192 rows of the product: row 4096 r + n
  refine (shapeCast_apply _ _ _ (ix2 (⟨4096 * r.val + n.val, by omega⟩ : Fin 8192) o) ?_).trans ?_
  · rw [Shape.rowMajor_val_two, Shape.rowMajor_val_three]
    show (4096 * r.val + n.val) * 32 + o.val = (r.val * 4096 + n.val) * 32 + o.val
    omega
  -- the clip at zero
  refine (maximumf_apply _ _ _).trans ?_
  refine congrArg₂ max ?_ rfl
  -- the product plus the bias
  refine (addf_apply _ _ _).trans ?_
  refine congrArg₂ (· + ·) ?_ ?_
  · refine (matmul_zero_apply _ _ _ o).trans ?_
    refine Finset.sum_congr rfl fun k _ => ?_
    refine congrArg₂ (· * ·) ?_ ?_
    · -- the left operand: the block's rows flattened
      show shapeCast S8192x9 (shapeCast S2x4096x9 x0 shapeCasts_S2x4096x9_S2x4096x9) shapeCasts_S2x4096x9_S8192x9
        (ix2 (⟨4096 * r.val + n.val, by omega⟩ : Fin 8192) k) = x0 (ix3 r n k)
      refine (shapeCast_apply _ _ _ (ix3 r n k) ?_).trans ?_
      · rw [Shape.rowMajor_val_two, Shape.rowMajor_val_three]
        show (r.val * 4096 + n.val) * 9 + k.val = (4096 * r.val + n.val) * 9 + k.val
        omega
      · rw [shapeCast_self]
    · -- the right operand: the weights transposed
      exact transpose_ix2_apply _ _ k o
  · -- the bias along the rows
    refine (broadcastTo_1b_ab_apply _ _ _ o).trans ?_
    exact shapeCast_a_1a_apply _ _ (0 : Fin 1) o

/-- A block whose two rows are rows 2 i and 2 i + 1 of an array computes those two rows of the whole-array function. -/
theorem pay_block (A : FVec Ideal S192x4096x9 .f32) (W : FVec Ideal S32x9 .f32) (b : FVec Ideal S32 .f32)
    (x0 : Vec Ideal S2x4096x9 .f32) (x1 : Vec Ideal S32x9 .f32) (x2 : Vec Ideal S32 .f32) (i : Nat) (hi : i < 96)
    (h0 : ∀ (r : Fin 2) (n : Fin 4096) (k : Fin 9), x0 (ix3 r n k) = A (ix3 (⟨i * 2 + r.val, by omega⟩ : Fin 192) n k))
    (h1 : x1 = W) (h2 : x2 = b) (r : Fin 2) (n : Fin 4096) (o : Fin 32) :
    k0_pay1 x0 x1 x2 (ix3 r n o) = KStages.G0 A W b (ix3 (⟨i * 2 + r.val, by omega⟩ : Fin 192) n o) := by
  subst h1 h2
  rw [pay_apply, KStages.G0_apply]
  simp only [h0]

/-! ## From blocks to the array -/

section Array

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The arrays the call reads, as the call finds them. -/
abbrev rowsArr (c : Dev nD) : FVec Ideal S192x4096x9 .f32 := V c main_v2
abbrev weightArr (c : Dev nD) : FVec Ideal S32x9 .f32 := V c main_arg2
abbrev biasArr (c : Dev nD) : FVec Ideal S32 .f32 := V c main_arg3

/-- The printed index maps over the grid: point t reads and writes row block t; weights and bias are read whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- What point t writes back is block t of the whole-array function of the arrays as the call finds them. -/
theorem flushed_eq (c : Dev nD) (t : Fin cfg0.N) :
    (dat0 (F := Ideal) V c).flushed 3 t
      = ((cfg0.win 3).blk t).view.read (Elt Ideal) (KStages.G0 (rowsArr V c) (weightArr V c) (biasArr V c)) := by
  show (cfg0.win 3).cut (grid0.coords t) ((dat0 (F := Ideal) V c).after 3 t) = _
  rw [after0_3]
  unfold out0_3
  rw [View.canon_unit_zero hz3]
  simp only [View.ld_unit_zero (S := S2x4096x9) hz3, View.ld_unit_zero (S := S32x9) hz2, View.ld_unit_zero (S := S32) hz1]
  obtain ⟨a0, a1, a2, b0, b1, c0, d0, d1, d2⟩ := idx_facts t
  have ht : t.val < 96 := lt_of_lt_of_eq t.isLt (show cfg0.N = 96 from N_0)
  -- the rows' block is rows 2 t and 2 t + 1
  have e0 : ∀ (r : Fin 2) (n : Fin 4096) (k : Fin 9),
      (iblk0 V c 0 t : Vec Ideal S2x4096x9 .f32) (ix3 r n k) = rowsArr V c (ix3 (⟨t.val * 2 + r.val, by omega⟩ : Fin 192) n k) := by
    intro r n k
    show V c main_v2 (((cfg0.win 0).blk t).view.emb (ix3 r n k)) = V c main_v2 _
    refine congrArg (V c main_v2) (funext fun a => Fin.ext ?_)
    match a with
    | ⟨0, _⟩ => show win0_0.index t (0 : Fin 3) * 2 + 1 * r.val = t.val * 2 + r.val; rw [a0]; omega
    | ⟨1, _⟩ => show win0_0.index t (1 : Fin 3) * 4096 + 1 * n.val = n.val; rw [a1]; omega
    | ⟨2, _⟩ => show win0_0.index t (2 : Fin 3) * 9 + 1 * k.val = k.val; rw [a2]; omega
  -- the weights and the bias are whole
  have e1 : (iblk0 V c 1 t : Vec Ideal S32x9 .f32) = weightArr V c := by
    funext y
    show V c main_arg2 (((cfg0.win 1).blk t).view.emb y) = V c main_arg2 y
    refine congrArg (V c main_arg2) (funext fun a => Fin.ext ?_)
    match a with
    | ⟨0, _⟩ => show win0_1.index t (0 : Fin 2) * 32 + 1 * (y 0).val = (y 0).val; rw [b0]; omega
    | ⟨1, _⟩ => show win0_1.index t (1 : Fin 2) * 9 + 1 * (y 1).val = (y 1).val; rw [b1]; omega
  have e2 : (iblk0 V c 2 t : Vec Ideal S32 .f32) = biasArr V c := by
    funext y
    show V c main_arg3 (((cfg0.win 2).blk t).view.emb y) = V c main_arg3 y
    refine congrArg (V c main_arg3) (funext fun a => Fin.ext ?_)
    match a with
    | ⟨0, _⟩ => show win0_2.index t (0 : Fin 1) * 32 + 1 * (y 0).val = (y 0).val; rw [c0]; omega
  funext (j : S2x4096x32.Idx)
  show k0_pay1 (iblk0 V c 0 t) (iblk0 V c 1 t) (iblk0 V c 2 t) j
    = KStages.G0 (rowsArr V c) (weightArr V c) (biasArr V c) (((cfg0.win 3).blk t).view.emb j)
  refine (congrArg (k0_pay1 (iblk0 V c 0 t) (iblk0 V c 1 t) (iblk0 V c 2 t)) (eq_ix3 j)).trans ?_
  refine (pay_block (rowsArr V c) (weightArr V c) (biasArr V c) (iblk0 V c 0 t) (iblk0 V c 1 t) (iblk0 V c 2 t) t.val ht e0 e1 e2
    (j 0) (j 1) (j 2)).trans ?_
  refine congrArg (KStages.G0 (rowsArr V c) (weightArr V c) (biasArr V c)) (funext fun a => Fin.ext ?_)
  match a with
  | ⟨0, _⟩ => show t.val * 2 + (j 0).val = win0_3.index t (0 : Fin 3) * 2 + 1 * (j 0).val; rw [d0]; omega
  | ⟨1, _⟩ => show (j 1).val = win0_3.index t (1 : Fin 3) * 4096 + 1 * (j 1).val; rw [d1]; omega
  | ⟨2, _⟩ => show (j 2).val = win0_3.index t (2 : Fin 3) * 32 + 1 * (j 2).val; rw [d2]; omega

/-- An index of the output array is in point t's block iff each coordinate is in the block's range on its axis. -/
theorem mem_blk (t : Fin cfg0.N) (i : S192x4096x32.Idx) :
    i ∈ ((cfg0.win 3).blk t).view.set ↔ ∀ a : Fin 3, win0_3.index t a * S2x4096x32.size a ≤ (i a).val
      ∧ (i a).val < win0_3.index t a * S2x4096x32.size a + S2x4096x32.size a := by
  show i ∈ ((View.whole main_v3).slice (win0_3.rect t)).set ↔ _
  rw [View.set_slice_whole, Rect.mem_set_unit]
  exact Iff.rfl

/-- Every row is in some point's block: row a in point a / 2's. -/
theorem cover (i : S192x4096x32.Idx) :
    ∃ t : Fin cfg0.N, (cfg0.win 3).flush t = true ∧ i ∈ ((cfg0.win 3).blk t).view.set := by
  have hi0 : (i 0).val < 192 := (i 0).isLt
  have hi1 : (i 1).val < 4096 := (i 1).isLt
  have hi2 : (i 2).val < 32 := (i 2).isLt
  have hq : (i 0).val / 2 < cfg0.N := by rw [show cfg0.N = 96 from N_0]; omega
  obtain ⟨-, -, -, -, -, -, d0, d1, d2⟩ := idx_facts ⟨(i 0).val / 2, hq⟩
  refine ⟨⟨(i 0).val / 2, hq⟩, flush0_3 _, ?_⟩
  rw [mem_blk]
  intro a
  match a with
  | ⟨0, _⟩ =>
    show win0_3.index ⟨(i 0).val / 2, hq⟩ (0 : Fin 3) * 2 ≤ (i 0).val
      ∧ (i 0).val < win0_3.index ⟨(i 0).val / 2, hq⟩ (0 : Fin 3) * 2 + 2
    rw [d0]; show (i 0).val / 2 * 2 ≤ (i 0).val ∧ (i 0).val < (i 0).val / 2 * 2 + 2; omega
  | ⟨1, _⟩ =>
    show win0_3.index ⟨(i 0).val / 2, hq⟩ (1 : Fin 3) * 4096 ≤ (i 1).val
      ∧ (i 1).val < win0_3.index ⟨(i 0).val / 2, hq⟩ (1 : Fin 3) * 4096 + 4096
    rw [d1]; omega
  | ⟨2, _⟩ =>
    show win0_3.index ⟨(i 0).val / 2, hq⟩ (2 : Fin 3) * 32 ≤ (i 2).val
      ∧ (i 2).val < win0_3.index ⟨(i 0).val / 2, hq⟩ (2 : Fin 3) * 32 + 32
    rw [d2]; omega

end Array

/-- The output array after the call: the whole-array function of the arrays as the call finds them. -/
theorem final0 (V : (c : Dev nD) → (b : Ref sig .tc) → Buf (Elt Ideal) ((c : Thread nD τ).loc b)) (c : Dev nD) :
    (dat0 (F := Ideal) V c).arrAt 3 cfg0.N = KStages.G0 (V c main_v2) (V c main_arg2) (V c main_arg3) :=
  (dat0 (F := Ideal) V c).arrAt_eq_of_cover 3 (KStages.G0 (V c main_v2) (V c main_arg2) (V c main_arg3))
    (fun t _ => flushed_eq V c t) cover

end Cert.KReg0

end
-- ==== Proof.KReg1.lean ====
/-
  The second call's output array after the call, as one function of the arrays it reads: every row of 288
  against every one of the 16 weight rows, plus the bias (no clip: the layer's result goes on to the normalization as
  it is). The call runs over 96 points; point t holds rows 2t and 2t + 1 of the flattened 192-row arrays, the weights
  [16, 288] and the bias [16] whole. The body flattens its two rows of 4096 nodes to 8192 rows, multiplies them by the
  transposed weights into a zero accumulator, adds the bias along the rows and splits the 8192 rows again: at row r of
  the block, node n and channel o that is the sum over the 288 shared coordinates of row (r, n) against weight row o,
  plus bias o, which depends on nothing outside the row. So what point t writes back is the restriction to its two
  rows of KStages.G1 of the three arrays, and the 96 blocks tile the output array: row a is in the block of point a / 2.
-/
import proofs.«410499_j42975442764370_3_alg».proof.Proof.Gen.KernelIdeal.Frame
import proofs.«410499_j42975442764370_3_alg».proof.Proof.KStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KReg1

open Cert.KernelIdeal Cert.KernelIdeal.Gen Idealize.ShloMosaic Idealize.ShloMosaic.ValueIdx Idealize.SL.Sem
open Idealize.ShloMosaic.TcCoe
open Idealize.ShloMosaic.Pipeline (Dat)

/-! ## The matrix product at an index -/

/-- On the rows' axis the left operand's index is the output's row. -/
theorem lhs_axis0 (j : S8192x16.Idx) (k : dot_S8192x288_S288x16_S8192x16_1_0_0_1_n_n.contr.Idx) :
    (dot_S8192x288_S288x16_S8192x16_1_0_0_1_n_n.lhsIdx j k (0 : Fin 2)).val = (j (0 : Fin 2)).val := by
  unfold DotDims.lhsIdx
  rw [dif_neg (show ¬(0 : Fin S8192x288.rank) ∈ dot_S8192x288_S288x16_S8192x16_1_0_0_1_n_n.lhsBatch by decide),
    dif_pos (show (0 : Fin S8192x288.rank) ∈ dot_S8192x288_S288x16_S8192x16_1_0_0_1_n_n.lhsNonContracting by decide)]
  rfl

/-- On the contracted axis the left operand's index is the contraction's coordinate. -/
theorem lhs_axis1 (j : S8192x16.Idx) (k : dot_S8192x288_S288x16_S8192x16_1_0_0_1_n_n.contr.Idx) :
    (dot_S8192x288_S288x16_S8192x16_1_0_0_1_n_n.lhsIdx j k (1 : Fin 2)).val = (k ⟨0, by decide⟩).val :=
  dot_S8192x288_S288x16_S8192x16_1_0_0_1_n_n.lhsIdx_val_of_single (cl := (1 : Fin 2)) rfl j k

/-- On the contracted axis the right operand's index is the contraction's coordinate. -/
theorem rhs_axis0 (j : S8192x16.Idx) (k : dot_S8192x288_S288x16_S8192x16_1_0_0_1_n_n.contr.Idx) :
    (dot_S8192x288_S288x16_S8192x16_1_0_0_1_n_n.rhsIdx j k (0 : Fin 2)).val = (k ⟨0, by decide⟩).val :=
  dot_S8192x288_S288x16_S8192x16_1_0_0_1_n_n.rhsIdx_val_of_single (cr := (0 : Fin 2)) rfl j k

/-- On the columns' axis the right operand's index is the output's column. -/
theorem rhs_axis1 (j : S8192x16.Idx) (k : dot_S8192x288_S288x16_S8192x16_1_0_0_1_n_n.contr.Idx) :
    (dot_S8192x288_S288x16_S8192x16_1_0_0_1_n_n.rhsIdx j k (1 : Fin 2)).val = (j (1 : Fin 2)).val := by
  unfold DotDims.rhsIdx
  rw [dif_neg (show ¬(1 : Fin S288x16.rank) ∈ dot_S8192x288_S288x16_S8192x16_1_0_0_1_n_n.rhsBatch by decide),
    dif_pos (show (1 : Fin S288x16.rank) ∈ dot_S8192x288_S288x16_S8192x16_1_0_0_1_n_n.rhsNonContracting by decide)]
  rfl

/-- The product into the zero accumulator at row p, column o: the sum over the 288 shared coordinates. -/
theorem matmul_zero_apply {φ₁ φ₂ : FTy} (A : FVec Ideal S8192x288 φ₁) (B : FVec Ideal S288x16 φ₂) (p : Fin 8192) (o : Fin 16) :
    matmul dot_S8192x288_S288x16_S8192x16_1_0_0_1_n_n none A B (constant S8192x16 .f32 0x00000000#32) (ix2 p o)
      = ∑ k : Fin 288, A (ix2 p k) * B (ix2 k o) := by
  show FloatOps.matmul _ none A B _ (ix2 p o) = _
  rw [Ideal.matmul_constant_zero_apply,
    ← Equiv.sum_comp (contrEquiv1 dot_S8192x288_S288x16_S8192x16_1_0_0_1_n_n 288 rfl rfl).symm]
  refine Finset.sum_congr rfl fun c _ => ?_
  have cv := contrEquiv1_symm_val dot_S8192x288_S288x16_S8192x16_1_0_0_1_n_n 288 rfl rfl c
  have hl : dot_S8192x288_S288x16_S8192x16_1_0_0_1_n_n.lhsIdx (ix2 p o)
      ((contrEquiv1 dot_S8192x288_S288x16_S8192x16_1_0_0_1_n_n 288 rfl rfl).symm c) = ix2 p c := by
    funext ax; apply Fin.ext
    match ax with
    | ⟨0, _⟩ => exact lhs_axis0 _ _
    | ⟨1, _⟩ => exact (lhs_axis1 _ _).trans cv
  have hr : dot_S8192x288_S288x16_S8192x16_1_0_0_1_n_n.rhsIdx (ix2 p o)
      ((contrEquiv1 dot_S8192x288_S288x16_S8192x16_1_0_0_1_n_n 288 rfl rfl).symm c) = ix2 c o := by
    funext ax; apply Fin.ext
    match ax with
    | ⟨0, _⟩ => exact (rhs_axis0 _ _).trans cv
    | ⟨1, _⟩ => exact rhs_axis1 _ _
  rw [hl, hr]

/-! ## The body's arithmetic at an index -/

/-- The body's result at row r of the block, node n, channel o: the row of 288 against weight row o, plus the bias. -/
theorem pay_apply (x0 : Vec Ideal S2x4096x288 .f32) (x1 : Vec Ideal S16x288 .f32) (x2 : Vec Ideal S16 .f32)
    (r : Fin 2) (n : Fin 4096) (o : Fin 16) :
    k1_pay1 x0 x1 x2 (ix3 r n o) = ∑ k : Fin 288, x0 (ix3 r n k) * x1 (ix2 o k) + x2 (ix1 o) := by
  unfold k1_pay1
  -- the block's two rows of 4096 nodes are the 8192 rows of the product: row 4096 r + n
  refine (shapeCast_apply _ _ _ (ix2 (⟨4096 * r.val + n.val, by omega⟩ : Fin 8192) o) ?_).trans ?_
  · rw [Shape.rowMajor_val_two, Shape.rowMajor_val_three]
    show (4096 * r.val + n.val) * 16 + o.val = (r.val * 4096 + n.val) * 16 + o.val
    omega
  -- the product plus the bias
  refine (addf_apply _ _ _).trans ?_
  refine congrArg₂ (· + ·) ?_ ?_
  · refine (matmul_zero_apply _ _ _ o).trans ?_
    refine Finset.sum_congr rfl fun k _ => ?_
    refine congrArg₂ (· * ·) ?_ ?_
    · -- the left operand: the block's rows flattened
      show shapeCast S8192x288 (shapeCast S2x4096x288 x0 shapeCasts_S2x4096x288_S2x4096x288) shapeCasts_S2x4096x288_S8192x288
        (ix2 (⟨4096 * r.val + n.val, by omega⟩ : Fin 8192) k) = x0 (ix3 r n k)
      refine (shapeCast_apply _ _ _ (ix3 r n k) ?_).trans ?_
      · rw [Shape.rowMajor_val_two, Shape.rowMajor_val_three]
        show (r.val * 4096 + n.val) * 288 + k.val = (4096 * r.val + n.val) * 288 + k.val
        omega
      · rw [shapeCast_self]
    · -- the right operand: the weights transposed
      exact transpose_ix2_apply _ _ k o
  · -- the bias along the rows
    refine (broadcastTo_1b_ab_apply _ _ _ o).trans ?_
    exact shapeCast_a_1a_apply _ _ (0 : Fin 1) o

/-- A block whose two rows are rows 2 i and 2 i + 1 of an array computes those two rows of the whole-array function. -/
theorem pay_block (A : FVec Ideal S192x4096x288 .f32) (W : FVec Ideal S16x288 .f32) (b : FVec Ideal S16 .f32)
    (x0 : Vec Ideal S2x4096x288 .f32) (x1 : Vec Ideal S16x288 .f32) (x2 : Vec Ideal S16 .f32) (i : Nat) (hi : i < 96)
    (h0 : ∀ (r : Fin 2) (n : Fin 4096) (k : Fin 288), x0 (ix3 r n k) = A (ix3 (⟨i * 2 + r.val, by omega⟩ : Fin 192) n k))
    (h1 : x1 = W) (h2 : x2 = b) (r : Fin 2) (n : Fin 4096) (o : Fin 16) :
    k1_pay1 x0 x1 x2 (ix3 r n o) = KStages.G1 A W b (ix3 (⟨i * 2 + r.val, by omega⟩ : Fin 192) n o) := by
  subst h1 h2
  rw [pay_apply, KStages.G1_apply]
  simp only [h0]

/-! ## From blocks to the array -/

section Array

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The arrays the call reads, as the call finds them. -/
abbrev rowsArr (c : Dev nD) : FVec Ideal S192x4096x288 .f32 := V c main_v13
abbrev weightArr (c : Dev nD) : FVec Ideal S16x288 .f32 := V c main_arg4
abbrev biasArr (c : Dev nD) : FVec Ideal S16 .f32 := V c main_arg5

/-- The printed index maps over the grid: point t reads and writes row block t; weights and bias are read whole. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val ∧ win1_3.index t (1 : Fin 3) = 0 ∧ win1_3.index t (2 : Fin 3) = 0 :=
  (by decide +kernel : ∀ t : Fin grid1.N, _)

/-- What point t writes back is block t of the whole-array function of the arrays as the call finds them. -/
theorem flushed_eq (c : Dev nD) (t : Fin cfg1.N) :
    (dat1 (F := Ideal) V c).flushed 3 t
      = ((cfg1.win 3).blk t).view.read (Elt Ideal) (KStages.G1 (rowsArr V c) (weightArr V c) (biasArr V c)) := by
  show (cfg1.win 3).cut (grid1.coords t) ((dat1 (F := Ideal) V c).after 3 t) = _
  rw [after1_3]
  unfold out1_3
  rw [View.canon_unit_zero hz3]
  simp only [View.ld_unit_zero (S := S2x4096x288) hz3, View.ld_unit_zero (S := S16x288) hz2, View.ld_unit_zero (S := S16) hz1]
  obtain ⟨a0, a1, a2, b0, b1, c0, d0, d1, d2⟩ := idx_facts t
  have ht : t.val < 96 := lt_of_lt_of_eq t.isLt (show cfg1.N = 96 from N_1)
  -- the rows' block is rows 2 t and 2 t + 1
  have e0 : ∀ (r : Fin 2) (n : Fin 4096) (k : Fin 288),
      (iblk1 V c 0 t : Vec Ideal S2x4096x288 .f32) (ix3 r n k) = rowsArr V c (ix3 (⟨t.val * 2 + r.val, by omega⟩ : Fin 192) n k) := by
    intro r n k
    show V c main_v13 (((cfg1.win 0).blk t).view.emb (ix3 r n k)) = V c main_v13 _
    refine congrArg (V c main_v13) (funext fun a => Fin.ext ?_)
    match a with
    | ⟨0, _⟩ => show win1_0.index t (0 : Fin 3) * 2 + 1 * r.val = t.val * 2 + r.val; rw [a0]; omega
    | ⟨1, _⟩ => show win1_0.index t (1 : Fin 3) * 4096 + 1 * n.val = n.val; rw [a1]; omega
    | ⟨2, _⟩ => show win1_0.index t (2 : Fin 3) * 288 + 1 * k.val = k.val; rw [a2]; omega
  -- the weights and the bias are whole
  have e1 : (iblk1 V c 1 t : Vec Ideal S16x288 .f32) = weightArr V c := by
    funext y
    show V c main_arg4 (((cfg1.win 1).blk t).view.emb y) = V c main_arg4 y
    refine congrArg (V c main_arg4) (funext fun a => Fin.ext ?_)
    match a with
    | ⟨0, _⟩ => show win1_1.index t (0 : Fin 2) * 16 + 1 * (y 0).val = (y 0).val; rw [b0]; omega
    | ⟨1, _⟩ => show win1_1.index t (1 : Fin 2) * 288 + 1 * (y 1).val = (y 1).val; rw [b1]; omega
  have e2 : (iblk1 V c 2 t : Vec Ideal S16 .f32) = biasArr V c := by
    funext y
    show V c main_arg5 (((cfg1.win 2).blk t).view.emb y) = V c main_arg5 y
    refine congrArg (V c main_arg5) (funext fun a => Fin.ext ?_)
    match a with
    | ⟨0, _⟩ => show win1_2.index t (0 : Fin 1) * 16 + 1 * (y 0).val = (y 0).val; rw [c0]; omega
  funext (j : S2x4096x16.Idx)
  show k1_pay1 (iblk1 V c 0 t) (iblk1 V c 1 t) (iblk1 V c 2 t) j
    = KStages.G1 (rowsArr V c) (weightArr V c) (biasArr V c) (((cfg1.win 3).blk t).view.emb j)
  refine (congrArg (k1_pay1 (iblk1 V c 0 t) (iblk1 V c 1 t) (iblk1 V c 2 t)) (eq_ix3 j)).trans ?_
  refine (pay_block (rowsArr V c) (weightArr V c) (biasArr V c) (iblk1 V c 0 t) (iblk1 V c 1 t) (iblk1 V c 2 t) t.val ht e0 e1 e2
    (j 0) (j 1) (j 2)).trans ?_
  refine congrArg (KStages.G1 (rowsArr V c) (weightArr V c) (biasArr V c)) (funext fun a => Fin.ext ?_)
  match a with
  | ⟨0, _⟩ => show t.val * 2 + (j 0).val = win1_3.index t (0 : Fin 3) * 2 + 1 * (j 0).val; rw [d0]; omega
  | ⟨1, _⟩ => show (j 1).val = win1_3.index t (1 : Fin 3) * 4096 + 1 * (j 1).val; rw [d1]; omega
  | ⟨2, _⟩ => show (j 2).val = win1_3.index t (2 : Fin 3) * 16 + 1 * (j 2).val; rw [d2]; omega

/-- An index of the output array is in point t's block iff each coordinate is in the block's range on its axis. -/
theorem mem_blk (t : Fin cfg1.N) (i : S192x4096x16.Idx) :
    i ∈ ((cfg1.win 3).blk t).view.set ↔ ∀ a : Fin 3, win1_3.index t a * S2x4096x16.size a ≤ (i a).val
      ∧ (i a).val < win1_3.index t a * S2x4096x16.size a + S2x4096x16.size a := by
  show i ∈ ((View.whole main_v14).slice (win1_3.rect t)).set ↔ _
  rw [View.set_slice_whole, Rect.mem_set_unit]
  exact Iff.rfl

/-- Every row is in some point's block: row a in point a / 2's. -/
theorem cover (i : S192x4096x16.Idx) :
    ∃ t : Fin cfg1.N, (cfg1.win 3).flush t = true ∧ i ∈ ((cfg1.win 3).blk t).view.set := by
  have hi0 : (i 0).val < 192 := (i 0).isLt
  have hi1 : (i 1).val < 4096 := (i 1).isLt
  have hi2 : (i 2).val < 16 := (i 2).isLt
  have hq : (i 0).val / 2 < cfg1.N := by rw [show cfg1.N = 96 from N_1]; omega
  obtain ⟨-, -, -, -, -, -, d0, d1, d2⟩ := idx_facts ⟨(i 0).val / 2, hq⟩
  refine ⟨⟨(i 0).val / 2, hq⟩, flush1_3 _, ?_⟩
  rw [mem_blk]
  intro a
  match a with
  | ⟨0, _⟩ =>
    show win1_3.index ⟨(i 0).val / 2, hq⟩ (0 : Fin 3) * 2 ≤ (i 0).val
      ∧ (i 0).val < win1_3.index ⟨(i 0).val / 2, hq⟩ (0 : Fin 3) * 2 + 2
    rw [d0]; show (i 0).val / 2 * 2 ≤ (i 0).val ∧ (i 0).val < (i 0).val / 2 * 2 + 2; omega
  | ⟨1, _⟩ =>
    show win1_3.index ⟨(i 0).val / 2, hq⟩ (1 : Fin 3) * 4096 ≤ (i 1).val
      ∧ (i 1).val < win1_3.index ⟨(i 0).val / 2, hq⟩ (1 : Fin 3) * 4096 + 4096
    rw [d1]; omega
  | ⟨2, _⟩ =>
    show win1_3.index ⟨(i 0).val / 2, hq⟩ (2 : Fin 3) * 16 ≤ (i 2).val
      ∧ (i 2).val < win1_3.index ⟨(i 0).val / 2, hq⟩ (2 : Fin 3) * 16 + 16
    rw [d2]; omega

end Array

/-- The output array after the call: the whole-array function of the arrays as the call finds them. -/
theorem final1 (V : (c : Dev nD) → (b : Ref sig .tc) → Buf (Elt Ideal) ((c : Thread nD τ).loc b)) (c : Dev nD) :
    (dat1 (F := Ideal) V c).arrAt 3 cfg1.N = KStages.G1 (V c main_v13) (V c main_arg4) (V c main_arg5) :=
  (dat1 (F := Ideal) V c).arrAt_eq_of_cover 3 (KStages.G1 (V c main_v13) (V c main_arg4) (V c main_arg5))
    (fun t _ => flushed_eq V c t) cover

end Cert.KReg1

end
-- ==== Proof.KReg2.lean ====
/-
  The normalization call, as one whole-array function. The call runs over 96 points; point t holds rows 2t and 2t + 1
  of the flattened 192-row arrays: the layer's result y [192, 4096, 16] in blocks [2, 4096, 16], the rows' mean and
  variance [192, 1, 16] in blocks [2, 1, 16], and the affine map's two vectors γ, β [16] whole. At row r of the block,
  node n and channel o the body computes
      max ((γ o · (y − mean)) · rsqrt (variance + ε) + β o) 0
  of the element and its row's statistics, which depends on nothing outside the row. So what point t writes back is
  the restriction to its two rows of KStages.G2 of the five arrays, and the 96 blocks tile the output array: row a is
  in the block of point a / 2. Hence the output array after the call is G2 of the arrays the call found.
-/
import proofs.«410499_j42975442764370_3_alg».proof.Proof.Gen.KernelIdeal.Frame
import proofs.«410499_j42975442764370_3_alg».proof.Proof.KStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KReg2

open Cert.KernelIdeal Cert.KernelIdeal.Gen Idealize.ShloMosaic Idealize.ShloMosaic.ValueIdx Idealize.SL.Sem
open Idealize.ShloMosaic.TcCoe
open Idealize.ShloMosaic.Pipeline (Dat)

/-! ## The body's arithmetic at one element of a block -/

/-- A statistic block [2, 1, 16] repeated along the node axis reads its row and channel. -/
theorem rowStat_apply (v : FVec Ideal S2x1x16 .f32) (r : Fin 2) (n : Fin 4096) (o : Fin 16) :
    broadcastTo S2x4096x16 v broadcasts_S2x1x16_S2x4096x16 (ix3 r n o) = v (ix3 r (0 : Fin 1) o) := by
  refine broadcastTo_apply v _ (ix3 r n o) (ix3 r (0 : Fin 1) o) ?_
  intro a
  match a with
  | ⟨0, _⟩ => rfl
  | ⟨1, _⟩ => rfl
  | ⟨2, _⟩ => rfl

/-- A per-channel vector [16] viewed [1, 1, 16] and repeated over rows and nodes reads its channel. -/
theorem chan_apply (v : FVec Ideal S16 .f32) (r : Fin 2) (n : Fin 4096) (o : Fin 16) :
    broadcastTo S2x4096x16 (shapeCast S1x1x16 v shapeCasts_S16_S1x1x16) broadcasts_S1x1x16_S2x4096x16 (ix3 r n o) = v (ix1 o) := by
  rw [broadcastTo_apply (shapeCast S1x1x16 v shapeCasts_S16_S1x1x16) _ (ix3 r n o) (ix3 (0 : Fin 1) (0 : Fin 1) o) (by
    intro a
    match a with
    | ⟨0, _⟩ => rfl
    | ⟨1, _⟩ => rfl
    | ⟨2, _⟩ => rfl)]
  refine shapeCast_apply v _ (ix3 (0 : Fin 1) (0 : Fin 1) o) (ix1 o) ?_
  rw [Shape.rowMajor_val_one, Shape.rowMajor_val_three]
  show o.val = (0 * 1 + 0) * 16 + o.val
  omega

/-- The body at row r of the block, node n, channel o: the affine normalization of the element by its row's
    statistics, clipped at zero. -/
theorem pay_apply (x0 : Vec Ideal S2x4096x16 .f32) (x1 x2 : Vec Ideal S2x1x16 .f32) (x3 x4 : Vec Ideal S16 .f32)
    (r : Fin 2) (n : Fin 4096) (o : Fin 16) :
    k2_pay1 (F := Ideal) x0 x1 x2 x3 x4 (ix3 r n o)
      = max (x3 (ix1 o) * (x0 (ix3 r n o) - x1 (ix3 r (0 : Fin 1) o))
          * Ideal.rsqrt (x2 (ix3 r (0 : Fin 1) o) + Spec.EPS) + x4 (ix1 o)) Spec.Z := by
  unfold k2_pay1
  simp only [shapeCast_self]
  rw [maximumf_apply, addf_apply, mulf_apply, mulf_apply, subf_apply, broadcast_apply]
  rw [chan_apply, chan_apply, rowStat_apply, rowStat_apply]
  rfl

/-! ## From the blocks to the array -/

theorem off3_zero : (![0, 0, 0] : Fin 3 → Nat) = fun _ => 0 := funext fun a => by fin_cases a <;> rfl
theorem off1_zero : (![0] : Fin 1 → Nat) = fun _ => 0 := funext fun a => by fin_cases a <;> rfl

/-- The index maps, decided over the 96 points: the three row-blocked inputs and the output sit at block (t, 0, 0),
    the two per-channel vectors at block 0. -/
theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 1) = 0
    ∧ win2_4.index t (0 : Fin 1) = 0
    ∧ win2_5.index t (0 : Fin 3) = t.val ∧ win2_5.index t (1 : Fin 3) = 0 ∧ win2_5.index t (2 : Fin 3) = 0 :=
  (by decide +kernel : ∀ t : Fin grid2.N, _)

/-- The array row that row r of point t's block is: 2 t + r. -/
def row (t : Fin cfg2.N) (r : Fin 2) : Fin 192 :=
  ⟨t.val * 2 + r.val, by have h : t.val < 96 := lt_of_lt_of_eq t.isLt N_2; omega⟩

/-- The body's result at point t, element by element, is the normalization G2 of whole arrays read at the
    block's rows, when the five loaded blocks are the arrays' blocks at those rows. -/
theorem pay_eq_G2 (x0 : Vec Ideal S2x4096x16 .f32) (x1 x2 : Vec Ideal S2x1x16 .f32) (x3 x4 : Vec Ideal S16 .f32)
    (y : FVec Ideal S192x4096x16 .f32) (mu va : FVec Ideal S192x1x16 .f32) (γ β : FVec Ideal S16 .f32)
    (e : Fin 2 → Fin 192)
    (h0 : ∀ r n o, x0 (ix3 r n o) = y (ix3 (e r) n o))
    (h1 : ∀ r o, x1 (ix3 r (0 : Fin 1) o) = mu (ix3 (e r) (0 : Fin 1) o))
    (h2 : ∀ r o, x2 (ix3 r (0 : Fin 1) o) = va (ix3 (e r) (0 : Fin 1) o))
    (h3 : ∀ o, x3 (ix1 o) = γ (ix1 o)) (h4 : ∀ o, x4 (ix1 o) = β (ix1 o))
    (r : Fin 2) (n : Fin 4096) (o : Fin 16) :
    k2_pay1 (F := Ideal) x0 x1 x2 x3 x4 (ix3 r n o) = KStages.G2 y mu va γ β (ix3 (e r) n o) := by
  rw [pay_apply, KStages.G2_apply, h0, h1, h2, h3, h4]

variable (V : (c : Dev nD) → (b : Ref sig .tc) → Buf (Elt Ideal) ((c : Thread nD τ).loc b))

/-- WHAT POINT t WRITES BACK is block t of G2 of the five arrays as the call finds them. -/
theorem flushed_eq (c : Dev nD) (t : Fin cfg2.N) :
    (dat2 (F := Ideal) V c).flushed 5 t = ((cfg2.win 5).blk t).view.read (Elt Ideal)
      (KStages.G2 (V c main_v14) (V c main_v23) (V c main_v27) (V c main_arg6) (V c main_arg7)) := by
  show (cfg2.win 5).cut (grid2.coords t) ((dat2 (F := Ideal) V c).after 5 t) = _
  rw [after2_5]
  unfold out2_5
  rw [View.canon_unit_zero off3_zero]
  simp only [View.ld_unit_zero (S := S2x4096x16) off3_zero, View.ld_unit_zero (S := S2x1x16) off3_zero,
    View.ld_unit_zero (S := S16) off1_zero]
  obtain ⟨a0, a1, a2, b0, b1, b2, c0, c1, c2, d0, e0, f0, f1, f2⟩ := idx_facts t
  funext j
  obtain ⟨r, n, o, rfl⟩ : ∃ (r : Fin 2) (n : Fin 4096) (o : Fin 16), j = ix3 r n o := ⟨j 0, j 1, j 2, eq_ix3 j⟩
  show k2_pay1 (F := Ideal) (iblk2 V c 0 t) (iblk2 V c 1 t) (iblk2 V c 2 t) (iblk2 V c 3 t) (iblk2 V c 4 t) (ix3 r n o)
    = KStages.G2 (V c main_v14) (V c main_v23) (V c main_v27) (V c main_arg6) (V c main_arg7)
        (((cfg2.win 5).blk t).view.emb (ix3 r n o))
  have hout : ((cfg2.win 5).blk t).view.emb (ix3 r n o) = ix3 (row t r) n o := by
    funext a; apply Fin.ext
    match a with
    | ⟨0, _⟩ => show win2_5.index t (0 : Fin 3) * 2 + 1 * r.val = t.val * 2 + r.val; omega
    | ⟨1, _⟩ => show win2_5.index t (1 : Fin 3) * 4096 + 1 * n.val = n.val; omega
    | ⟨2, _⟩ => show win2_5.index t (2 : Fin 3) * 16 + 1 * o.val = o.val; omega
  rw [hout]
  refine pay_eq_G2 _ _ _ _ _ _ _ _ _ _ (row t) ?_ ?_ ?_ ?_ ?_ r n o
  · intro r n o
    show V c main_v14 (((cfg2.win 0).blk t).view.emb (ix3 r n o)) = V c main_v14 (ix3 (row t r) n o)
    refine congrArg _ (funext fun a => Fin.ext ?_)
    match a with
    | ⟨0, _⟩ => show win2_0.index t (0 : Fin 3) * 2 + 1 * r.val = t.val * 2 + r.val; omega
    | ⟨1, _⟩ => show win2_0.index t (1 : Fin 3) * 4096 + 1 * n.val = n.val; omega
    | ⟨2, _⟩ => show win2_0.index t (2 : Fin 3) * 16 + 1 * o.val = o.val; omega
  · intro r o
    show V c main_v23 (((cfg2.win 1).blk t).view.emb (ix3 r (0 : Fin 1) o)) = V c main_v23 (ix3 (row t r) (0 : Fin 1) o)
    refine congrArg _ (funext fun a => Fin.ext ?_)
    match a with
    | ⟨0, _⟩ => show win2_1.index t (0 : Fin 3) * 2 + 1 * r.val = t.val * 2 + r.val; omega
    | ⟨1, _⟩ => show win2_1.index t (1 : Fin 3) * 1 + 1 * 0 = 0; omega
    | ⟨2, _⟩ => show win2_1.index t (2 : Fin 3) * 16 + 1 * o.val = o.val; omega
  · intro r o
    show V c main_v27 (((cfg2.win 2).blk t).view.emb (ix3 r (0 : Fin 1) o)) = V c main_v27 (ix3 (row t r) (0 : Fin 1) o)
    refine congrArg _ (funext fun a => Fin.ext ?_)
    match a with
    | ⟨0, _⟩ => show win2_2.index t (0 : Fin 3) * 2 + 1 * r.val = t.val * 2 + r.val; omega
    | ⟨1, _⟩ => show win2_2.index t (1 : Fin 3) * 1 + 1 * 0 = 0; omega
    | ⟨2, _⟩ => show win2_2.index t (2 : Fin 3) * 16 + 1 * o.val = o.val; omega
  · intro o
    show V c main_arg6 (((cfg2.win 3).blk t).view.emb (ix1 o)) = V c main_arg6 (ix1 o)
    refine congrArg _ (funext fun a => Fin.ext ?_)
    match a with
    | ⟨0, _⟩ => show win2_3.index t (0 : Fin 1) * 16 + 1 * o.val = o.val; omega
  · intro o
    show V c main_arg7 (((cfg2.win 4).blk t).view.emb (ix1 o)) = V c main_arg7 (ix1 o)
    refine congrArg _ (funext fun a => Fin.ext ?_)
    match a with
    | ⟨0, _⟩ => show win2_4.index t (0 : Fin 1) * 16 + 1 * o.val = o.val; omega

/-- An index of the array is in point t's block iff each coordinate is in the block's range on its axis. -/
theorem mem_blk (t : Fin cfg2.N) (i : S192x4096x16.Idx) :
    i ∈ ((cfg2.win 5).blk t).view.set ↔ ∀ a : Fin 3, win2_5.index t a * S2x4096x16.size a ≤ (i a).val
      ∧ (i a).val < win2_5.index t a * S2x4096x16.size a + S2x4096x16.size a := by
  show i ∈ ((View.whole main_v28).slice (win2_5.rect t)).set ↔ _
  rw [View.set_slice_whole, Rect.mem_set_unit]
  exact Iff.rfl

/-- Every index is in the block of the point its row names: row / 2. -/
theorem covered (i : S192x4096x16.Idx) :
    ∃ t : Fin cfg2.N, (cfg2.win 5).flush t = true ∧ i ∈ ((cfg2.win 5).blk t).view.set := by
  have hi0 : (i 0).val < 192 := (i 0).isLt
  have hi1 : (i 1).val < 4096 := (i 1).isLt
  have hi2 : (i 2).val < 16 := (i 2).isLt
  let t : Fin cfg2.N := ⟨(i 0).val / 2, by rw [show cfg2.N = 96 from N_2]; omega⟩
  obtain ⟨a0, a1, a2, b0, b1, b2, c0, c1, c2, d0, e0, f0, f1, f2⟩ := idx_facts t
  have ht : t.val = (i 0).val / 2 := rfl
  refine ⟨t, flush2_5 t, ?_⟩
  rw [mem_blk]
  intro a
  match a with
  | ⟨0, _⟩ => show win2_5.index t (0 : Fin 3) * 2 ≤ (i 0).val ∧ (i 0).val < win2_5.index t (0 : Fin 3) * 2 + 2; omega
  | ⟨1, _⟩ => show win2_5.index t (1 : Fin 3) * 4096 ≤ (i 1).val ∧ (i 1).val < win2_5.index t (1 : Fin 3) * 4096 + 4096; omega
  | ⟨2, _⟩ => show win2_5.index t (2 : Fin 3) * 16 ≤ (i 2).val ∧ (i 2).val < win2_5.index t (2 : Fin 3) * 16 + 16; omega

/-- THE ARRAY after the call: the normalization G2 of the layer's result, the rows' mean and variance, and the
    affine map's two vectors, as the call finds them. -/
theorem final2 (V : (c : Dev nD) → (b : Ref sig .tc) → Buf (Elt Ideal) ((c : Thread nD τ).loc b)) (c : Dev nD) :
    (dat2 (F := Ideal) V c).arrAt 5 cfg2.N = KStages.G2 (V c main_v14) (V c main_v23) (V c main_v27) (V c main_arg6) (V c main_arg7) :=
  (dat2 (F := Ideal) V c).arrAt_eq_of_cover 5
    (KStages.G2 (V c main_v14) (V c main_v23) (V c main_v27) (V c main_arg6) (V c main_arg7))
    (fun t _ => flushed_eq V c t) covered

end Cert.KReg2

end
-- ==== Proof.KReg3.lean ====
/-
  The fourth pallas_call's output array after the call, as one function of the arrays it reads: every row of 144
  against the one weight row, plus the bias, clipped at zero. The body's arithmetic at one element of a block of two
  rows, the block each grid point writes back as the restriction of that function to its two rows, and the 96 blocks
  covering the 192 rows.
-/
import proofs.«410499_j42975442764370_3_alg».proof.Proof.Gen.KernelIdeal.Frame
import proofs.«410499_j42975442764370_3_alg».proof.Proof.KStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KReg3

open Cert.KernelIdeal Cert.KernelIdeal.Gen Idealize.ShloMosaic Idealize.ShloMosaic.ValueIdx Idealize.SL.Sem
open Idealize.ShloMosaic.TcCoe
open Idealize.ShloMosaic.Pipeline (Dat)

/-! ## The matrix product at an index -/

/-- On the rows' axis the left operand's index is the output's row. -/
theorem lhs_axis0 (j : S8192x1.Idx) (k : dot_S8192x144_S144x1_S8192x1_1_0_0_1_n_n.contr.Idx) :
    (dot_S8192x144_S144x1_S8192x1_1_0_0_1_n_n.lhsIdx j k (0 : Fin 2)).val = (j (0 : Fin 2)).val := by
  unfold DotDims.lhsIdx
  rw [dif_neg (show ¬(0 : Fin S8192x144.rank) ∈ dot_S8192x144_S144x1_S8192x1_1_0_0_1_n_n.lhsBatch by decide),
    dif_pos (show (0 : Fin S8192x144.rank) ∈ dot_S8192x144_S144x1_S8192x1_1_0_0_1_n_n.lhsNonContracting by decide)]
  rfl

/-- On the contracted axis the left operand's index is the contraction's coordinate. -/
theorem lhs_axis1 (j : S8192x1.Idx) (k : dot_S8192x144_S144x1_S8192x1_1_0_0_1_n_n.contr.Idx) :
    (dot_S8192x144_S144x1_S8192x1_1_0_0_1_n_n.lhsIdx j k (1 : Fin 2)).val = (k ⟨0, by decide⟩).val :=
  dot_S8192x144_S144x1_S8192x1_1_0_0_1_n_n.lhsIdx_val_of_single (cl := (1 : Fin 2)) rfl j k

/-- On the contracted axis the right operand's index is the contraction's coordinate. -/
theorem rhs_axis0 (j : S8192x1.Idx) (k : dot_S8192x144_S144x1_S8192x1_1_0_0_1_n_n.contr.Idx) :
    (dot_S8192x144_S144x1_S8192x1_1_0_0_1_n_n.rhsIdx j k (0 : Fin 2)).val = (k ⟨0, by decide⟩).val :=
  dot_S8192x144_S144x1_S8192x1_1_0_0_1_n_n.rhsIdx_val_of_single (cr := (0 : Fin 2)) rfl j k

/-- On the columns' axis the right operand's index is the output's column. -/
theorem rhs_axis1 (j : S8192x1.Idx) (k : dot_S8192x144_S144x1_S8192x1_1_0_0_1_n_n.contr.Idx) :
    (dot_S8192x144_S144x1_S8192x1_1_0_0_1_n_n.rhsIdx j k (1 : Fin 2)).val = (j (1 : Fin 2)).val := by
  unfold DotDims.rhsIdx
  rw [dif_neg (show ¬(1 : Fin S144x1.rank) ∈ dot_S8192x144_S144x1_S8192x1_1_0_0_1_n_n.rhsBatch by decide),
    dif_pos (show (1 : Fin S144x1.rank) ∈ dot_S8192x144_S144x1_S8192x1_1_0_0_1_n_n.rhsNonContracting by decide)]
  rfl

/-- The product into the zero accumulator at row p, column o: the sum over the 144 shared coordinates. -/
theorem matmul_zero_apply {φ₁ φ₂ : FTy} (A : FVec Ideal S8192x144 φ₁) (B : FVec Ideal S144x1 φ₂) (p : Fin 8192) (o : Fin 1) :
    matmul dot_S8192x144_S144x1_S8192x1_1_0_0_1_n_n none A B (constant S8192x1 .f32 0x00000000#32) (ix2 p o)
      = ∑ k : Fin 144, A (ix2 p k) * B (ix2 k o) := by
  show FloatOps.matmul _ none A B _ (ix2 p o) = _
  rw [Ideal.matmul_constant_zero_apply,
    ← Equiv.sum_comp (contrEquiv1 dot_S8192x144_S144x1_S8192x1_1_0_0_1_n_n 144 rfl rfl).symm]
  refine Finset.sum_congr rfl fun c _ => ?_
  have cv := contrEquiv1_symm_val dot_S8192x144_S144x1_S8192x1_1_0_0_1_n_n 144 rfl rfl c
  have hl : dot_S8192x144_S144x1_S8192x1_1_0_0_1_n_n.lhsIdx (ix2 p o)
      ((contrEquiv1 dot_S8192x144_S144x1_S8192x1_1_0_0_1_n_n 144 rfl rfl).symm c) = ix2 p c := by
    funext ax; apply Fin.ext
    match ax with
    | ⟨0, _⟩ => exact lhs_axis0 _ _
    | ⟨1, _⟩ => exact (lhs_axis1 _ _).trans cv
  have hr : dot_S8192x144_S144x1_S8192x1_1_0_0_1_n_n.rhsIdx (ix2 p o)
      ((contrEquiv1 dot_S8192x144_S144x1_S8192x1_1_0_0_1_n_n 144 rfl rfl).symm c) = ix2 c o := by
    funext ax; apply Fin.ext
    match ax with
    | ⟨0, _⟩ => exact (rhs_axis0 _ _).trans cv
    | ⟨1, _⟩ => exact rhs_axis1 _ _
  rw [hl, hr]

/-! ## The body's arithmetic at an index -/

/-- The body's result at row r of the block, node n, the one channel o: the row of 144 against the weight row, plus
    the bias, clipped at zero. -/
theorem pay_apply (x0 : Vec Ideal S2x4096x144 .f32) (x1 : Vec Ideal S1x144 .f32) (x2 : Vec Ideal S1 .f32)
    (r : Fin 2) (n : Fin 4096) (o : Fin 1) :
    k3_pay1 x0 x1 x2 (ix3 r n o) = max (∑ k : Fin 144, x0 (ix3 r n k) * x1 (ix2 o k) + x2 (ix1 o)) Spec.Z := by
  unfold k3_pay1
  -- the block's two rows of 4096 nodes are the 8192 rows of the product: row 4096 r + n
  refine (shapeCast_apply _ _ _ (ix2 (⟨4096 * r.val + n.val, by omega⟩ : Fin 8192) o) ?_).trans ?_
  · rw [Shape.rowMajor_val_two, Shape.rowMajor_val_three]
    show (4096 * r.val + n.val) * 1 + o.val = (r.val * 4096 + n.val) * 1 + o.val
    omega
  -- the clip at zero
  refine (maximumf_apply _ _ _).trans ?_
  refine congrArg₂ max ?_ rfl
  -- the product plus the bias
  refine (addf_apply _ _ _).trans ?_
  refine congrArg₂ (· + ·) ?_ ?_
  · refine (matmul_zero_apply _ _ _ o).trans ?_
    refine Finset.sum_congr rfl fun k _ => ?_
    refine congrArg₂ (· * ·) ?_ ?_
    · -- the left operand: the block's rows flattened
      show shapeCast S8192x144 (shapeCast S2x4096x144 x0 shapeCasts_S2x4096x144_S2x4096x144) shapeCasts_S2x4096x144_S8192x144
        (ix2 (⟨4096 * r.val + n.val, by omega⟩ : Fin 8192) k) = x0 (ix3 r n k)
      refine (shapeCast_apply _ _ _ (ix3 r n k) ?_).trans ?_
      · rw [Shape.rowMajor_val_two, Shape.rowMajor_val_three]
        show (r.val * 4096 + n.val) * 144 + k.val = (4096 * r.val + n.val) * 144 + k.val
        omega
      · rw [shapeCast_self]
    · -- the right operand: the weights transposed
      exact transpose_ix2_apply _ _ k o
  · -- the bias along the rows
    refine (broadcastTo_1b_ab_apply _ _ _ o).trans ?_
    exact shapeCast_a_1a_apply _ _ (0 : Fin 1) o

/-- A block whose two rows are rows 2 i and 2 i + 1 of an array computes those two rows of the whole-array function. -/
theorem pay_block (A : FVec Ideal S192x4096x144 .f32) (W : FVec Ideal S1x144 .f32) (b : FVec Ideal S1 .f32)
    (x0 : Vec Ideal S2x4096x144 .f32) (x1 : Vec Ideal S1x144 .f32) (x2 : Vec Ideal S1 .f32) (i : Nat) (hi : i < 96)
    (h0 : ∀ (r : Fin 2) (n : Fin 4096) (k : Fin 144), x0 (ix3 r n k) = A (ix3 (⟨i * 2 + r.val, by omega⟩ : Fin 192) n k))
    (h1 : x1 = W) (h2 : x2 = b) (r : Fin 2) (n : Fin 4096) (o : Fin 1) :
    k3_pay1 x0 x1 x2 (ix3 r n o) = KStages.G3 A W b (ix3 (⟨i * 2 + r.val, by omega⟩ : Fin 192) n o) := by
  subst h1 h2
  rw [pay_apply, KStages.G3_apply]
  simp only [h0]

/-! ## From blocks to the array -/

section Array

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The arrays the call reads, as the call finds them. -/
abbrev rowsArr (c : Dev nD) : FVec Ideal S192x4096x144 .f32 := V c main_v38
abbrev weightArr (c : Dev nD) : FVec Ideal S1x144 .f32 := V c main_arg8
abbrev biasArr (c : Dev nD) : FVec Ideal S1 .f32 := V c main_arg9

/-- The printed index maps over the grid: point t reads and writes row block t; weights and bias are read whole. -/
theorem idx_facts : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 1) = 0
    ∧ win3_3.index t (0 : Fin 3) = t.val ∧ win3_3.index t (1 : Fin 3) = 0 ∧ win3_3.index t (2 : Fin 3) = 0 :=
  (by decide +kernel : ∀ t : Fin grid3.N, _)

/-- What point t writes back is block t of the whole-array function of the arrays as the call finds them. -/
theorem flushed_eq (c : Dev nD) (t : Fin cfg3.N) :
    (dat3 (F := Ideal) V c).flushed 3 t
      = ((cfg3.win 3).blk t).view.read (Elt Ideal) (KStages.G3 (rowsArr V c) (weightArr V c) (biasArr V c)) := by
  show (cfg3.win 3).cut (grid3.coords t) ((dat3 (F := Ideal) V c).after 3 t) = _
  rw [after3_3]
  unfold out3_3
  rw [View.canon_unit_zero hz3]
  simp only [View.ld_unit_zero (S := S2x4096x144) hz3, View.ld_unit_zero (S := S1x144) hz2, View.ld_unit_zero (S := S1) hz1]
  obtain ⟨a0, a1, a2, b0, b1, c0, d0, d1, d2⟩ := idx_facts t
  have ht : t.val < 96 := lt_of_lt_of_eq t.isLt (show cfg3.N = 96 from N_3)
  -- the rows' block is rows 2 t and 2 t + 1
  have e0 : ∀ (r : Fin 2) (n : Fin 4096) (k : Fin 144),
      (iblk3 V c 0 t : Vec Ideal S2x4096x144 .f32) (ix3 r n k) = rowsArr V c (ix3 (⟨t.val * 2 + r.val, by omega⟩ : Fin 192) n k) := by
    intro r n k
    show V c main_v38 (((cfg3.win 0).blk t).view.emb (ix3 r n k)) = V c main_v38 _
    refine congrArg (V c main_v38) (funext fun a => Fin.ext ?_)
    match a with
    | ⟨0, _⟩ => show win3_0.index t (0 : Fin 3) * 2 + 1 * r.val = t.val * 2 + r.val; rw [a0]; omega
    | ⟨1, _⟩ => show win3_0.index t (1 : Fin 3) * 4096 + 1 * n.val = n.val; rw [a1]; omega
    | ⟨2, _⟩ => show win3_0.index t (2 : Fin 3) * 144 + 1 * k.val = k.val; rw [a2]; omega
  -- the weights and the bias are whole
  have e1 : (iblk3 V c 1 t : Vec Ideal S1x144 .f32) = weightArr V c := by
    funext y
    show V c main_arg8 (((cfg3.win 1).blk t).view.emb y) = V c main_arg8 y
    refine congrArg (V c main_arg8) (funext fun a => Fin.ext ?_)
    match a with
    | ⟨0, _⟩ => show win3_1.index t (0 : Fin 2) * 1 + 1 * (y 0).val = (y 0).val; rw [b0]; omega
    | ⟨1, _⟩ => show win3_1.index t (1 : Fin 2) * 144 + 1 * (y 1).val = (y 1).val; rw [b1]; omega
  have e2 : (iblk3 V c 2 t : Vec Ideal S1 .f32) = biasArr V c := by
    funext y
    show V c main_arg9 (((cfg3.win 2).blk t).view.emb y) = V c main_arg9 y
    refine congrArg (V c main_arg9) (funext fun a => Fin.ext ?_)
    match a with
    | ⟨0, _⟩ => show win3_2.index t (0 : Fin 1) * 1 + 1 * (y 0).val = (y 0).val; rw [c0]; omega
  funext (j : S2x4096x1.Idx)
  show k3_pay1 (iblk3 V c 0 t) (iblk3 V c 1 t) (iblk3 V c 2 t) j
    = KStages.G3 (rowsArr V c) (weightArr V c) (biasArr V c) (((cfg3.win 3).blk t).view.emb j)
  refine (congrArg (k3_pay1 (iblk3 V c 0 t) (iblk3 V c 1 t) (iblk3 V c 2 t)) (eq_ix3 j)).trans ?_
  refine (pay_block (rowsArr V c) (weightArr V c) (biasArr V c) (iblk3 V c 0 t) (iblk3 V c 1 t) (iblk3 V c 2 t) t.val ht e0 e1 e2
    (j 0) (j 1) (j 2)).trans ?_
  refine congrArg (KStages.G3 (rowsArr V c) (weightArr V c) (biasArr V c)) (funext fun a => Fin.ext ?_)
  match a with
  | ⟨0, _⟩ => show t.val * 2 + (j 0).val = win3_3.index t (0 : Fin 3) * 2 + 1 * (j 0).val; rw [d0]; omega
  | ⟨1, _⟩ => show (j 1).val = win3_3.index t (1 : Fin 3) * 4096 + 1 * (j 1).val; rw [d1]; omega
  | ⟨2, _⟩ => show (j 2).val = win3_3.index t (2 : Fin 3) * 1 + 1 * (j 2).val; rw [d2]; omega

/-- An index of the output array is in point t's block iff each coordinate is in the block's range on its axis. -/
theorem mem_blk (t : Fin cfg3.N) (i : S192x4096x1.Idx) :
    i ∈ ((cfg3.win 3).blk t).view.set ↔ ∀ a : Fin 3, win3_3.index t a * S2x4096x1.size a ≤ (i a).val
      ∧ (i a).val < win3_3.index t a * S2x4096x1.size a + S2x4096x1.size a := by
  show i ∈ ((View.whole main_v39).slice (win3_3.rect t)).set ↔ _
  rw [View.set_slice_whole, Rect.mem_set_unit]
  exact Iff.rfl

/-- Every row is in some point's block: row a in point a / 2's. -/
theorem cover (i : S192x4096x1.Idx) :
    ∃ t : Fin cfg3.N, (cfg3.win 3).flush t = true ∧ i ∈ ((cfg3.win 3).blk t).view.set := by
  have hi0 : (i 0).val < 192 := (i 0).isLt
  have hi1 : (i 1).val < 4096 := (i 1).isLt
  have hi2 : (i 2).val < 1 := (i 2).isLt
  have hq : (i 0).val / 2 < cfg3.N := by rw [show cfg3.N = 96 from N_3]; omega
  obtain ⟨-, -, -, -, -, -, d0, d1, d2⟩ := idx_facts ⟨(i 0).val / 2, hq⟩
  refine ⟨⟨(i 0).val / 2, hq⟩, flush3_3 _, ?_⟩
  rw [mem_blk]
  intro a
  match a with
  | ⟨0, _⟩ =>
    show win3_3.index ⟨(i 0).val / 2, hq⟩ (0 : Fin 3) * 2 ≤ (i 0).val
      ∧ (i 0).val < win3_3.index ⟨(i 0).val / 2, hq⟩ (0 : Fin 3) * 2 + 2
    rw [d0]; show (i 0).val / 2 * 2 ≤ (i 0).val ∧ (i 0).val < (i 0).val / 2 * 2 + 2; omega
  | ⟨1, _⟩ =>
    show win3_3.index ⟨(i 0).val / 2, hq⟩ (1 : Fin 3) * 4096 ≤ (i 1).val
      ∧ (i 1).val < win3_3.index ⟨(i 0).val / 2, hq⟩ (1 : Fin 3) * 4096 + 4096
    rw [d1]; omega
  | ⟨2, _⟩ =>
    show win3_3.index ⟨(i 0).val / 2, hq⟩ (2 : Fin 3) * 1 ≤ (i 2).val
      ∧ (i 2).val < win3_3.index ⟨(i 0).val / 2, hq⟩ (2 : Fin 3) * 1 + 1
    rw [d2]; omega

end Array

/-- The output array after the call: the whole-array function of the arrays as the call finds them. -/
theorem final3 (V : (c : Dev nD) → (b : Ref sig .tc) → Buf (Elt Ideal) ((c : Thread nD τ).loc b)) (c : Dev nD) :
    (dat3 (F := Ideal) V c).arrAt 3 cfg3.N = KStages.G3 (V c main_v38) (V c main_arg8) (V c main_arg9) :=
  (dat3 (F := Ideal) V c).arrAt_eq_of_cover 3 (KStages.G3 (V c main_v38) (V c main_arg8) (V c main_arg9))
    (fun t _ => flushed_eq V c t) cover

end Cert.KReg3

end
-- ==== Proof.KernelValue.lean ====
/-
  The kernel program's result buffer as a function of its ten argument arrays. Its @main alternates host stretches and
  four kernel calls; the buffer contents at each boundary are a fold from the launch memory. Walking that fold backwards
  from the result: the last stretch splits the rows of call 4's output array; that array is the call's whole-array
  function of its input arrays as the call finds them; those are the previous stretch's functions of call 3's output
  and of arguments no stretch or call has written; and so on back to the launch. The arguments and the earlier outputs
  are read through each stretch that does not write them unchanged.
-/
import proofs.«410499_j42975442764370_3_alg».proof.Proof.Gen.KernelIdeal.Frame
import proofs.«410499_j42975442764370_3_alg».proof.Proof.KStages
import proofs.«410499_j42975442764370_3_alg».proof.Proof.KReg0
import proofs.«410499_j42975442764370_3_alg».proof.Proof.KReg1
import proofs.«410499_j42975442764370_3_alg».proof.Proof.KReg2
import proofs.«410499_j42975442764370_3_alg».proof.Proof.KReg3
import Idealize.ShloMosaic.Lib.StableHlo.Run

set_option maxRecDepth 16384

noncomputable section

namespace Cert.KernelValue

open Cert.KernelIdeal Cert.KernelIdeal.Gen Cert.KReg0 Cert.KReg1 Cert.KReg2 Cert.KReg3
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes holds after the stretch what it held before. -/
local macro "skip_ops" ops:ident : tactic =>
  `(tactic| refine (StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans ?_)

/-! ## Region 0's entry -/

theorem e0_v2 : W1 m ρ c (Proc.devRef .tc main_v2) = KStages.pre0 (F := Ideal) (m ((c : Thread nD τ).loc main_arg0)) := by
  show StableHlo.after hostOps0 (W0 m ρ c) (Proc.devRef .tc main_v2) = _
  after_results
  rfl

theorem e0_arg2 : W1 m ρ c (Proc.devRef .tc main_arg2) = m ((c : Thread nD τ).loc main_arg2) := by
  show StableHlo.after hostOps0 (W0 m ρ c) (Proc.devRef .tc main_arg2) = _
  skip_ops hostOps0
  rfl

theorem e0_arg3 : W1 m ρ c (Proc.devRef .tc main_arg3) = m ((c : Thread nD τ).loc main_arg3) := by
  show StableHlo.after hostOps0 (W0 m ρ c) (Proc.devRef .tc main_arg3) = _
  skip_ops hostOps0
  rfl

/-- Region 0's output array. -/
theorem x0_v3 : W2 m ρ c (Proc.devRef .tc main_v3)
    = KStages.G0 (KStages.pre0 (F := Ideal) (m ((c : Thread nD τ).loc main_arg0))) (m ((c : Thread nD τ).loc main_arg2)) (m ((c : Thread nD τ).loc main_arg3)) := by
  refine (W2_arr m ρ c 3).trans ?_
  rw [final0 (V1 m ρ) c]
  show KStages.G0 (W1 m ρ c (Proc.devRef .tc main_v2)) (W1 m ρ c (Proc.devRef .tc main_arg2)) (W1 m ρ c (Proc.devRef .tc main_arg3)) = _
  rw [e0_v2, e0_arg2, e0_arg3]

/-! ## Region 1's entry -/

theorem w2_arg1 : W2 m ρ c (Proc.devRef .tc main_arg1) = (m ((c : Thread nD τ).loc main_arg1)) := by
  rw [W2_of_ne m ρ c main_arg1 (by decide)]
  show StableHlo.after hostOps0 (W0 m ρ c) (Proc.devRef .tc main_arg1) = _
  skip_ops hostOps0
  rfl

theorem e1_v13 : W3 m ρ c (Proc.devRef .tc main_v13)
    = KStages.mid1 (F := Ideal) (W2 m ρ c (Proc.devRef .tc main_v3)) (Spec.idxPrep (m ((c : Thread nD τ).loc main_arg1))) := by
  show StableHlo.after hostOps1 (W2 m ρ c) (Proc.devRef .tc main_v13) = _
  after_results
  rw [w2_arg1]
  rfl

theorem e1_arg4 : W3 m ρ c (Proc.devRef .tc main_arg4) = (m ((c : Thread nD τ).loc main_arg4)) := by
  show StableHlo.after hostOps1 (W2 m ρ c) (Proc.devRef .tc main_arg4) = _
  skip_ops hostOps1
  rw [W2_of_ne m ρ c main_arg4 (by decide)]
  show StableHlo.after hostOps0 (W0 m ρ c) (Proc.devRef .tc main_arg4) = _
  skip_ops hostOps0
  rfl

theorem e1_arg5 : W3 m ρ c (Proc.devRef .tc main_arg5) = (m ((c : Thread nD τ).loc main_arg5)) := by
  show StableHlo.after hostOps1 (W2 m ρ c) (Proc.devRef .tc main_arg5) = _
  skip_ops hostOps1
  rw [W2_of_ne m ρ c main_arg5 (by decide)]
  show StableHlo.after hostOps0 (W0 m ρ c) (Proc.devRef .tc main_arg5) = _
  skip_ops hostOps0
  rfl

/-- Region 1's output array, over region 0's. -/
theorem x1_v14 : W4 m ρ c (Proc.devRef .tc main_v14)
    = KStages.G1 (KStages.mid1 (F := Ideal) (W2 m ρ c (Proc.devRef .tc main_v3)) (Spec.idxPrep (m ((c : Thread nD τ).loc main_arg1)))) (m ((c : Thread nD τ).loc main_arg4)) (m ((c : Thread nD τ).loc main_arg5)) := by
  refine (W4_arr m ρ c 3).trans ?_
  rw [final1 (V3 m ρ) c]
  show KStages.G1 (W3 m ρ c (Proc.devRef .tc main_v13)) (W3 m ρ c (Proc.devRef .tc main_arg4)) (W3 m ρ c (Proc.devRef .tc main_arg5)) = _
  rw [e1_v13, e1_arg4, e1_arg5]

/-! ## Region 2's entry -/

theorem w5_v15 : W5 m ρ c (Proc.devRef .tc main_v15) = KStages.unflat (F := Ideal) (W4 m ρ c (Proc.devRef .tc main_v14)) := by
  show StableHlo.after hostOps2 (W4 m ρ c) (Proc.devRef .tc main_v15) = _
  after_results
  rfl

theorem w5_v18 : W5 m ρ c (Proc.devRef .tc main_v18) = KStages.mean (F := Ideal) (KStages.unflat (F := Ideal) (W4 m ρ c (Proc.devRef .tc main_v14))) := by
  show StableHlo.after hostOps2 (W4 m ρ c) (Proc.devRef .tc main_v18) = _
  after_results
  rfl

theorem w5_c2 : W5 m ρ c (Proc.devRef .tc main_c_2) = constantI S_ 32 0#32 := by
  show StableHlo.after hostOps2 (W4 m ρ c) (Proc.devRef .tc main_c_2) = _
  after_results

set_option maxHeartbeats 2000000 in
theorem w6_v19 : W6 m ρ c (Proc.devRef .tc main_v19) = KStages.var (F := Ideal) (KStages.unflat (F := Ideal) (W4 m ρ c (Proc.devRef .tc main_v14))) := by
  show StableHlo.after hostOps2_1 (W5 m ρ c) (Proc.devRef .tc main_v19) = _
  have h15 := w5_v15 m ρ c
  have hc2 := w5_c2 m ρ c
  generalize W5 m ρ c = V5 at h15 hc2 ⊢
  after_results_simp
  rw [h15, hc2]
  rfl

theorem w6_v18 : W6 m ρ c (Proc.devRef .tc main_v18) = KStages.mean (F := Ideal) (KStages.unflat (F := Ideal) (W4 m ρ c (Proc.devRef .tc main_v14))) := by
  show StableHlo.after hostOps2_1 (W5 m ρ c) (Proc.devRef .tc main_v18) = _
  skip_ops hostOps2_1
  exact w5_v18 m ρ c

theorem e2_v23 : W7 m ρ c (Proc.devRef .tc main_v23)
    = KStages.toRows (F := Ideal) (KStages.mean (F := Ideal) (KStages.unflat (F := Ideal) (W4 m ρ c (Proc.devRef .tc main_v14)))) := by
  show StableHlo.after hostOps2_2 (W6 m ρ c) (Proc.devRef .tc main_v23) = _
  have h18 := w6_v18 m ρ c
  generalize W6 m ρ c = V6 at h18 ⊢
  after_results
  rw [h18]
  rfl

theorem e2_v27 : W7 m ρ c (Proc.devRef .tc main_v27)
    = KStages.toRows (F := Ideal) (KStages.var (F := Ideal) (KStages.unflat (F := Ideal) (W4 m ρ c (Proc.devRef .tc main_v14)))) := by
  show StableHlo.after hostOps2_2 (W6 m ρ c) (Proc.devRef .tc main_v27) = _
  have h19 := w6_v19 m ρ c
  generalize W6 m ρ c = V6 at h19 ⊢
  after_results
  rw [h19]
  rfl

theorem e2_v14 : W7 m ρ c (Proc.devRef .tc main_v14) = W4 m ρ c (Proc.devRef .tc main_v14) := by
  show StableHlo.after hostOps2_2 (W6 m ρ c) (Proc.devRef .tc main_v14) = _
  skip_ops hostOps2_2
  show StableHlo.after hostOps2_1 (W5 m ρ c) (Proc.devRef .tc main_v14) = _
  skip_ops hostOps2_1
  show StableHlo.after hostOps2 (W4 m ρ c) (Proc.devRef .tc main_v14) = _
  skip_ops hostOps2
  rfl

/-- An argument no stretch and no region up to region 2's entry writes. -/
theorem e2_arg6 : W7 m ρ c (Proc.devRef .tc main_arg6) = (m ((c : Thread nD τ).loc main_arg6)) := by
  show StableHlo.after hostOps2_2 (W6 m ρ c) (Proc.devRef .tc main_arg6) = _
  skip_ops hostOps2_2
  show StableHlo.after hostOps2_1 (W5 m ρ c) (Proc.devRef .tc main_arg6) = _
  skip_ops hostOps2_1
  show StableHlo.after hostOps2 (W4 m ρ c) (Proc.devRef .tc main_arg6) = _
  skip_ops hostOps2
  rw [W4_of_ne m ρ c main_arg6 (by decide)]
  show StableHlo.after hostOps1 (W2 m ρ c) (Proc.devRef .tc main_arg6) = _
  skip_ops hostOps1
  rw [W2_of_ne m ρ c main_arg6 (by decide)]
  show StableHlo.after hostOps0 (W0 m ρ c) (Proc.devRef .tc main_arg6) = _
  skip_ops hostOps0
  rfl

theorem e2_arg7 : W7 m ρ c (Proc.devRef .tc main_arg7) = (m ((c : Thread nD τ).loc main_arg7)) := by
  show StableHlo.after hostOps2_2 (W6 m ρ c) (Proc.devRef .tc main_arg7) = _
  skip_ops hostOps2_2
  show StableHlo.after hostOps2_1 (W5 m ρ c) (Proc.devRef .tc main_arg7) = _
  skip_ops hostOps2_1
  show StableHlo.after hostOps2 (W4 m ρ c) (Proc.devRef .tc main_arg7) = _
  skip_ops hostOps2
  rw [W4_of_ne m ρ c main_arg7 (by decide)]
  show StableHlo.after hostOps1 (W2 m ρ c) (Proc.devRef .tc main_arg7) = _
  skip_ops hostOps1
  rw [W2_of_ne m ρ c main_arg7 (by decide)]
  show StableHlo.after hostOps0 (W0 m ρ c) (Proc.devRef .tc main_arg7) = _
  skip_ops hostOps0
  rfl

/-- Region 2's output array, over region 1's. -/
theorem x2_v28 : W8 m ρ c (Proc.devRef .tc main_v28)
    = KStages.G2 (W4 m ρ c (Proc.devRef .tc main_v14))
        (KStages.toRows (F := Ideal) (KStages.mean (F := Ideal) (KStages.unflat (F := Ideal) (W4 m ρ c (Proc.devRef .tc main_v14)))))
        (KStages.toRows (F := Ideal) (KStages.var (F := Ideal) (KStages.unflat (F := Ideal) (W4 m ρ c (Proc.devRef .tc main_v14)))))
        (m ((c : Thread nD τ).loc main_arg6)) (m ((c : Thread nD τ).loc main_arg7)) := by
  refine (W8_arr m ρ c 5).trans ?_
  rw [final2 (V7 m ρ) c]
  show KStages.G2 (W7 m ρ c (Proc.devRef .tc main_v14)) (W7 m ρ c (Proc.devRef .tc main_v23)) (W7 m ρ c (Proc.devRef .tc main_v27))
    (W7 m ρ c (Proc.devRef .tc main_arg6)) (W7 m ρ c (Proc.devRef .tc main_arg7)) = _
  rw [e2_v14, e2_v23, e2_v27, e2_arg6, e2_arg7]

/-! ## Region 3's entry -/

theorem w8_arg1 : W8 m ρ c (Proc.devRef .tc main_arg1) = (m ((c : Thread nD τ).loc main_arg1)) := by
  rw [W8_of_ne m ρ c main_arg1 (by decide)]
  show StableHlo.after hostOps2_2 (W6 m ρ c) (Proc.devRef .tc main_arg1) = _
  skip_ops hostOps2_2
  show StableHlo.after hostOps2_1 (W5 m ρ c) (Proc.devRef .tc main_arg1) = _
  skip_ops hostOps2_1
  show StableHlo.after hostOps2 (W4 m ρ c) (Proc.devRef .tc main_arg1) = _
  skip_ops hostOps2
  rw [W4_of_ne m ρ c main_arg1 (by decide)]
  show StableHlo.after hostOps1 (W2 m ρ c) (Proc.devRef .tc main_arg1) = _
  skip_ops hostOps1
  exact w2_arg1 m ρ c

theorem e3_v38 : W9 m ρ c (Proc.devRef .tc main_v38)
    = KStages.mid3 (F := Ideal) (W8 m ρ c (Proc.devRef .tc main_v28)) (Spec.idxPrep (m ((c : Thread nD τ).loc main_arg1))) := by
  show StableHlo.after hostOps3 (W8 m ρ c) (Proc.devRef .tc main_v38) = _
  after_results
  rw [w8_arg1]
  rfl

theorem e3_arg8 : W9 m ρ c (Proc.devRef .tc main_arg8) = (m ((c : Thread nD τ).loc main_arg8)) := by
  show StableHlo.after hostOps3 (W8 m ρ c) (Proc.devRef .tc main_arg8) = _
  skip_ops hostOps3
  rw [W8_of_ne m ρ c main_arg8 (by decide)]
  show StableHlo.after hostOps2_2 (W6 m ρ c) (Proc.devRef .tc main_arg8) = _
  skip_ops hostOps2_2
  show StableHlo.after hostOps2_1 (W5 m ρ c) (Proc.devRef .tc main_arg8) = _
  skip_ops hostOps2_1
  show StableHlo.after hostOps2 (W4 m ρ c) (Proc.devRef .tc main_arg8) = _
  skip_ops hostOps2
  rw [W4_of_ne m ρ c main_arg8 (by decide)]
  show StableHlo.after hostOps1 (W2 m ρ c) (Proc.devRef .tc main_arg8) = _
  skip_ops hostOps1
  rw [W2_of_ne m ρ c main_arg8 (by decide)]
  show StableHlo.after hostOps0 (W0 m ρ c) (Proc.devRef .tc main_arg8) = _
  skip_ops hostOps0
  rfl

theorem e3_arg9 : W9 m ρ c (Proc.devRef .tc main_arg9) = (m ((c : Thread nD τ).loc main_arg9)) := by
  show StableHlo.after hostOps3 (W8 m ρ c) (Proc.devRef .tc main_arg9) = _
  skip_ops hostOps3
  rw [W8_of_ne m ρ c main_arg9 (by decide)]
  show StableHlo.after hostOps2_2 (W6 m ρ c) (Proc.devRef .tc main_arg9) = _
  skip_ops hostOps2_2
  show StableHlo.after hostOps2_1 (W5 m ρ c) (Proc.devRef .tc main_arg9) = _
  skip_ops hostOps2_1
  show StableHlo.after hostOps2 (W4 m ρ c) (Proc.devRef .tc main_arg9) = _
  skip_ops hostOps2
  rw [W4_of_ne m ρ c main_arg9 (by decide)]
  show StableHlo.after hostOps1 (W2 m ρ c) (Proc.devRef .tc main_arg9) = _
  skip_ops hostOps1
  rw [W2_of_ne m ρ c main_arg9 (by decide)]
  show StableHlo.after hostOps0 (W0 m ρ c) (Proc.devRef .tc main_arg9) = _
  skip_ops hostOps0
  rfl

/-- Region 3's output array, over region 2's. -/
theorem x3_v39 : W10 m ρ c (Proc.devRef .tc main_v39)
    = KStages.G3 (KStages.mid3 (F := Ideal) (W8 m ρ c (Proc.devRef .tc main_v28)) (Spec.idxPrep (m ((c : Thread nD τ).loc main_arg1)))) (m ((c : Thread nD τ).loc main_arg8)) (m ((c : Thread nD τ).loc main_arg9)) := by
  refine (W10_arr m ρ c 3).trans ?_
  rw [final3 (V9 m ρ) c]
  show KStages.G3 (W9 m ρ c (Proc.devRef .tc main_v38)) (W9 m ρ c (Proc.devRef .tc main_arg8)) (W9 m ρ c (Proc.devRef .tc main_arg9)) = _
  rw [e3_v38, e3_arg8, e3_arg9]

/-! ## The result -/

theorem w11_v41 : W11 m ρ c (Proc.devRef .tc main_v41) = KStages.post (F := Ideal) (W10 m ρ c (Proc.devRef .tc main_v39)) := by
  show StableHlo.after hostOps4 (W10 m ρ c) (Proc.devRef .tc main_v41) = _
  after_results
  rfl

/-- The result buffer at the last boundary is the program's function of the ten argument arrays. -/
theorem out_eq : W11 m ρ c (Proc.devRef .tc main_v41)
    = KStages.kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [w11_v41, x3_v39, x2_v28, x1_v14, x0_v3]
  rfl

end Cert.KernelValue

end
-- ==== Proof.LibGather.lean ====
/-
  A host gather along the LAST axis of an operand whose other axes are kept whole, read at one element, for any extents
  (jnp's v[..., idx] for an index array idx of shape [R, K], lowered with the indices as [R, K, 1]): result element
  (…, r, k) is the operand at (…, i) where i is the start index idx[r, k, 0] read as a signed integer and clamped into
  [0, N − 1]. Stated for an operand of rank 3 and of rank 4.
-/
import Idealize.ShloMosaic.PureOps.Ideal.Laws
import Idealize.ShloMosaic.Lib.ValueIdx
import Idealize.ShloMosaic.Lib.IdealHost

noncomputable section

open scoped BigOperators

namespace Cert.LibGather

open Idealize.ShloMosaic Idealize.ShloMosaic.ValueIdx

/-! ## The gather along the last axis -/

/-- The dimension numbers of v[..., idx] for an operand [A, C, N], start indices [R, K, 1] and result [A, C, R, K]. -/
abbrev gatherDims3 (A C N R K : Nat)
    (wf : GatherDims.WF ⟨3, ![A, C, N]⟩ ⟨3, ![R, K, 1]⟩ ⟨4, ![A, C, R, K]⟩ [0, 1] [2] [] [2] [] 2 ![A, C, 1]) :
    GatherDims ⟨3, ![A, C, N]⟩ ⟨3, ![R, K, 1]⟩ ⟨4, ![A, C, R, K]⟩ where
  offsetDims := [0, 1]
  collapsedSliceDims := [2]
  operandBatchingDims := []
  startIndicesBatchingDims := []
  startIndexMap := [2]
  indexVectorDim := 2
  sliceSizes := ![A, C, 1]
  wf := wf

/-- The gather read at (a, c, r, k): the operand at (a, c, i), i the start index idx[r, k, 0] read signed and clamped. -/
theorem gather3_apply {α : Type} {A C N R K w : Nat} (hN : 0 < N)
    (wf : GatherDims.WF ⟨3, ![A, C, N]⟩ ⟨3, ![R, K, 1]⟩ ⟨4, ![A, C, R, K]⟩ [0, 1] [2] [] [2] [] 2 ![A, C, 1])
    (x : (⟨3, ![A, C, N]⟩ : Shape).Idx → α) (I : IVec ⟨3, ![R, K, 1]⟩ w) (a : Fin A) (c : Fin C) (r : Fin R) (k : Fin K) :
    Host.gather (gatherDims3 A C N R K wf) x I (ix4 a c r k)
      = x (ix3 a c ⟨min (I (ix3 r k (0 : Fin 1))).toInt.toNat (N - 1), by omega⟩) := by
  unfold Host.gather
  refine congrArg x (funext fun e => Fin.ext ?_)
  show (gatherDims3 A C N R K wf).start (ix4 a c r k) I e + (gatherDims3 A C N R K wf).batchCoord (ix4 a c r k) e
    + (gatherDims3 A C N R K wf).offCoord (ix4 a c r k) e = _
  rw [GatherDims.batchCoord_eq_zero _ _ _ List.not_mem_nil, Nat.add_zero]
  match e with
  | ⟨0, h0⟩ =>
    have hne : (⟨0, h0⟩ : Fin 3) ∉ ([2] : List (Fin 3)) := fun hm =>
      absurd (show (0 : Nat) = 2 from congrArg Fin.val (List.mem_singleton.mp hm)) (by decide)
    have hk : (⟨0, h0⟩ : Fin 3) ∈ (gatherDims3 A C N R K wf).sKept :=
      (GatherDims.mem_sKept _ _).2 ⟨hne, List.not_mem_nil⟩
    unfold GatherDims.start GatherDims.offCoord
    rw [dif_neg hne, dif_pos hk, Nat.zero_add]
    rfl
  | ⟨1, h1⟩ =>
    have hne : (⟨1, h1⟩ : Fin 3) ∉ ([2] : List (Fin 3)) := fun hm =>
      absurd (show (1 : Nat) = 2 from congrArg Fin.val (List.mem_singleton.mp hm)) (by decide)
    have hk : (⟨1, h1⟩ : Fin 3) ∈ (gatherDims3 A C N R K wf).sKept :=
      (GatherDims.mem_sKept _ _).2 ⟨hne, List.not_mem_nil⟩
    unfold GatherDims.start GatherDims.offCoord
    rw [dif_neg hne, dif_pos hk, Nat.zero_add]
    rfl
  | ⟨2, h2⟩ =>
    rw [GatherDims.offCoord_eq_zero _ _ _ (fun h => ((GatherDims.mem_sKept _ _).mp h).1 (List.mem_singleton.mpr rfl)),
      Nat.add_zero]
    unfold GatherDims.start
    have hm : (⟨2, h2⟩ : Fin 3) ∈ (gatherDims3 A C N R K wf).startIndexMap := List.mem_singleton.mpr rfl
    rw [dif_pos hm]
    have hsi : (gatherDims3 A C N R K wf).siIdx (ix4 a c r k)
        ⟨List.idxOf (⟨2, h2⟩ : Fin 3) (gatherDims3 A C N R K wf).startIndexMap, List.idxOf_lt_length_iff.2 hm⟩
        = ix3 r k (0 : Fin 1) := by
      funext b; refine Fin.ext ?_
      match b with
      | ⟨0, _⟩ => rfl
      | ⟨1, _⟩ => rfl
      | ⟨2, _⟩ => rfl
    rw [hsi]
    rfl

/-- The same dimension numbers one rank up: operand [A, B, C, N], result [A, B, C, R, K]. -/
abbrev gatherDims4 (A B C N R K : Nat)
    (wf : GatherDims.WF ⟨4, ![A, B, C, N]⟩ ⟨3, ![R, K, 1]⟩ ⟨5, ![A, B, C, R, K]⟩ [0, 1, 2] [3] [] [3] [] 2 ![A, B, C, 1]) :
    GatherDims ⟨4, ![A, B, C, N]⟩ ⟨3, ![R, K, 1]⟩ ⟨5, ![A, B, C, R, K]⟩ where
  offsetDims := [0, 1, 2]
  collapsedSliceDims := [3]
  operandBatchingDims := []
  startIndicesBatchingDims := []
  startIndexMap := [3]
  indexVectorDim := 2
  sliceSizes := ![A, B, C, 1]
  wf := wf

theorem gather4_apply {α : Type} {A B C N R K w : Nat} (hN : 0 < N)
    (wf : GatherDims.WF ⟨4, ![A, B, C, N]⟩ ⟨3, ![R, K, 1]⟩ ⟨5, ![A, B, C, R, K]⟩ [0, 1, 2] [3] [] [3] [] 2 ![A, B, C, 1])
    (x : (⟨4, ![A, B, C, N]⟩ : Shape).Idx → α) (I : IVec ⟨3, ![R, K, 1]⟩ w) (a : Fin A) (b : Fin B) (c : Fin C) (r : Fin R) (k : Fin K) :
    Host.gather (gatherDims4 A B C N R K wf) x I (ix5 a b c r k)
      = x (ix4 a b c ⟨min (I (ix3 r k (0 : Fin 1))).toInt.toNat (N - 1), by omega⟩) := by
  unfold Host.gather
  refine congrArg x (funext fun e => Fin.ext ?_)
  show (gatherDims4 A B C N R K wf).start (ix5 a b c r k) I e + (gatherDims4 A B C N R K wf).batchCoord (ix5 a b c r k) e
    + (gatherDims4 A B C N R K wf).offCoord (ix5 a b c r k) e = _
  rw [GatherDims.batchCoord_eq_zero _ _ _ List.not_mem_nil, Nat.add_zero]
  match e with
  | ⟨0, h0⟩ =>
    have hne : (⟨0, h0⟩ : Fin 4) ∉ ([3] : List (Fin 4)) := fun hm =>
      absurd (show (0 : Nat) = 3 from congrArg Fin.val (List.mem_singleton.mp hm)) (by decide)
    have hk : (⟨0, h0⟩ : Fin 4) ∈ (gatherDims4 A B C N R K wf).sKept :=
      (GatherDims.mem_sKept _ _).2 ⟨hne, List.not_mem_nil⟩
    unfold GatherDims.start GatherDims.offCoord
    rw [dif_neg hne, dif_pos hk, Nat.zero_add]
    rfl
  | ⟨1, h1⟩ =>
    have hne : (⟨1, h1⟩ : Fin 4) ∉ ([3] : List (Fin 4)) := fun hm =>
      absurd (show (1 : Nat) = 3 from congrArg Fin.val (List.mem_singleton.mp hm)) (by decide)
    have hk : (⟨1, h1⟩ : Fin 4) ∈ (gatherDims4 A B C N R K wf).sKept :=
      (GatherDims.mem_sKept _ _).2 ⟨hne, List.not_mem_nil⟩
    unfold GatherDims.start GatherDims.offCoord
    rw [dif_neg hne, dif_pos hk, Nat.zero_add]
    rfl
  | ⟨2, h2⟩ =>
    have hne : (⟨2, h2⟩ : Fin 4) ∉ ([3] : List (Fin 4)) := fun hm =>
      absurd (show (2 : Nat) = 3 from congrArg Fin.val (List.mem_singleton.mp hm)) (by decide)
    have hk : (⟨2, h2⟩ : Fin 4) ∈ (gatherDims4 A B C N R K wf).sKept :=
      (GatherDims.mem_sKept _ _).2 ⟨hne, List.not_mem_nil⟩
    unfold GatherDims.start GatherDims.offCoord
    rw [dif_neg hne, dif_pos hk, Nat.zero_add]
    rfl
  | ⟨3, h3⟩ =>
    rw [GatherDims.offCoord_eq_zero _ _ _ (fun h => ((GatherDims.mem_sKept _ _).mp h).1 (List.mem_singleton.mpr rfl)),
      Nat.add_zero]
    unfold GatherDims.start
    have hm : (⟨3, h3⟩ : Fin 4) ∈ (gatherDims4 A B C N R K wf).startIndexMap := List.mem_singleton.mpr rfl
    rw [dif_pos hm]
    have hsi : (gatherDims4 A B C N R K wf).siIdx (ix5 a b c r k)
        ⟨List.idxOf (⟨3, h3⟩ : Fin 4) (gatherDims4 A B C N R K wf).startIndexMap, List.idxOf_lt_length_iff.2 hm⟩
        = ix3 r k (0 : Fin 1) := by
      funext d; refine Fin.ext ?_
      match d with
      | ⟨0, _⟩ => rfl
      | ⟨1, _⟩ => rfl
      | ⟨2, _⟩ => rfl
    rw [hsi]
    rfl

end Cert.LibGather

end
-- ==== Proof.KerA.lean ====
/-
  The kernel program's host stretches read at one element: the scrambled re-layout of the flattened input, the two
  gathers with their re-layouts, and the final split of the rows into batch and sequence step.
-/
import proofs.«410499_j42975442764370_3_alg».proof.Proof.KStages
import proofs.«410499_j42975442764370_3_alg».proof.Proof.LibGather
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KerA

open Idealize.ShloMosaic Idealize.ShloMosaic.ValueIdx Cert.Spec Cert.KernelIdeal

/-- Row (b, s), node-row n, column k of the re-laid input is the input at node (9n + k) % 4096, slot (9n + k) / 4096. -/
theorem pre0_apply (x : FVec Ideal S8x24x4096x9 .f32) (b : Fin 8) (s : Fin 24) (n : Fin 4096) (k : Fin 9) :
    KStages.pre0 (F := Ideal) x (ix3 (bs b s) n k) = x (ix4 b s (scrN9 n k) (scrK9 n k)) := by
  unfold KStages.pre0
  -- the (9, 4096) rows re-read as (4096, 9): flat position 9n + k is slot (9n + k) / 4096, node (9n + k) % 4096
  refine (shapeCast_apply _ _ _ (ix3 (bs b s) (scrK9 n k) (scrN9 n k)) ?_).trans ?_
  · rw [Shape.rowMajor_val_three, Shape.rowMajor_val_three]
    show ((bs b s).val * 9 + (scrK9 n k).val) * 4096 + (scrN9 n k).val = ((bs b s).val * 4096 + n.val) * 9 + k.val
    show ((bs b s).val * 9 + (n.val * 9 + k.val) / 4096) * 4096 + (n.val * 9 + k.val) % 4096
      = ((bs b s).val * 4096 + n.val) * 9 + k.val
    omega
  -- slots and nodes exchanged
  refine (transpose_ix3_021_apply _ _ (bs b s) (scrK9 n k) (scrN9 n k)).trans ?_
  -- the 192 rows are batch and step
  refine (shapeCast_apply _ _ _ (ix4 b s (scrN9 n k) (scrK9 n k)) ?_).trans rfl
  rw [Shape.rowMajor_val_four, Shape.rowMajor_val_three]
  show ((b.val * 24 + s.val) * 4096 + (scrN9 n k).val) * 9 + (scrK9 n k).val
    = ((bs b s).val * 4096 + (scrN9 n k).val) * 9 + (scrK9 n k).val
  rfl

/-- Row n, column m of call 2's input: channel (288n + m) / 36864 of the node that the neighbour word at node
    (288n + m) % 4096, slot (288n + m) / 4096 % 9 names, in the same flattened row a. -/
theorem mid1_apply (h : FVec Ideal S192x4096x32 .f32) (I : IVec S4096x9x1 32) (a : Fin 192) (n : Fin 4096) (m : Fin 288) :
    KStages.mid1 (F := Ideal) h I (ix3 a n m) = h (ix3 a (gnode (curI I) (scrN288 n m) (scrK288 n m)) (scrC288 n m)) := by
  unfold KStages.mid1
  -- the (32, 9, 4096) rows re-read as (4096, 288): flat position q = 288n + m is channel q / 36864, slot q / 4096 % 9,
  -- node q % 4096
  refine (shapeCast_apply _ _ _ (ix4 a (scrC288 n m) (scrK288 n m) (scrN288 n m)) ?_).trans ?_
  · rw [Shape.rowMajor_val_four, Shape.rowMajor_val_three]
    show ((a.val * 32 + (scrC288 n m).val) * 9 + (scrK288 n m).val) * 4096 + (scrN288 n m).val
      = (a.val * 4096 + n.val) * 288 + m.val
    show ((a.val * 32 + (n.val * 288 + m.val) / 36864) * 9 + (n.val * 288 + m.val) / 4096 % 9) * 4096
        + (n.val * 288 + m.val) % 4096
      = (a.val * 4096 + n.val) * 288 + m.val
    omega
  -- slots and nodes exchanged
  refine (transpose_apply _ _ _ _ (ix4 a (scrC288 n m) (scrN288 n m) (scrK288 n m)) ?_).trans ?_
  · intro e
    match e with
    | ⟨0, _⟩ => rfl
    | ⟨1, _⟩ => rfl
    | ⟨2, _⟩ => rfl
    | ⟨3, _⟩ => rfl
  -- the gather along the node axis: the node the neighbour word names, clamped
  rw [show gather_S192x32x4096_S4096x9x1_S192x32x4096x9_01_2_n_n_2_2_192321
    = Cert.LibGather.gatherDims3 192 32 4096 4096 9 _ from rfl]
  refine (Cert.LibGather.gather3_apply (by norm_num) _ _ I a (scrC288 n m) (scrN288 n m) (scrK288 n m)).trans ?_
  -- channels and nodes exchanged
  refine (transpose_ix3_021_apply _ _ a (scrC288 n m) _).trans ?_
  rfl

/-- The same for call 4's input, at 16 channels. -/
theorem mid3_apply (h : FVec Ideal S192x4096x16 .f32) (I : IVec S4096x9x1 32) (a : Fin 192) (n : Fin 4096) (m : Fin 144) :
    KStages.mid3 (F := Ideal) h I (ix3 a n m) = h (ix3 a (gnode (curI I) (scrN144 n m) (scrK144 n m)) (scrC144 n m)) := by
  unfold KStages.mid3
  -- the (16, 9, 4096) rows re-read as (4096, 144): flat position q = 144n + m is channel q / 36864, slot q / 4096 % 9,
  -- node q % 4096
  refine (shapeCast_apply _ _ _ (ix4 a (scrC144 n m) (scrK144 n m) (scrN144 n m)) ?_).trans ?_
  · rw [Shape.rowMajor_val_four, Shape.rowMajor_val_three]
    show ((a.val * 16 + (scrC144 n m).val) * 9 + (scrK144 n m).val) * 4096 + (scrN144 n m).val
      = (a.val * 4096 + n.val) * 144 + m.val
    show ((a.val * 16 + (n.val * 144 + m.val) / 36864) * 9 + (n.val * 144 + m.val) / 4096 % 9) * 4096
        + (n.val * 144 + m.val) % 4096
      = (a.val * 4096 + n.val) * 144 + m.val
    omega
  -- slots and nodes exchanged
  refine (transpose_apply _ _ _ _ (ix4 a (scrC144 n m) (scrN144 n m) (scrK144 n m)) ?_).trans ?_
  · intro e
    match e with
    | ⟨0, _⟩ => rfl
    | ⟨1, _⟩ => rfl
    | ⟨2, _⟩ => rfl
    | ⟨3, _⟩ => rfl
  -- the gather along the node axis: the node the neighbour word names, clamped
  rw [show gather_S192x16x4096_S4096x9x1_S192x16x4096x9_01_2_n_n_2_2_192161
    = Cert.LibGather.gatherDims3 192 16 4096 4096 9 _ from rfl]
  refine (Cert.LibGather.gather3_apply (by norm_num) _ _ I a (scrC144 n m) (scrN144 n m) (scrK144 n m)).trans ?_
  -- channels and nodes exchanged
  refine (transpose_ix3_021_apply _ _ a (scrC144 n m) _).trans ?_
  rfl

/-- The result at (b, s, n) is call 4's output at flattened row 24b + s, node n. -/
theorem post_apply (o : FVec Ideal S192x4096x1 .f32) (b : Fin 8) (s : Fin 24) (n : Fin 4096) :
    KStages.post (F := Ideal) o (ix3 b s n) = o (ix3 (bs b s) n (0 : Fin 1)) := by
  unfold KStages.post
  -- the rows split into batch and step: position (24b + s)·4096 + n on both sides
  refine (shapeCast_apply _ _ _ (ix2 (bs b s) n) ?_).trans ?_
  · rw [Shape.rowMajor_val_two, Shape.rowMajor_val_three]
    show (bs b s).val * 4096 + n.val = (b.val * 24 + s.val) * 4096 + n.val
    rfl
  -- the unit channel dropped
  refine (shapeCast_apply _ _ _ (ix3 (bs b s) n (0 : Fin 1)) ?_).trans rfl
  rw [Shape.rowMajor_val_two, Shape.rowMajor_val_three]
  show ((bs b s).val * 4096 + n.val) * 1 + 0 = (bs b s).val * 4096 + n.val
  omega

end Cert.KerA

end
-- ==== Proof.LibReduce.lean ====
/-
  A float sum over two or three axes of an array (the host's reduce with an add body), read at a result index as the
  initial value plus a DOUBLE sum over the coordinates of the reduced axes, for any extents: over axes 0 and 2 of a
  rank-4 array, and over axes 0, 3 and 4 of a rank-5 array whose last axis is a unit axis.
-/
import Idealize.ShloMosaic.PureOps.Ideal.Laws
import Idealize.ShloMosaic.Lib.ValueIdx
import Idealize.ShloMosaic.Lib.IdealHost

noncomputable section

open scoped BigOperators

namespace Cert.LibReduce

open Idealize.ShloMosaic Idealize.ShloMosaic.ValueIdx

/-! ## Sums over several axes -/

/-- The host's float sum over axes 0 and 2 of an array [B, S, N, C], at (s, o): the initial value plus the double sum
    over b and n of the element (b, s, n, o). -/
theorem hostReduceAdd_axes02 {B S N C : Nat} (h : (⟨4, ![B, S, N, C]⟩ : Shape).ReducesTo [0, 2] ⟨2, ![S, C]⟩)
    (x : (⟨4, ![B, S, N, C]⟩ : Shape).Idx → EReal) (init : EReal) (s : Fin S) (o : Fin C) :
    Ideal.hostReduceAdd h x init (ix2 s o) = init + ∑ b : Fin B, ∑ n : Fin N, x (ix4 b s n o) := by
  -- the two kept axes of the source are its axes 1 and 3
  have hk : (⟨4, ![B, S, N, C]⟩ : Shape).kept [0, 2] = [1, 3] := by
    show (List.finRange 4).filter (fun a => a ∉ ([0, 2] : List (Fin 4))) = [1, 3]
    decide
  have h0 : ∀ i : (⟨4, ![B, S, N, C]⟩ : Shape).Idx, (h.drop i 0 : Nat) = i 1 :=
    fun i => h.drop_apply_val_of_eq i 0 1 (by rw [hk]; show (0 : Nat) < 2; omega) ((List.getElem_of_eq hk _).trans rfl)
  have h1 : ∀ i : (⟨4, ![B, S, N, C]⟩ : Shape).Idx, (h.drop i 1 : Nat) = i 3 :=
    fun i => h.drop_apply_val_of_eq i 1 3 (by rw [hk]; show (1 : Nat) < 2; omega) ((List.getElem_of_eq hk _).trans rfl)
  unfold Ideal.hostReduceAdd
  congr 1
  -- the indices over (s, o) are in bijection with the pairs (b, n)
  refine Eq.trans ?_ (Fintype.sum_prod_type' (fun (b : Fin B) (n : Fin N) => x (ix4 b s n o)))
  refine Finset.sum_nbij' (fun i => ((i 0 : Fin B), (i 2 : Fin N))) (fun p => ix4 p.1 s p.2 o) ?_ ?_ ?_ ?_ ?_
  · intro i _; exact Finset.mem_univ _
  · intro p _
    refine Finset.mem_filter.2 ⟨Finset.mem_univ _, ?_⟩
    funext a
    match a with
    | ⟨0, _⟩ => exact Fin.ext (h0 _)
    | ⟨1, _⟩ => exact Fin.ext (h1 _)
  · intro i hi
    have hj := (Finset.mem_filter.1 hi).2
    have e1 : (i 1 : Fin S) = s := Fin.ext ((h0 i).symm.trans (congrArg Fin.val (congrFun hj 0)))
    have e3 : (i 3 : Fin C) = o := Fin.ext ((h1 i).symm.trans (congrArg Fin.val (congrFun hj 1)))
    symm
    funext a
    match a with
    | ⟨0, _⟩ => rfl
    | ⟨1, _⟩ => exact e1
    | ⟨2, _⟩ => rfl
    | ⟨3, _⟩ => exact e3
  · intro p _; rfl
  · intro i hi
    have hj := (Finset.mem_filter.1 hi).2
    have e1 : (i 1 : Fin S) = s := Fin.ext ((h0 i).symm.trans (congrArg Fin.val (congrFun hj 0)))
    have e3 : (i 3 : Fin C) = o := Fin.ext ((h1 i).symm.trans (congrArg Fin.val (congrFun hj 1)))
    refine congrArg x ?_
    funext a
    match a with
    | ⟨0, _⟩ => rfl
    | ⟨1, _⟩ => exact e1
    | ⟨2, _⟩ => rfl
    | ⟨3, _⟩ => exact e3

/-- The host's float sum over axes 0, 3 and 4 of an array [B, S, C, N, 1], at (s, o): the initial value plus the double
    sum over b and n of the element (b, s, o, n, 0). -/
theorem hostReduceAdd_axes034 {B S C N : Nat} (h : (⟨5, ![B, S, C, N, 1]⟩ : Shape).ReducesTo [0, 3, 4] ⟨2, ![S, C]⟩)
    (x : (⟨5, ![B, S, C, N, 1]⟩ : Shape).Idx → EReal) (init : EReal) (s : Fin S) (o : Fin C) :
    Ideal.hostReduceAdd h x init (ix2 s o) = init + ∑ b : Fin B, ∑ n : Fin N, x (ix5 b s o n (0 : Fin 1)) := by
  -- the two kept axes of the source are its axes 1 and 2
  have hk : (⟨5, ![B, S, C, N, 1]⟩ : Shape).kept [0, 3, 4] = [1, 2] := by
    show (List.finRange 5).filter (fun a => a ∉ ([0, 3, 4] : List (Fin 5))) = [1, 2]
    decide
  have h0 : ∀ i : (⟨5, ![B, S, C, N, 1]⟩ : Shape).Idx, (h.drop i 0 : Nat) = i 1 :=
    fun i => h.drop_apply_val_of_eq i 0 1 (by rw [hk]; show (0 : Nat) < 2; omega) ((List.getElem_of_eq hk _).trans rfl)
  have h1 : ∀ i : (⟨5, ![B, S, C, N, 1]⟩ : Shape).Idx, (h.drop i 1 : Nat) = i 2 :=
    fun i => h.drop_apply_val_of_eq i 1 2 (by rw [hk]; show (1 : Nat) < 2; omega) ((List.getElem_of_eq hk _).trans rfl)
  unfold Ideal.hostReduceAdd
  congr 1
  refine Eq.trans ?_ (Fintype.sum_prod_type' (fun (b : Fin B) (n : Fin N) => x (ix5 b s o n (0 : Fin 1))))
  refine Finset.sum_nbij' (fun i => ((i 0 : Fin B), (i 3 : Fin N))) (fun p => ix5 p.1 s o p.2 (0 : Fin 1)) ?_ ?_ ?_ ?_ ?_
  · intro i _; exact Finset.mem_univ _
  · intro p _
    refine Finset.mem_filter.2 ⟨Finset.mem_univ _, ?_⟩
    funext a
    match a with
    | ⟨0, _⟩ => exact Fin.ext (h0 _)
    | ⟨1, _⟩ => exact Fin.ext (h1 _)
  · intro i hi
    have hj := (Finset.mem_filter.1 hi).2
    have e1 : (i 1 : Fin S) = s := Fin.ext ((h0 i).symm.trans (congrArg Fin.val (congrFun hj 0)))
    have e2 : (i 2 : Fin C) = o := Fin.ext ((h1 i).symm.trans (congrArg Fin.val (congrFun hj 1)))
    have e4 : (i 4).val = 0 := by have : (i 4).val < 1 := (i 4).isLt; omega
    symm
    funext a
    match a with
    | ⟨0, _⟩ => rfl
    | ⟨1, _⟩ => exact e1
    | ⟨2, _⟩ => exact e2
    | ⟨3, _⟩ => rfl
    | ⟨4, _⟩ => exact Fin.ext e4
  · intro p _; rfl
  · intro i hi
    have hj := (Finset.mem_filter.1 hi).2
    have e1 : (i 1 : Fin S) = s := Fin.ext ((h0 i).symm.trans (congrArg Fin.val (congrFun hj 0)))
    have e2 : (i 2 : Fin C) = o := Fin.ext ((h1 i).symm.trans (congrArg Fin.val (congrFun hj 1)))
    have e4 : (i 4).val = 0 := by have : (i 4).val < 1 := (i 4).isLt; omega
    refine congrArg x ?_
    funext a
    match a with
    | ⟨0, _⟩ => rfl
    | ⟨1, _⟩ => exact e1
    | ⟨2, _⟩ => exact e2
    | ⟨3, _⟩ => rfl
    | ⟨4, _⟩ => exact Fin.ext e4

end Cert.LibReduce

end
-- ==== Proof.KerB.lean ====
/-
  The kernel program's statistics read at one element: layer 2's result with batch and step apart, its mean and
  variance over batch and nodes, and a statistic laid out by flattened row.
-/
import proofs.«410499_j42975442764370_3_alg».proof.Proof.KStages
import proofs.«410499_j42975442764370_3_alg».proof.Proof.LibReduce
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KerB

open Idealize.ShloMosaic Idealize.ShloMosaic.ValueIdx Cert.Spec Cert.KernelIdeal

/-- Batch b, step s of the unflattened array is flattened row 24b + s. -/
theorem unflat_apply (y : FVec Ideal S192x4096x16 .f32) (b : Fin 8) (s : Fin 24) (n : Fin 4096) (o : Fin 16) :
    KStages.unflat (F := Ideal) y (ix4 b s n o) = y (ix3 (bs b s) n o) := by
  unfold KStages.unflat
  refine shapeCast_apply _ _ _ (ix3 (bs b s) n o) ?_
  rw [Shape.rowMajor_val_three, Shape.rowMajor_val_four]
  show ((bs b s).val * 4096 + n.val) * 16 + o.val = ((b.val * 24 + s.val) * 4096 + n.val) * 16 + o.val
  rfl

/-- The mean at step s, channel o. -/
theorem mean_apply (y : FVec Ideal S8x24x4096x16 .f32) (s : Fin 24) (o : Fin 16) :
    KStages.mean (F := Ideal) y (ix2 s o) = Ideal.div (Z + ∑ b : Fin 8, ∑ n : Fin 4096, y (ix4 b s n o)) CNT := by
  unfold KStages.mean
  refine (hostDivf_apply _ _ _).trans ?_
  refine congrArg₂ Ideal.div ?_ ?_
  · refine (hostReduceAdd_apply _ _ _ _ _).trans ?_
    exact Cert.LibReduce.hostReduceAdd_axes02 _ _ _ s o
  · exact broadcastInDim_scalar_apply _ _ _

/-- The variance at step s, channel o. -/
theorem var_apply (y : FVec Ideal S8x24x4096x16 .f32) (s : Fin 24) (o : Fin 16) :
    KStages.var (F := Ideal) y (ix2 s o)
      = Scalar.select (FloatOps.cmpf (F := Ideal) (φ := .f32) .ogt DEN Z)
          (Ideal.div (Z + ∑ b : Fin 8, ∑ n : Fin 4096,
            (y (ix4 b s n o) - Ideal.div (Z + ∑ b' : Fin 8, ∑ n' : Fin 4096, y (ix4 b' s n' o)) CNT)
            * (y (ix4 b s n o) - Ideal.div (Z + ∑ b' : Fin 8, ∑ n' : Fin 4096, y (ix4 b' s n' o)) CNT)) DEN) NAN := by
  unfold KStages.var
  refine (select_apply _ _ _ _).trans ?_
  -- the three operands of the select, one by one
  have sel : ∀ {c c' : BitVec 1} {a a' e e' : EReal}, c = c' → a = a' → e = e' →
      Scalar.select c a e = Scalar.select c' a' e' := by
    intro c c' a a' e e' hc ha he; rw [hc, ha, he]
  refine sel ?_ ?_ ?_
  · -- the test on the divisor: a broadcast scalar
    exact broadcastInDim_scalar_apply _ _ _
  · -- the sum of squared deviations over the divisor
    refine (hostDivf_apply _ _ _).trans ?_
    refine congrArg₂ Ideal.div ?_ (broadcastInDim_scalar_apply _ _ _)
    refine (hostReduceAdd_apply _ _ _ _ _).trans ?_
    refine (Cert.LibReduce.hostReduceAdd_axes02 _ _ _ s o).trans ?_
    refine congrArg (fun t => Z + t) ?_
    refine Finset.sum_congr rfl fun b _ => Finset.sum_congr rfl fun n _ => ?_
    refine (mulf_apply _ _ _).trans ?_
    -- each factor is the element minus the mean, the mean read through its two broadcasts
    refine congrArg₂ (fun u v => u * v) ?_ ?_ <;>
    ( refine (subf_apply _ _ _).trans ?_
      refine congrArg (fun t => y (ix4 b s n o) - t) ?_
      refine (broadcastInDim_apply _ _ _ _ (ix4 (0 : Fin 1) s (0 : Fin 1) o) ?_).trans ?_
      · intro a
        match a with
        | ⟨0, _⟩ => rfl
        | ⟨1, _⟩ => rfl
        | ⟨2, _⟩ => rfl
        | ⟨3, _⟩ => rfl
      refine (hostDivf_apply _ _ _).trans ?_
      refine congrArg₂ Ideal.div ?_ (broadcastInDim_scalar_apply _ _ _)
      refine (broadcastInDim_apply _ _ _ _ (ix2 s o) ?_).trans ?_
      · intro a
        match a with
        | ⟨0, _⟩ => rfl
        | ⟨1, _⟩ => rfl
      refine (hostReduceAdd_apply _ _ _ _ _).trans ?_
      exact Cert.LibReduce.hostReduceAdd_axes02 _ _ _ s o )
  · -- the fallback word: a broadcast scalar
    exact broadcastInDim_scalar_apply _ _ _

/-- A per-step statistic at flattened row 24b + s is the statistic at step s. -/
theorem toRows_apply (v : FVec Ideal S24x16 .f32) (b : Fin 8) (s : Fin 24) (o : Fin 16) :
    KStages.toRows (F := Ideal) v (ix3 (bs b s) (0 : Fin 1) o) = v (ix2 s o) := by
  unfold KStages.toRows
  -- the unit middle axis goes
  refine (shapeCast_apply _ _ _ (ix2 (bs b s) o) ?_).trans ?_
  · rw [Shape.rowMajor_val_two, Shape.rowMajor_val_three]
    show (bs b s).val * 16 + o.val = ((bs b s).val * 1 + 0) * 16 + o.val
    omega
  -- the row splits into batch and step
  refine (shapeCast_apply _ _ _ (ix4 b s (0 : Fin 1) o) ?_).trans ?_
  · rw [Shape.rowMajor_val_four, Shape.rowMajor_val_two]
    show ((b.val * 24 + s.val) * 1 + 0) * 16 + o.val = (b.val * 24 + s.val) * 16 + o.val
    omega
  -- the batch axis is a repeat
  refine (broadcastInDim_apply _ _ _ _ (ix4 (0 : Fin 1) s (0 : Fin 1) o) ?_).trans ?_
  · intro a
    match a with
    | ⟨0, _⟩ => rfl
    | ⟨1, _⟩ => rfl
    | ⟨2, _⟩ => rfl
    | ⟨3, _⟩ => rfl
  -- the two unit axes go
  refine shapeCast_apply _ _ _ (ix2 s o) ?_
  rw [Shape.rowMajor_val_two, Shape.rowMajor_val_four]
  show s.val * 16 + o.val = ((0 * 24 + s.val) * 1 + 0) * 16 + o.val
  omega

end Cert.KerB

end
-- ==== Proof.KernelNet.lean ====
/-
  The kernel program's result is the network, element by element over the extended reals. Its host stretches and its
  four calls are composed layer by layer, every intermediate array read at flattened row 24b + s: the input re-read
  through the scrambled layout and multiplied by the first weights (layer 1, clipped at zero); the neighbours' layer-1
  values gathered and re-read through the scrambled layout, multiplied by the second weights (layer 2); the mean and
  the biased variance of layer 2 over the 8 batch entries and the 4096 nodes, per step and channel, repeated over the
  batch; the normalization with its affine map, clipped at zero; the neighbours' normalized values gathered and
  re-read, multiplied by the last weights and clipped at zero (layer 3); and the rows split into batch and step.
-/
import proofs.«410499_j42975442764370_3_alg».proof.Proof.KStages
import proofs.«410499_j42975442764370_3_alg».proof.Proof.KerA
import proofs.«410499_j42975442764370_3_alg».proof.Proof.KerB
import Idealize.ShloMosaic.Lib.ValueIdx
import Idealize.ShloMosaic.Lib.Pipeline.Value
import Idealize.ShloMosaic.PureOps.Ideal.Laws

noncomputable section

open scoped BigOperators

namespace Cert.KernelNet

open Idealize.ShloMosaic Idealize.ShloMosaic.ValueIdx Cert.Spec Cert.KernelIdeal

variable (x : FVec Ideal S8x24x4096x9 .f32) (neigh : IVec S4096x9 32) (W1 : FVec Ideal S32x9 .f32) (b1 : FVec Ideal S32 .f32)
  (W2 : FVec Ideal S16x288 .f32) (b2 : FVec Ideal S16 .f32) (γ β : FVec Ideal S16 .f32) (W3 : FVec Ideal S1x144 .f32)
  (b3 : FVec Ideal S1 .f32)

/-- Layer 1's rows, by flattened row. -/
theorem rows1 (b : Fin 8) (s : Fin 24) (n : Fin 4096) (k : Fin 9) :
    KStages.pre0 (F := Ideal) x (ix3 (bs b s) n k) = sT1 (cur4 x) b s n k :=
  KerA.pre0_apply x b s n k

/-- Layer 1. -/
theorem layer1 (b : Fin 8) (s : Fin 24) (n : Fin 4096) (o : Fin 32) :
    KStages.G0 (KStages.pre0 (F := Ideal) x) W1 b1 (ix3 (bs b s) n o) = sH1 (sT1 (cur4 x)) (cur2 W1) (cur1 b1) b s n o := by
  rw [KStages.G0_apply]
  simp only [rows1]
  rfl

/-- Layer 2's rows. -/
theorem rows2 (b : Fin 8) (s : Fin 24) (n : Fin 4096) (m : Fin 288) :
    KStages.mid1 (F := Ideal) (KStages.G0 (KStages.pre0 (F := Ideal) x) W1 b1) (idxPrep neigh) (ix3 (bs b s) n m)
      = sT2 (sH1 (sT1 (cur4 x)) (cur2 W1) (cur1 b1)) (curI (idxPrep neigh)) b s n m := by
  rw [KerA.mid1_apply, layer1]
  rfl

/-- Layer 2. -/
theorem layer2 (b : Fin 8) (s : Fin 24) (n : Fin 4096) (o : Fin 16) :
    KStages.G1 (KStages.mid1 (F := Ideal) (KStages.G0 (KStages.pre0 (F := Ideal) x) W1 b1) (idxPrep neigh)) W2 b2 (ix3 (bs b s) n o)
      = sY2 (sT2 (sH1 (sT1 (cur4 x)) (cur2 W1) (cur1 b1)) (curI (idxPrep neigh))) (cur2 W2) (cur1 b2) b s n o := by
  rw [KStages.G1_apply]
  simp only [rows2]
  rfl

/-- Layer 2's result by flattened row, as the kernel program computes it. -/
abbrev Y2k : FVec Ideal S192x4096x16 .f32 :=
  KStages.G1 (KStages.mid1 (F := Ideal) (KStages.G0 (KStages.pre0 (F := Ideal) x) W1 b1) (idxPrep neigh)) W2 b2

/-- Layer 2 as the mathematics spells it, by batch entry, step, node and channel. -/
abbrev y2s : Fin 8 → Fin 24 → Fin 4096 → Fin 16 → EReal :=
  sY2 (sT2 (sH1 (sT1 (cur4 x)) (cur2 W1) (cur1 b1)) (curI (idxPrep neigh))) (cur2 W2) (cur1 b2)

/-- Layer 2 in the two short names. -/
theorem layer2' (b : Fin 8) (s : Fin 24) (n : Fin 4096) (o : Fin 16) :
    Y2k x neigh W1 b1 W2 b2 (ix3 (bs b s) n o) = y2s x neigh W1 b1 W2 b2 b s n o :=
  layer2 x neigh W1 b1 W2 b2 b s n o

/-- The mean laid out by flattened row is the mean over batch and nodes of layer 2, at the row's step. -/
theorem meanRows (b : Fin 8) (s : Fin 24) (o : Fin 16) :
    KStages.toRows (F := Ideal) (KStages.mean (F := Ideal) (KStages.unflat (F := Ideal) (Y2k x neigh W1 b1 W2 b2)))
        (ix3 (bs b s) (0 : Fin 1) o)
      = sMean (y2s x neigh W1 b1 W2 b2) s o := by
  rw [KerB.toRows_apply, KerB.mean_apply]
  simp only [KerB.unflat_apply, layer2']
  rfl

/-- The variance laid out by flattened row is the biased variance over batch and nodes of layer 2, at the row's step. -/
theorem varRows (b : Fin 8) (s : Fin 24) (o : Fin 16) :
    KStages.toRows (F := Ideal) (KStages.var (F := Ideal) (KStages.unflat (F := Ideal) (Y2k x neigh W1 b1 W2 b2)))
        (ix3 (bs b s) (0 : Fin 1) o)
      = sVar (y2s x neigh W1 b1 W2 b2) s o := by
  rw [KerB.toRows_apply, KerB.var_apply]
  simp only [KerB.unflat_apply, layer2']
  rfl

/-- The normalized layer 2 by flattened row, as the kernel program computes it. -/
abbrev N2k : FVec Ideal S192x4096x16 .f32 :=
  KStages.G2 (Y2k x neigh W1 b1 W2 b2)
    (KStages.toRows (F := Ideal) (KStages.mean (F := Ideal) (KStages.unflat (F := Ideal) (Y2k x neigh W1 b1 W2 b2))))
    (KStages.toRows (F := Ideal) (KStages.var (F := Ideal) (KStages.unflat (F := Ideal) (Y2k x neigh W1 b1 W2 b2))))
    γ β

/-- The normalization: each element less the mean, over the root of the variance plus epsilon, through the affine map,
    clipped at zero. -/
theorem norm2 (b : Fin 8) (s : Fin 24) (n : Fin 4096) (o : Fin 16) :
    N2k x neigh W1 b1 W2 b2 γ β (ix3 (bs b s) n o)
      = sY2n (y2s x neigh W1 b1 W2 b2) (cur1 γ) (cur1 β) b s n o := by
  unfold N2k
  rw [KStages.G2_apply, meanRows, varRows, layer2']
  rfl

/-- Layer 3's rows. -/
theorem rows3 (b : Fin 8) (s : Fin 24) (n : Fin 4096) (m : Fin 144) :
    KStages.mid3 (F := Ideal) (N2k x neigh W1 b1 W2 b2 γ β) (idxPrep neigh) (ix3 (bs b s) n m)
      = sT3 (sY2n (y2s x neigh W1 b1 W2 b2) (cur1 γ) (cur1 β)) (curI (idxPrep neigh)) b s n m := by
  rw [KerA.mid3_apply, norm2]
  rfl

/-- Layer 3: its one output channel. -/
theorem layer3 (b : Fin 8) (s : Fin 24) (n : Fin 4096) :
    KStages.G3 (KStages.mid3 (F := Ideal) (N2k x neigh W1 b1 W2 b2 γ β) (idxPrep neigh)) W3 b3 (ix3 (bs b s) n (0 : Fin 1))
      = sOut (sT3 (sY2n (y2s x neigh W1 b1 W2 b2) (cur1 γ) (cur1 β)) (curI (idxPrep neigh))) (cur2 W3) (cur1 b3) b s n := by
  rw [KStages.G3_apply]
  simp only [rows3]
  rfl

/-- The kernel program's result is the network. -/
theorem kOut_eq_net (x : FVec Ideal S8x24x4096x9 .f32) (neigh : IVec S4096x9 32) (W1 : FVec Ideal S32x9 .f32) (b1 : FVec Ideal S32 .f32) (W2 : FVec Ideal S16x288 .f32) (b2 : FVec Ideal S16 .f32) (γ β : FVec Ideal S16 .f32) (W3 : FVec Ideal S1x144 .f32) (b3 : FVec Ideal S1 .f32) :
    KStages.kOut x neigh W1 b1 W2 b2 γ β W3 b3 = Cert.Spec.net x neigh W1 b1 W2 b2 γ β W3 b3 := by
  funext j
  obtain ⟨b, s, n, rfl⟩ : ∃ (b : Fin 8) (s : Fin 24) (n : Fin 4096), j = ix3 b s n := ⟨j 0, j 1, j 2, eq_ix3 j⟩
  unfold KStages.kOut
  rw [KerA.post_apply]
  exact layer3 x neigh W1 b1 W2 b2 γ β W3 b3 b s n

end Cert.KernelNet

end
-- ==== Proof.RStages.lean ====
/-
  The reference program's @main as pure functions of arrays, cut where the mathematics cuts it: the scrambled re-layout
  of the input, the three layers (a host dot_general, the bias, a transposition to channels-first), the gathers with their
  re-layouts, the statistics and the normalization. Each is the composition of the printed operations, the outlined
  functions unfolded at their calls, so that the run's fold through @main IS the composition.
-/
import proofs.«410499_j42975442764370_3_alg».proof.ReferenceIdeal
import proofs.«410499_j42975442764370_3_alg».proof.Proof.Gen.ReferenceIdeal
import proofs.«410499_j42975442764370_3_alg».proof.Proof.Spec

noncomputable section

namespace Cert.RStages

open Cert.ReferenceIdeal Cert.ReferenceIdeal.Gen Idealize.ShloMosaic Idealize.ShloMosaic.ValueIdx

variable {F : FTy → Type} [FloatOps F]

/-- The input with a unit channel axis, slots before nodes, re-read as 4096 rows of 9. -/
def pre0 (x : (⟨S8x24x4096x9, .f32⟩ : BufTy).Contents (Elt F)) : (⟨S8x24x4096x9, .f32⟩ : BufTy).Contents (Elt F) :=
  shapeCast S8x24x4096x9
    (transpose S8x24x1x9x4096 [0, 1, 2, 4, 3]
      (broadcastInDim S8x24x1x4096x9 ![0, 1, 3, 4] bcast_S8x24x4096x9_S8x24x1x4096x9_0_1_3_4 x)
      transposes_S8x24x1x4096x9_S8x24x1x9x4096_0_1_2_4_3)
    shapeCasts_S8x24x1x9x4096_S8x24x4096x9

/-- Layer 1, channels first: rows against the weights, the bias, a trailing unit axis, clipped at zero, the unit axis
    moved and dropped. -/
def lin1 (t : (⟨S8x24x4096x9, .f32⟩ : BufTy).Contents (Elt F)) (W : (⟨S32x9, .f32⟩ : BufTy).Contents (Elt F))
    (b : (⟨S32, .f32⟩ : BufTy).Contents (Elt F)) : (⟨S8x24x32x4096, .f32⟩ : BufTy).Contents (Elt F) :=
  shapeCast S8x24x32x4096
    (transpose S8x24x32x1x4096 [0, 1, 2, 4, 3]
      (maximumf
        (broadcastInDim S8x24x32x4096x1 ![0, 1, 2, 3] bcast_S8x24x32x4096_S8x24x32x4096x1_0_1_2_3
          (transpose S8x24x32x4096 [0, 1, 3, 2]
            (addf (Host.dotGeneral dot_S8x24x4096x9_S32x9_S8x24x4096x32_3_1_012_0_n_n none t W)
              (broadcastInDim S8x24x4096x32 ![0, 1, 2, 3] bcast_S1x1x1x32_S8x24x4096x32_0_1_2_3
                (broadcastInDim S1x1x1x32 ![3] bcast_S32_S1x1x1x32_3 b)))
            transposes_S8x24x4096x32_S8x24x32x4096_0_1_3_2))
        (broadcastInDim S8x24x32x4096x1 ![] bcast_S_S8x24x32x4096x1 (constant S_ .f32 0x00000000#32)))
      transposes_S8x24x32x4096x1_S8x24x32x1x4096_0_1_2_4_3)
    shapeCasts_S8x24x32x1x4096_S8x24x32x4096

/-- The neighbours gathered along the node axis, slots before nodes, the (32, 9, 4096) rows re-read as 4096 rows of 288. -/
def mid1 (h : (⟨S8x24x32x4096, .f32⟩ : BufTy).Contents (Elt F)) (I : (⟨S4096x9x1, .i32⟩ : BufTy).Contents (Elt F)) :
    (⟨S8x24x4096x288, .f32⟩ : BufTy).Contents (Elt F) :=
  shapeCast S8x24x4096x288
    (transpose S8x24x32x9x4096 [0, 1, 2, 4, 3]
      (Host.gather gather_S8x24x32x4096_S4096x9x1_S8x24x32x4096x9_012_3_n_n_3_2_824321 h I)
      transposes_S8x24x32x4096x9_S8x24x32x9x4096_0_1_2_4_3)
    shapeCasts_S8x24x32x9x4096_S8x24x4096x288

/-- Layer 2, channels first with a trailing unit axis. -/
def lin2 (t : (⟨S8x24x4096x288, .f32⟩ : BufTy).Contents (Elt F)) (W : (⟨S16x288, .f32⟩ : BufTy).Contents (Elt F))
    (b : (⟨S16, .f32⟩ : BufTy).Contents (Elt F)) : (⟨S8x24x16x4096x1, .f32⟩ : BufTy).Contents (Elt F) :=
  broadcastInDim S8x24x16x4096x1 ![0, 1, 2, 3] bcast_S8x24x16x4096_S8x24x16x4096x1_0_1_2_3
    (transpose S8x24x16x4096 [0, 1, 3, 2]
      (addf (Host.dotGeneral dot_S8x24x4096x288_S16x288_S8x24x4096x16_3_1_012_0_n_n none t W)
        (broadcastInDim S8x24x4096x16 ![0, 1, 2, 3] bcast_S1x1x1x16_S8x24x4096x16_0_1_2_3
          (broadcastInDim S1x1x1x16 ![3] bcast_S16_S1x1x1x16_3 b)))
      transposes_S8x24x4096x16_S8x24x16x4096_0_1_3_2)

/-- The mean per step and channel, unit axes kept. -/
def mean (y : (⟨S8x24x16x4096x1, .f32⟩ : BufTy).Contents (Elt F)) : (⟨S1x24x16x1x1, .f32⟩ : BufTy).Contents (Elt F) :=
  Host.divf
    (broadcastInDim S1x24x16x1x1 ![1, 2] bcast_S24x16_S1x24x16x1x1_1_2
      (Host.reduceAdd y (constant S_ .f32 0x00000000#32) reducesTo_S8x24x16x4096x1_S24x16_d0_3_4 h_S_))
    (broadcastInDim S1x24x16x1x1 ![] bcast_S_S1x24x16x1x1 (constant S_ .f32 0x47000000#32))

/-- The variance per step and channel, as jnp.var's outlined function computes it, unit axes kept. -/
def var (y : (⟨S8x24x16x4096x1, .f32⟩ : BufTy).Contents (Elt F)) : (⟨S1x24x16x1x1, .f32⟩ : BufTy).Contents (Elt F) :=
  select
    (broadcastInDim S1x24x16x1x1 ![] bcast_S_S1x24x16x1x1
      (cmpf (F := F) .ogt (subf (constant S_ .f32 0x47000000#32) (sitofp .f32 (constantI S_ 32 0#32))) (constant S_ .f32 0x00000000#32)))
    (Host.divf
      (broadcastInDim S1x24x16x1x1 ![1, 2] bcast_S24x16_S1x24x16x1x1_1_2
        (Host.reduceAdd
          (mulf
            (subf y (broadcastInDim S8x24x16x4096x1 ![0, 1, 2, 3, 4] bcast_S1x24x16x1x1_S8x24x16x4096x1_0_1_2_3_4
              (Host.divf
                (broadcastInDim S1x24x16x1x1 ![1, 2] bcast_S24x16_S1x24x16x1x1_1_2
                  (Host.reduceAdd y (constant S_ .f32 0x00000000#32) reducesTo_S8x24x16x4096x1_S24x16_d0_3_4 h_S_))
                (broadcastInDim S1x24x16x1x1 ![] bcast_S_S1x24x16x1x1 (constant S_ .f32 0x47000000#32)))))
            (subf y (broadcastInDim S8x24x16x4096x1 ![0, 1, 2, 3, 4] bcast_S1x24x16x1x1_S8x24x16x4096x1_0_1_2_3_4
              (Host.divf
                (broadcastInDim S1x24x16x1x1 ![1, 2] bcast_S24x16_S1x24x16x1x1_1_2
                  (Host.reduceAdd y (constant S_ .f32 0x00000000#32) reducesTo_S8x24x16x4096x1_S24x16_d0_3_4 h_S_))
                (broadcastInDim S1x24x16x1x1 ![] bcast_S_S1x24x16x1x1 (constant S_ .f32 0x47000000#32))))))
          (constant S_ .f32 0x00000000#32) reducesTo_S8x24x16x4096x1_S24x16_d0_3_4 h_S_))
      (broadcastInDim S1x24x16x1x1 ![] bcast_S_S1x24x16x1x1 (subf (constant S_ .f32 0x47000000#32) (sitofp .f32 (constantI S_ 32 0#32)))))
    (broadcastInDim S1x24x16x1x1 ![] bcast_S_S1x24x16x1x1 (id (constant S_ .f32 0x7FC00000#32)))

/-- The normalization with its affine map, clipped at zero, the unit axis moved and dropped (channels first). -/
def bn (y : (⟨S8x24x16x4096x1, .f32⟩ : BufTy).Contents (Elt F)) (γ β : (⟨S16, .f32⟩ : BufTy).Contents (Elt F)) :
    (⟨S8x24x16x4096, .f32⟩ : BufTy).Contents (Elt F) :=
  shapeCast S8x24x16x4096
    (transpose S8x24x16x1x4096 [0, 1, 2, 4, 3]
      (maximumf
        (addf
          (mulf
            (mulf
              (broadcastInDim S8x24x16x4096x1 ![0, 1, 2, 3, 4] bcast_S1x1x16x1x1_S8x24x16x4096x1_0_1_2_3_4
                (shapeCast S1x1x16x1x1 γ shapeCasts_S16_S1x1x16x1x1))
              (subf y (broadcastInDim S8x24x16x4096x1 ![0, 1, 2, 3, 4] bcast_S1x24x16x1x1_S8x24x16x4096x1_0_1_2_3_4 (mean y))))
            (broadcastInDim S8x24x16x4096x1 ![0, 1, 2, 3, 4] bcast_S1x24x16x1x1_S8x24x16x4096x1_0_1_2_3_4
              (Host.rsqrt (addf (var y) (broadcastInDim S1x24x16x1x1 ![] bcast_S_S1x24x16x1x1 (constant S_ .f32 0x3727C5AC#32))))))
          (broadcastInDim S8x24x16x4096x1 ![0, 1, 2, 3, 4] bcast_S1x1x16x1x1_S8x24x16x4096x1_0_1_2_3_4
            (shapeCast S1x1x16x1x1 β shapeCasts_S16_S1x1x16x1x1)))
        (broadcastInDim S8x24x16x4096x1 ![] bcast_S_S8x24x16x4096x1 (constant S_ .f32 0x00000000#32)))
      transposes_S8x24x16x4096x1_S8x24x16x1x4096_0_1_2_4_3)
    shapeCasts_S8x24x16x1x4096_S8x24x16x4096

/-- The second gather with its re-layout, at 16 channels. -/
def mid3 (h : (⟨S8x24x16x4096, .f32⟩ : BufTy).Contents (Elt F)) (I : (⟨S4096x9x1, .i32⟩ : BufTy).Contents (Elt F)) :
    (⟨S8x24x4096x144, .f32⟩ : BufTy).Contents (Elt F) :=
  shapeCast S8x24x4096x144
    (transpose S8x24x16x9x4096 [0, 1, 2, 4, 3]
      (Host.gather gather_S8x24x16x4096_S4096x9x1_S8x24x16x4096x9_012_3_n_n_3_2_824161 h I)
      transposes_S8x24x16x4096x9_S8x24x16x9x4096_0_1_2_4_3)
    shapeCasts_S8x24x16x9x4096_S8x24x4096x144

/-- Layer 3 with its clip, the unit axes dropped. -/
def lin3 (t : (⟨S8x24x4096x144, .f32⟩ : BufTy).Contents (Elt F)) (W : (⟨S1x144, .f32⟩ : BufTy).Contents (Elt F))
    (b : (⟨S1, .f32⟩ : BufTy).Contents (Elt F)) : (⟨S8x24x4096, .f32⟩ : BufTy).Contents (Elt F) :=
  shapeCast S8x24x4096
    (maximumf
      (broadcastInDim S8x24x1x4096x1 ![0, 1, 2, 3] bcast_S8x24x1x4096_S8x24x1x4096x1_0_1_2_3
        (transpose S8x24x1x4096 [0, 1, 3, 2]
          (addf (Host.dotGeneral dot_S8x24x4096x144_S1x144_S8x24x4096x1_3_1_012_0_n_n none t W)
            (broadcastInDim S8x24x4096x1 ![0, 1, 2, 3] bcast_S1x1x1x1_S8x24x4096x1_0_1_2_3
              (broadcastInDim S1x1x1x1 ![3] bcast_S1_S1x1x1x1_3 b)))
          transposes_S8x24x4096x1_S8x24x1x4096_0_1_3_2))
      (broadcastInDim S8x24x1x4096x1 ![] bcast_S_S8x24x1x4096x1 (constant S_ .f32 0x00000000#32)))
    shapeCasts_S8x24x1x4096x1_S8x24x4096

/-- The program's result as one function of its arguments. -/
def rOut (x : (⟨S8x24x4096x9, .f32⟩ : BufTy).Contents (Elt F)) (neigh : (⟨S4096x9, .i32⟩ : BufTy).Contents (Elt F))
    (W1 : (⟨S32x9, .f32⟩ : BufTy).Contents (Elt F)) (b1 : (⟨S32, .f32⟩ : BufTy).Contents (Elt F))
    (W2 : (⟨S16x288, .f32⟩ : BufTy).Contents (Elt F)) (b2 : (⟨S16, .f32⟩ : BufTy).Contents (Elt F))
    (γ β : (⟨S16, .f32⟩ : BufTy).Contents (Elt F)) (W3 : (⟨S1x144, .f32⟩ : BufTy).Contents (Elt F))
    (b3 : (⟨S1, .f32⟩ : BufTy).Contents (Elt F)) : (⟨S8x24x4096, .f32⟩ : BufTy).Contents (Elt F) :=
  lin3 (mid3 (bn (lin2 (mid1 (lin1 (pre0 x) W1 b1) (Spec.idxPrep neigh)) W2 b2) γ β) (Spec.idxPrep neigh)) W3 b3

end Cert.RStages

end
-- ==== Proof.RefRun.lean ====
/-
  The reference program's run: @main as one straight line of its 101 host operations, the outlined functions' bodies
  written out at their calls over each call's own buffers, and what every weakly fair execution ends with — the result
  buffer at the composition of those operations as pure functions of the ten arguments' launch contents, the arguments
  unchanged.
-/
import proofs.«410499_j42975442764370_3_alg».proof.Proof.Gen.ReferenceIdeal
import proofs.«410499_j42975442764370_3_alg».proof.Proof.RStages
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 101 operations in order: the three clips at zero are three operations each (the scalar zero, its
    broadcast, the maximum), the variance twenty-three (its own twenty, then the selection's three: the fallback word
    kept at its type, broadcast, the select under the broadcast condition). -/
abbrev ops : List (HloOp τ sig (Elt F)) :=
  [ StableHlo.unary main_arg0 main_v0 (broadcastInDim S8x24x1x4096x9 ![0, 1, 3, 4] bcast_S8x24x4096x9_S8x24x1x4096x9_0_1_3_4 : (⟨S8x24x4096x9, .f32⟩ : BufTy).Contents (Elt F) → (⟨S8x24x1x4096x9, .f32⟩ : BufTy).Contents (Elt F)),
    StableHlo.unary main_v0 main_v1 ((transpose S8x24x1x9x4096 [0, 1, 2, 4, 3] · transposes_S8x24x1x4096x9_S8x24x1x9x4096_0_1_2_4_3) : (⟨S8x24x1x4096x9, .f32⟩ : BufTy).Contents (Elt F) → (⟨S8x24x1x9x4096, .f32⟩ : BufTy).Contents (Elt F)),
    StableHlo.reshape main_v1 main_v2 rfl shapeCasts_S8x24x1x9x4096_S8x24x4096x9,
    StableHlo.binary main_v2 main_arg2 main_v3 ((fun l r => Host.dotGeneral dot_S8x24x4096x9_S32x9_S8x24x4096x32_3_1_012_0_n_n none l r) : (⟨S8x24x4096x9, .f32⟩ : BufTy).Contents (Elt F) → (⟨S32x9, .f32⟩ : BufTy).Contents (Elt F) → (⟨S8x24x4096x32, .f32⟩ : BufTy).Contents (Elt F)),
    StableHlo.unary main_arg3 main_v4 (broadcastInDim S1x1x1x32 ![3] bcast_S32_S1x1x1x32_3 : (⟨S32, .f32⟩ : BufTy).Contents (Elt F) → (⟨S1x1x1x32, .f32⟩ : BufTy).Contents (Elt F)),
    StableHlo.unary main_v4 main_v5 (broadcastInDim S8x24x4096x32 ![0, 1, 2, 3] bcast_S1x1x1x32_S8x24x4096x32_0_1_2_3 : (⟨S1x1x1x32, .f32⟩ : BufTy).Contents (Elt F) → (⟨S8x24x4096x32, .f32⟩ : BufTy).Contents (Elt F)),
    StableHlo.binary main_v3 main_v5 main_v6 (addf : (⟨S8x24x4096x32, .f32⟩ : BufTy).Contents (Elt F) → (⟨S8x24x4096x32, .f32⟩ : BufTy).Contents (Elt F) → (⟨S8x24x4096x32, .f32⟩ : BufTy).Contents (Elt F)),
    StableHlo.unary main_v6 main_v7 ((transpose S8x24x32x4096 [0, 1, 3, 2] · transposes_S8x24x4096x32_S8x24x32x4096_0_1_3_2) : (⟨S8x24x4096x32, .f32⟩ : BufTy).Contents (Elt F) → (⟨S8x24x32x4096, .f32⟩ : BufTy).Contents (Elt F)),
    StableHlo.unary main_v7 main_v8 (broadcastInDim S8x24x32x4096x1 ![0, 1, 2, 3] bcast_S8x24x32x4096_S8x24x32x4096x1_0_1_2_3 : (⟨S8x24x32x4096, .f32⟩ : BufTy).Contents (Elt F) → (⟨S8x24x32x4096x1, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S8x24x32x4096x1, .f32⟩) (broadcastInDim S8x24x32x4096x1 ![] bcast_S_S8x24x32x4096x1),
    StableHlo.TRef.binary (.of main_v8 : StableHlo.TRef sig ⟨S8x24x32x4096x1, .f32⟩) (.of main_call0_v0 : StableHlo.TRef sig ⟨S8x24x32x4096x1, .f32⟩) (.of main_v9 : StableHlo.TRef sig ⟨S8x24x32x4096x1, .f32⟩) maximumf,
    StableHlo.unary main_v9 main_v10 ((transpose S8x24x32x1x4096 [0, 1, 2, 4, 3] · transposes_S8x24x32x4096x1_S8x24x32x1x4096_0_1_2_4_3) : (⟨S8x24x32x4096x1, .f32⟩ : BufTy).Contents (Elt F) → (⟨S8x24x32x1x4096, .f32⟩ : BufTy).Contents (Elt F)),
    StableHlo.reshape main_v10 main_v11 rfl shapeCasts_S8x24x32x1x4096_S8x24x32x4096,
    StableHlo.nullary main_c (constantI S_ 32 0#32),
    StableHlo.unary main_c main_v12 (broadcastInDim S4096x9 ![] bcast_S_S4096x9 : (⟨S_, .i32⟩ : BufTy).Contents (Elt F) → (⟨S4096x9, .i32⟩ : BufTy).Contents (Elt F)),
    StableHlo.binary main_arg1 main_v12 main_v13 (cmpi .slt : (⟨S4096x9, .i32⟩ : BufTy).Contents (Elt F) → (⟨S4096x9, .i32⟩ : BufTy).Contents (Elt F) → (⟨S4096x9, .i1⟩ : BufTy).Contents (Elt F)),
    StableHlo.nullary main_c_0 (constantI S_ 32 4096#32),
    StableHlo.unary main_c_0 main_v14 (broadcastInDim S4096x9 ![] bcast_S_S4096x9 : (⟨S_, .i32⟩ : BufTy).Contents (Elt F) → (⟨S4096x9, .i32⟩ : BufTy).Contents (Elt F)),
    StableHlo.binary main_arg1 main_v14 main_v15 (addi : (⟨S4096x9, .i32⟩ : BufTy).Contents (Elt F) → (⟨S4096x9, .i32⟩ : BufTy).Contents (Elt F) → (⟨S4096x9, .i32⟩ : BufTy).Contents (Elt F)),
    StableHlo.ternary main_v13 main_v15 main_arg1 main_v16 (select : (⟨S4096x9, .i1⟩ : BufTy).Contents (Elt F) → (⟨S4096x9, .i32⟩ : BufTy).Contents (Elt F) → (⟨S4096x9, .i32⟩ : BufTy).Contents (Elt F) → (⟨S4096x9, .i32⟩ : BufTy).Contents (Elt F)),
    StableHlo.unary main_v16 main_v17 (broadcastInDim S4096x9x1 ![0, 1] bcast_S4096x9_S4096x9x1_0_1 : (⟨S4096x9, .i32⟩ : BufTy).Contents (Elt F) → (⟨S4096x9x1, .i32⟩ : BufTy).Contents (Elt F)),
    StableHlo.binary main_v11 main_v17 main_v18 ((fun x i => Host.gather gather_S8x24x32x4096_S4096x9x1_S8x24x32x4096x9_012_3_n_n_3_2_824321 x i) : (⟨S8x24x32x4096, .f32⟩ : BufTy).Contents (Elt F) → (⟨S4096x9x1, .i32⟩ : BufTy).Contents (Elt F) → (⟨S8x24x32x4096x9, .f32⟩ : BufTy).Contents (Elt F)),
    StableHlo.unary main_v18 main_v19 ((transpose S8x24x32x9x4096 [0, 1, 2, 4, 3] · transposes_S8x24x32x4096x9_S8x24x32x9x4096_0_1_2_4_3) : (⟨S8x24x32x4096x9, .f32⟩ : BufTy).Contents (Elt F) → (⟨S8x24x32x9x4096, .f32⟩ : BufTy).Contents (Elt F)),
    StableHlo.reshape main_v19 main_v20 rfl shapeCasts_S8x24x32x9x4096_S8x24x4096x288,
    StableHlo.binary main_v20 main_arg4 main_v21 ((fun l r => Host.dotGeneral dot_S8x24x4096x288_S16x288_S8x24x4096x16_3_1_012_0_n_n none l r) : (⟨S8x24x4096x288, .f32⟩ : BufTy).Contents (Elt F) → (⟨S16x288, .f32⟩ : BufTy).Contents (Elt F) → (⟨S8x24x4096x16, .f32⟩ : BufTy).Contents (Elt F)),
    StableHlo.unary main_arg5 main_v22 (broadcastInDim S1x1x1x16 ![3] bcast_S16_S1x1x1x16_3 : (⟨S16, .f32⟩ : BufTy).Contents (Elt F) → (⟨S1x1x1x16, .f32⟩ : BufTy).Contents (Elt F)),
    StableHlo.unary main_v22 main_v23 (broadcastInDim S8x24x4096x16 ![0, 1, 2, 3] bcast_S1x1x1x16_S8x24x4096x16_0_1_2_3 : (⟨S1x1x1x16, .f32⟩ : BufTy).Contents (Elt F) → (⟨S8x24x4096x16, .f32⟩ : BufTy).Contents (Elt F)),
    StableHlo.binary main_v21 main_v23 main_v24 (addf : (⟨S8x24x4096x16, .f32⟩ : BufTy).Contents (Elt F) → (⟨S8x24x4096x16, .f32⟩ : BufTy).Contents (Elt F) → (⟨S8x24x4096x16, .f32⟩ : BufTy).Contents (Elt F)),
    StableHlo.unary main_v24 main_v25 ((transpose S8x24x16x4096 [0, 1, 3, 2] · transposes_S8x24x4096x16_S8x24x16x4096_0_1_3_2) : (⟨S8x24x4096x16, .f32⟩ : BufTy).Contents (Elt F) → (⟨S8x24x16x4096, .f32⟩ : BufTy).Contents (Elt F)),
    StableHlo.unary main_v25 main_v26 (broadcastInDim S8x24x16x4096x1 ![0, 1, 2, 3] bcast_S8x24x16x4096_S8x24x16x4096x1_0_1_2_3 : (⟨S8x24x16x4096, .f32⟩ : BufTy).Contents (Elt F) → (⟨S8x24x16x4096x1, .f32⟩ : BufTy).Contents (Elt F)),
    StableHlo.nullary main_cst (constant S_ .f32 0x00000000#32),
    StableHlo.binary main_v26 main_cst main_v27 ((fun x v => Host.reduceAdd x v reducesTo_S8x24x16x4096x1_S24x16_d0_3_4 h_S_) : (⟨S8x24x16x4096x1, .f32⟩ : BufTy).Contents (Elt F) → (⟨S_, .f32⟩ : BufTy).Contents (Elt F) → (⟨S24x16, .f32⟩ : BufTy).Contents (Elt F)),
    StableHlo.unary main_v27 main_v28 (broadcastInDim S1x24x16x1x1 ![1, 2] bcast_S24x16_S1x24x16x1x1_1_2 : (⟨S24x16, .f32⟩ : BufTy).Contents (Elt F) → (⟨S1x24x16x1x1, .f32⟩ : BufTy).Contents (Elt F)),
    StableHlo.nullary main_cst_1 (constant S_ .f32 0x47000000#32),
    StableHlo.unary main_cst_1 main_v29 (broadcastInDim S1x24x16x1x1 ![] bcast_S_S1x24x16x1x1 : (⟨S_, .f32⟩ : BufTy).Contents (Elt F) → (⟨S1x24x16x1x1, .f32⟩ : BufTy).Contents (Elt F)),
    StableHlo.binary main_v28 main_v29 main_v30 (Host.divf : (⟨S1x24x16x1x1, .f32⟩ : BufTy).Contents (Elt F) → (⟨S1x24x16x1x1, .f32⟩ : BufTy).Contents (Elt F) → (⟨S1x24x16x1x1, .f32⟩ : BufTy).Contents (Elt F)),
    StableHlo.nullary main_c_2 (constantI S_ 32 0#32),
    StableHlo.TRef.nullary (.of main_call1_cst : StableHlo.TRef sig ⟨S_, .f32⟩) (constant S_ .f32 0x00000000#32),
    StableHlo.TRef.binary (.of main_v26 : StableHlo.TRef sig ⟨S8x24x16x4096x1, .f32⟩) (.of main_call1_cst : StableHlo.TRef sig ⟨S_, .f32⟩) (.of main_call1_v0 : StableHlo.TRef sig ⟨S24x16, .f32⟩) (fun x v => Host.reduceAdd x v reducesTo_S8x24x16x4096x1_S24x16_d0_3_4 h_S_),
    StableHlo.TRef.unary (.of main_call1_v0 : StableHlo.TRef sig ⟨S24x16, .f32⟩) (.of main_call1_v1 : StableHlo.TRef sig ⟨S1x24x16x1x1, .f32⟩) (broadcastInDim S1x24x16x1x1 ![1, 2] bcast_S24x16_S1x24x16x1x1_1_2),
    StableHlo.TRef.nullary (.of main_call1_cst_0 : StableHlo.TRef sig ⟨S_, .f32⟩) (constant S_ .f32 0x47000000#32),
    StableHlo.TRef.unary (.of main_call1_cst_0 : StableHlo.TRef sig ⟨S_, .f32⟩) (.of main_call1_v2 : StableHlo.TRef sig ⟨S1x24x16x1x1, .f32⟩) (broadcastInDim S1x24x16x1x1 ![] bcast_S_S1x24x16x1x1),
    StableHlo.TRef.binary (.of main_call1_v1 : StableHlo.TRef sig ⟨S1x24x16x1x1, .f32⟩) (.of main_call1_v2 : StableHlo.TRef sig ⟨S1x24x16x1x1, .f32⟩) (.of main_call1_v3 : StableHlo.TRef sig ⟨S1x24x16x1x1, .f32⟩) Host.divf,
    StableHlo.TRef.unary (.of main_call1_v3 : StableHlo.TRef sig ⟨S1x24x16x1x1, .f32⟩) (.of main_call1_v4 : StableHlo.TRef sig ⟨S8x24x16x4096x1, .f32⟩) (broadcastInDim S8x24x16x4096x1 ![0, 1, 2, 3, 4] bcast_S1x24x16x1x1_S8x24x16x4096x1_0_1_2_3_4),
    StableHlo.TRef.binary (.of main_v26 : StableHlo.TRef sig ⟨S8x24x16x4096x1, .f32⟩) (.of main_call1_v4 : StableHlo.TRef sig ⟨S8x24x16x4096x1, .f32⟩) (.of main_call1_v5 : StableHlo.TRef sig ⟨S8x24x16x4096x1, .f32⟩) subf,
    StableHlo.TRef.binary (.of main_call1_v5 : StableHlo.TRef sig ⟨S8x24x16x4096x1, .f32⟩) (.of main_call1_v5 : StableHlo.TRef sig ⟨S8x24x16x4096x1, .f32⟩) (.of main_call1_v6 : StableHlo.TRef sig ⟨S8x24x16x4096x1, .f32⟩) mulf,
    StableHlo.TRef.unary (.of main_c_2 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8x24x16x4096x1, .f32⟩) (.of main_call1_cst_2 : StableHlo.TRef sig ⟨S_, .f32⟩) (.of main_call1_v9 : StableHlo.TRef sig ⟨S24x16, .f32⟩) (fun x v => Host.reduceAdd x v reducesTo_S8x24x16x4096x1_S24x16_d0_3_4 h_S_),
    StableHlo.TRef.unary (.of main_call1_v9 : StableHlo.TRef sig ⟨S24x16, .f32⟩) (.of main_call1_v10 : StableHlo.TRef sig ⟨S1x24x16x1x1, .f32⟩) (broadcastInDim S1x24x16x1x1 ![1, 2] bcast_S24x16_S1x24x16x1x1_1_2),
    StableHlo.TRef.unary (.of main_call1_v8 : StableHlo.TRef sig ⟨S_, .f32⟩) (.of main_call1_v11 : StableHlo.TRef sig ⟨S1x24x16x1x1, .f32⟩) (broadcastInDim S1x24x16x1x1 ![] bcast_S_S1x24x16x1x1),
    StableHlo.TRef.binary (.of main_call1_v10 : StableHlo.TRef sig ⟨S1x24x16x1x1, .f32⟩) (.of main_call1_v11 : StableHlo.TRef sig ⟨S1x24x16x1x1, .f32⟩) (.of main_call1_v12 : StableHlo.TRef sig ⟨S1x24x16x1x1, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S1x24x16x1x1, .f32⟩) (broadcastInDim S1x24x16x1x1 ![] bcast_S_S1x24x16x1x1),
    StableHlo.TRef.ternary (.of main_call1_v13 : StableHlo.TRef sig ⟨S_, .i1⟩) (.of main_call1_v12 : StableHlo.TRef sig ⟨S1x24x16x1x1, .f32⟩) (.of main_call1_call0_v1 : StableHlo.TRef sig ⟨S1x24x16x1x1, .f32⟩) (.of main_v31 : StableHlo.TRef sig ⟨S1x24x16x1x1, .f32⟩) (fun p a b => select (broadcastInDim S1x24x16x1x1 ![] bcast_S_S1x24x16x1x1 p) a b),
    StableHlo.reshape main_arg6 main_v32 rfl shapeCasts_S16_S1x1x16x1x1,
    StableHlo.unary main_v30 main_v33 (broadcastInDim S8x24x16x4096x1 ![0, 1, 2, 3, 4] bcast_S1x24x16x1x1_S8x24x16x4096x1_0_1_2_3_4 : (⟨S1x24x16x1x1, .f32⟩ : BufTy).Contents (Elt F) → (⟨S8x24x16x4096x1, .f32⟩ : BufTy).Contents (Elt F)),
    StableHlo.binary main_v26 main_v33 main_v34 (subf : (⟨S8x24x16x4096x1, .f32⟩ : BufTy).Contents (Elt F) → (⟨S8x24x16x4096x1, .f32⟩ : BufTy).Contents (Elt F) → (⟨S8x24x16x4096x1, .f32⟩ : BufTy).Contents (Elt F)),
    StableHlo.unary main_v32 main_v35 (broadcastInDim S8x24x16x4096x1 ![0, 1, 2, 3, 4] bcast_S1x1x16x1x1_S8x24x16x4096x1_0_1_2_3_4 : (⟨S1x1x16x1x1, .f32⟩ : BufTy).Contents (Elt F) → (⟨S8x24x16x4096x1, .f32⟩ : BufTy).Contents (Elt F)),
    StableHlo.binary main_v35 main_v34 main_v36 (mulf : (⟨S8x24x16x4096x1, .f32⟩ : BufTy).Contents (Elt F) → (⟨S8x24x16x4096x1, .f32⟩ : BufTy).Contents (Elt F) → (⟨S8x24x16x4096x1, .f32⟩ : BufTy).Contents (Elt F)),
    StableHlo.nullary main_cst_3 (constant S_ .f32 0x3727C5AC#32),
    StableHlo.unary main_cst_3 main_v37 (broadcastInDim S1x24x16x1x1 ![] bcast_S_S1x24x16x1x1 : (⟨S_, .f32⟩ : BufTy).Contents (Elt F) → (⟨S1x24x16x1x1, .f32⟩ : BufTy).Contents (Elt F)),
    StableHlo.binary main_v31 main_v37 main_v38 (addf : (⟨S1x24x16x1x1, .f32⟩ : BufTy).Contents (Elt F) → (⟨S1x24x16x1x1, .f32⟩ : BufTy).Contents (Elt F) → (⟨S1x24x16x1x1, .f32⟩ : BufTy).Contents (Elt F)),
    StableHlo.unary main_v38 main_v39 (Host.rsqrt : (⟨S1x24x16x1x1, .f32⟩ : BufTy).Contents (Elt F) → (⟨S1x24x16x1x1, .f32⟩ : BufTy).Contents (Elt F)),
    StableHlo.unary main_v39 main_v40 (broadcastInDim S8x24x16x4096x1 ![0, 1, 2, 3, 4] bcast_S1x24x16x1x1_S8x24x16x4096x1_0_1_2_3_4 : (⟨S1x24x16x1x1, .f32⟩ : BufTy).Contents (Elt F) → (⟨S8x24x16x4096x1, .f32⟩ : BufTy).Contents (Elt F)),
    StableHlo.binary main_v36 main_v40 main_v41 (mulf : (⟨S8x24x16x4096x1, .f32⟩ : BufTy).Contents (Elt F) → (⟨S8x24x16x4096x1, .f32⟩ : BufTy).Contents (Elt F) → (⟨S8x24x16x4096x1, .f32⟩ : BufTy).Contents (Elt F)),
    StableHlo.reshape main_arg7 main_v42 rfl shapeCasts_S16_S1x1x16x1x1,
    StableHlo.unary main_v42 main_v43 (broadcastInDim S8x24x16x4096x1 ![0, 1, 2, 3, 4] bcast_S1x1x16x1x1_S8x24x16x4096x1_0_1_2_3_4 : (⟨S1x1x16x1x1, .f32⟩ : BufTy).Contents (Elt F) → (⟨S8x24x16x4096x1, .f32⟩ : BufTy).Contents (Elt F)),
    StableHlo.binary main_v41 main_v43 main_v44 (addf : (⟨S8x24x16x4096x1, .f32⟩ : BufTy).Contents (Elt F) → (⟨S8x24x16x4096x1, .f32⟩ : BufTy).Contents (Elt F) → (⟨S8x24x16x4096x1, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S8x24x16x4096x1, .f32⟩) (broadcastInDim S8x24x16x4096x1 ![] bcast_S_S8x24x16x4096x1),
    StableHlo.TRef.binary (.of main_v44 : StableHlo.TRef sig ⟨S8x24x16x4096x1, .f32⟩) (.of main_call2_v0 : StableHlo.TRef sig ⟨S8x24x16x4096x1, .f32⟩) (.of main_v45 : StableHlo.TRef sig ⟨S8x24x16x4096x1, .f32⟩) maximumf,
    StableHlo.unary main_v45 main_v46 ((transpose S8x24x16x1x4096 [0, 1, 2, 4, 3] · transposes_S8x24x16x4096x1_S8x24x16x1x4096_0_1_2_4_3) : (⟨S8x24x16x4096x1, .f32⟩ : BufTy).Contents (Elt F) → (⟨S8x24x16x1x4096, .f32⟩ : BufTy).Contents (Elt F)),
    StableHlo.reshape main_v46 main_v47 rfl shapeCasts_S8x24x16x1x4096_S8x24x16x4096,
    StableHlo.nullary main_c_4 (constantI S_ 32 0#32),
    StableHlo.unary main_c_4 main_v48 (broadcastInDim S4096x9 ![] bcast_S_S4096x9 : (⟨S_, .i32⟩ : BufTy).Contents (Elt F) → (⟨S4096x9, .i32⟩ : BufTy).Contents (Elt F)),
    StableHlo.binary main_arg1 main_v48 main_v49 (cmpi .slt : (⟨S4096x9, .i32⟩ : BufTy).Contents (Elt F) → (⟨S4096x9, .i32⟩ : BufTy).Contents (Elt F) → (⟨S4096x9, .i1⟩ : BufTy).Contents (Elt F)),
    StableHlo.nullary main_c_5 (constantI S_ 32 4096#32),
    StableHlo.unary main_c_5 main_v50 (broadcastInDim S4096x9 ![] bcast_S_S4096x9 : (⟨S_, .i32⟩ : BufTy).Contents (Elt F) → (⟨S4096x9, .i32⟩ : BufTy).Contents (Elt F)),
    StableHlo.binary main_arg1 main_v50 main_v51 (addi : (⟨S4096x9, .i32⟩ : BufTy).Contents (Elt F) → (⟨S4096x9, .i32⟩ : BufTy).Contents (Elt F) → (⟨S4096x9, .i32⟩ : BufTy).Contents (Elt F)),
    StableHlo.ternary main_v49 main_v51 main_arg1 main_v52 (select : (⟨S4096x9, .i1⟩ : BufTy).Contents (Elt F) → (⟨S4096x9, .i32⟩ : BufTy).Contents (Elt F) → (⟨S4096x9, .i32⟩ : BufTy).Contents (Elt F) → (⟨S4096x9, .i32⟩ : BufTy).Contents (Elt F)),
    StableHlo.unary main_v52 main_v53 (broadcastInDim S4096x9x1 ![0, 1] bcast_S4096x9_S4096x9x1_0_1 : (⟨S4096x9, .i32⟩ : BufTy).Contents (Elt F) → (⟨S4096x9x1, .i32⟩ : BufTy).Contents (Elt F)),
    StableHlo.binary main_v47 main_v53 main_v54 ((fun x i => Host.gather gather_S8x24x16x4096_S4096x9x1_S8x24x16x4096x9_012_3_n_n_3_2_824161 x i) : (⟨S8x24x16x4096, .f32⟩ : BufTy).Contents (Elt F) → (⟨S4096x9x1, .i32⟩ : BufTy).Contents (Elt F) → (⟨S8x24x16x4096x9, .f32⟩ : BufTy).Contents (Elt F)),
    StableHlo.unary main_v54 main_v55 ((transpose S8x24x16x9x4096 [0, 1, 2, 4, 3] · transposes_S8x24x16x4096x9_S8x24x16x9x4096_0_1_2_4_3) : (⟨S8x24x16x4096x9, .f32⟩ : BufTy).Contents (Elt F) → (⟨S8x24x16x9x4096, .f32⟩ : BufTy).Contents (Elt F)),
    StableHlo.reshape main_v55 main_v56 rfl shapeCasts_S8x24x16x9x4096_S8x24x4096x144,
    StableHlo.binary main_v56 main_arg8 main_v57 ((fun l r => Host.dotGeneral dot_S8x24x4096x144_S1x144_S8x24x4096x1_3_1_012_0_n_n none l r) : (⟨S8x24x4096x144, .f32⟩ : BufTy).Contents (Elt F) → (⟨S1x144, .f32⟩ : BufTy).Contents (Elt F) → (⟨S8x24x4096x1, .f32⟩ : BufTy).Contents (Elt F)),
    StableHlo.unary main_arg9 main_v58 (broadcastInDim S1x1x1x1 ![3] bcast_S1_S1x1x1x1_3 : (⟨S1, .f32⟩ : BufTy).Contents (Elt F) → (⟨S1x1x1x1, .f32⟩ : BufTy).Contents (Elt F)),
    StableHlo.unary main_v58 main_v59 (broadcastInDim S8x24x4096x1 ![0, 1, 2, 3] bcast_S1x1x1x1_S8x24x4096x1_0_1_2_3 : (⟨S1x1x1x1, .f32⟩ : BufTy).Contents (Elt F) → (⟨S8x24x4096x1, .f32⟩ : BufTy).Contents (Elt F)),
    StableHlo.binary main_v57 main_v59 main_v60 (addf : (⟨S8x24x4096x1, .f32⟩ : BufTy).Contents (Elt F) → (⟨S8x24x4096x1, .f32⟩ : BufTy).Contents (Elt F) → (⟨S8x24x4096x1, .f32⟩ : BufTy).Contents (Elt F)),
    StableHlo.unary main_v60 main_v61 ((transpose S8x24x1x4096 [0, 1, 3, 2] · transposes_S8x24x4096x1_S8x24x1x4096_0_1_3_2) : (⟨S8x24x4096x1, .f32⟩ : BufTy).Contents (Elt F) → (⟨S8x24x1x4096, .f32⟩ : BufTy).Contents (Elt F)),
    StableHlo.unary main_v61 main_v62 (broadcastInDim S8x24x1x4096x1 ![0, 1, 2, 3] bcast_S8x24x1x4096_S8x24x1x4096x1_0_1_2_3 : (⟨S8x24x1x4096, .f32⟩ : BufTy).Contents (Elt F) → (⟨S8x24x1x4096x1, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8x24x1x4096x1, .f32⟩) (broadcastInDim S8x24x1x4096x1 ![] bcast_S_S8x24x1x4096x1),
    StableHlo.TRef.binary (.of main_v62 : StableHlo.TRef sig ⟨S8x24x1x4096x1, .f32⟩) (.of main_call3_v0 : StableHlo.TRef sig ⟨S8x24x1x4096x1, .f32⟩) (.of main_v63 : StableHlo.TRef sig ⟨S8x24x1x4096x1, .f32⟩) maximumf,
    StableHlo.reshape main_v63 main_v64 rfl shapeCasts_S8x24x1x4096x1_S8x24x4096 ]

set_option maxRecDepth 8192 in
set_option maxHeartbeats 4000000 in
/-- @main is that straight line: the two windows and the functions' definitions unfolded at their calls, both sides are
    one chain of operation steps once sequencing is reassociated. -/
theorem main_eq (c : Dev nD) : main (F := F) c = seq ops := by
  simp only [main, main_part0, main_part1, fn_relu.body, fn_var.body, fn_where.body, fn_relu_0.body, fn_relu_1.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  ⟨unary_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., unary_bufs_sub .., binary_bufs_sub .., unary_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., reshape_bufs_sub .., unary_bufs_sub .., binary_bufs_sub .., unary_bufs_sub .., binary_bufs_sub .., nullary_bufs_sub .., unary_bufs_sub .., binary_bufs_sub .., unary_bufs_sub .., unary_bufs_sub .., binary_bufs_sub .., reshape_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., reshape_bufs_sub ..⟩

attribute [local irreducible] Host.reduceAdd Host.gather Host.rsqrt Host.divf in
set_option maxRecDepth 8192 in
set_option maxHeartbeats 4000000 in
/-- The fold at the result buffer is the stages' composition: each operation's result read at the buffer it writes,
    every other buffer what was there, and the composition's definition unfolded — the same term. -/
theorem out_eq (V : Valuation τ sig (Elt F)) :
    after ops V (main_v64 : DevRef τ sig) = RStages.rOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

section Unchanged
set_option maxRecDepth 8192
set_option maxHeartbeats 4000000
/-! No operation writes an argument's buffer: each keeps its launch contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

end Unchanged

set_option maxRecDepth 8192 in
set_option maxHeartbeats 4000000 in
/-- On every device, for any float values, from any memory with zero counters: every weakly fair execution of @main
    terminates with the result buffer at the stages' composition of the arguments' launch contents and the ten
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = RStages.rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v64).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.RefRun

end
-- ==== Proof.RefA.lean ====
/-
  The reference program's first stages read at one element: the scrambled re-layout of the input, layer 1 in
  channels-first layout, the first gather with its re-layout, and layer 2.
-/
import proofs.«410499_j42975442764370_3_alg».proof.Proof.RStages
import proofs.«410499_j42975442764370_3_alg».proof.Proof.LibGather
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.RefA

open Idealize.ShloMosaic Idealize.ShloMosaic.ValueIdx Cert.Spec Cert.ReferenceIdeal

/-- A batch of rows against a weight matrix: a dot_general over [B, S, N, K] and [O, K] contracting the last axis of
    each, read at an index, is the sum over the contracted coordinate of the products of the entries. -/
theorem dot_rows_apply {B S N K O : Nat} {φ₁ φ₂ : FTy}
    (w : DotDims.WF ⟨4, ![B, S, N, K]⟩ ⟨2, ![O, K]⟩ ⟨4, ![B, S, N, O]⟩ [3] [1] [0, 1, 2] [0] [] [])
    (prec : Option ContractPrecision) (A : FVec Ideal ⟨4, ![B, S, N, K]⟩ φ₁) (W : FVec Ideal ⟨2, ![O, K]⟩ φ₂)
    (b : Fin B) (s : Fin S) (n : Fin N) (o : Fin O) :
    Host.dotGeneral (⟨[3], [1], [0, 1, 2], [0], [], [], w⟩ : DotDims _ _ _) prec A W (ix4 b s n o)
      = ∑ k : Fin K, A (ix4 b s n k) * W (ix2 o k) := by
  show FloatOps.dotGeneral _ prec _ A W (ix4 b s n o) = _
  rw [Ideal.dotGeneral_apply,
    ← Equiv.sum_comp (contrEquiv1 (⟨[3], [1], [0, 1, 2], [0], [], [], w⟩ : DotDims _ _ _) K rfl rfl).symm]
  refine Finset.sum_congr rfl fun c _ => ?_
  have cv := contrEquiv1_symm_val
    (⟨[3], [1], [0, 1, 2], [0], [], [], w⟩ : DotDims ⟨4, ![B, S, N, K]⟩ ⟨2, ![O, K]⟩ ⟨4, ![B, S, N, O]⟩) K rfl rfl c
  have l0 : ((⟨[3], [1], [0, 1, 2], [0], [], [], w⟩ : DotDims ⟨4, ![B, S, N, K]⟩ ⟨2, ![O, K]⟩ ⟨4, ![B, S, N, O]⟩).lhsIdx (ix4 b s n o)
      ((contrEquiv1 _ K rfl rfl).symm c) ⟨0, by show 0 < 4; omega⟩).val = b.val := by
    simp [DotDims.lhsIdx]; rfl
  have l1 : ((⟨[3], [1], [0, 1, 2], [0], [], [], w⟩ : DotDims ⟨4, ![B, S, N, K]⟩ ⟨2, ![O, K]⟩ ⟨4, ![B, S, N, O]⟩).lhsIdx (ix4 b s n o)
      ((contrEquiv1 _ K rfl rfl).symm c) ⟨1, by show 1 < 4; omega⟩).val = s.val := by
    simp [DotDims.lhsIdx]; rfl
  have l2 : ((⟨[3], [1], [0, 1, 2], [0], [], [], w⟩ : DotDims ⟨4, ![B, S, N, K]⟩ ⟨2, ![O, K]⟩ ⟨4, ![B, S, N, O]⟩).lhsIdx (ix4 b s n o)
      ((contrEquiv1 _ K rfl rfl).symm c) ⟨2, by show 2 < 4; omega⟩).val = n.val := by
    simp [DotDims.lhsIdx]; rfl
  have l3 : ((⟨[3], [1], [0, 1, 2], [0], [], [], w⟩ : DotDims ⟨4, ![B, S, N, K]⟩ ⟨2, ![O, K]⟩ ⟨4, ![B, S, N, O]⟩).lhsIdx (ix4 b s n o)
      ((contrEquiv1 _ K rfl rfl).symm c) ⟨3, by show 3 < 4; omega⟩).val = c.val := by
    simp [DotDims.lhsIdx]; exact cv
  have r0 : ((⟨[3], [1], [0, 1, 2], [0], [], [], w⟩ : DotDims ⟨4, ![B, S, N, K]⟩ ⟨2, ![O, K]⟩ ⟨4, ![B, S, N, O]⟩).rhsIdx (ix4 b s n o)
      ((contrEquiv1 _ K rfl rfl).symm c) ⟨0, by show 0 < 2; omega⟩).val = o.val := by
    simp [DotDims.rhsIdx]; rfl
  have r1 : ((⟨[3], [1], [0, 1, 2], [0], [], [], w⟩ : DotDims ⟨4, ![B, S, N, K]⟩ ⟨2, ![O, K]⟩ ⟨4, ![B, S, N, O]⟩).rhsIdx (ix4 b s n o)
      ((contrEquiv1 _ K rfl rfl).symm c) ⟨1, by show 1 < 2; omega⟩).val = c.val := by
    simp [DotDims.rhsIdx]; exact cv
  have hl : (⟨[3], [1], [0, 1, 2], [0], [], [], w⟩ : DotDims ⟨4, ![B, S, N, K]⟩ ⟨2, ![O, K]⟩ ⟨4, ![B, S, N, O]⟩).lhsIdx (ix4 b s n o)
      ((contrEquiv1 _ K rfl rfl).symm c) = ix4 b s n c := by
    funext ax; apply Fin.ext
    match ax with
    | ⟨0, _⟩ => exact l0
    | ⟨1, _⟩ => exact l1
    | ⟨2, _⟩ => exact l2
    | ⟨3, _⟩ => exact l3
  have hr : (⟨[3], [1], [0, 1, 2], [0], [], [], w⟩ : DotDims ⟨4, ![B, S, N, K]⟩ ⟨2, ![O, K]⟩ ⟨4, ![B, S, N, O]⟩).rhsIdx (ix4 b s n o)
      ((contrEquiv1 _ K rfl rfl).symm c) = ix2 o c := by
    funext ax; apply Fin.ext
    match ax with
    | ⟨0, _⟩ => exact r0
    | ⟨1, _⟩ => exact r1
  rw [hl, hr]

/-- Row n, column k of the re-laid input is the input at node (9n + k) % 4096, slot (9n + k) / 4096. -/
theorem pre0_apply (x : FVec Ideal S8x24x4096x9 .f32) (b : Fin 8) (s : Fin 24) (n : Fin 4096) (k : Fin 9) :
    RStages.pre0 (F := Ideal) x (ix4 b s n k) = x (ix4 b s (scrN9 n k) (scrK9 n k)) := by
  unfold RStages.pre0
  -- the reshape: flat position ((24b + s)·4096 + n)·9 + k of the rows is slot (9n + k) / 4096, node (9n + k) % 4096
  refine (shapeCast_apply _ _ _ (ix5 b s (0 : Fin 1) (scrK9 n k) (scrN9 n k)) ?_).trans ?_
  · rw [Shape.rowMajor_val_four, Shape.rowMajor_val_five]
    show ((((b.val * 24 + s.val) * 1 + 0) * 9 + (n.val * 9 + k.val) / 4096) * 4096 + (n.val * 9 + k.val) % 4096)
      = ((b.val * 24 + s.val) * 4096 + n.val) * 9 + k.val
    omega
  -- the transposition exchanges the last two axes
  refine (transpose_apply _ _ _ _ (ix5 b s (0 : Fin 1) (scrN9 n k) (scrK9 n k))
    (fun a => match a with | ⟨0, _⟩ => rfl | ⟨1, _⟩ => rfl | ⟨2, _⟩ => rfl | ⟨3, _⟩ => rfl | ⟨4, _⟩ => rfl)).trans ?_
  -- the unit axis is dropped
  exact broadcastInDim_apply _ _ _ _ (ix4 b s (scrN9 n k) (scrK9 n k))
    (fun a => match a with | ⟨0, _⟩ => rfl | ⟨1, _⟩ => rfl | ⟨2, _⟩ => rfl | ⟨3, _⟩ => rfl)

/-- Layer 1 at (b, s, channel c, node n): the row's product with weight row c, plus the bias, clipped at zero. -/
theorem lin1_apply (t : FVec Ideal S8x24x4096x9 .f32) (W : FVec Ideal S32x9 .f32) (bias : FVec Ideal S32 .f32)
    (b : Fin 8) (s : Fin 24) (c : Fin 32) (n : Fin 4096) :
    RStages.lin1 (F := Ideal) t W bias (ix4 b s c n) = max (∑ k : Fin 9, t (ix4 b s n k) * W (ix2 c k) + bias (ix1 c)) Z := by
  unfold RStages.lin1
  -- the unit axis is dropped …
  refine (shapeCast_apply _ _ _ (ix5 b s c (0 : Fin 1) n) ?_).trans ?_
  · rw [Shape.rowMajor_val_four, Shape.rowMajor_val_five]
    show ((((b.val * 24 + s.val) * 32 + c.val) * 1 + 0) * 4096 + n.val) = ((b.val * 24 + s.val) * 32 + c.val) * 4096 + n.val
    omega
  -- … after it was moved before the nodes
  refine (transpose_apply _ _ _ _ (ix5 b s c n (0 : Fin 1))
    (fun a => match a with | ⟨0, _⟩ => rfl | ⟨1, _⟩ => rfl | ⟨2, _⟩ => rfl | ⟨3, _⟩ => rfl | ⟨4, _⟩ => rfl)).trans ?_
  -- the clip at zero
  rw [maximumf_apply, broadcastInDim_scalar_apply, constant_apply]
  congr 1
  -- the unit axis appended, channels moved before nodes
  refine (broadcastInDim_apply _ _ _ _ (ix4 b s c n)
    (fun a => match a with | ⟨0, _⟩ => rfl | ⟨1, _⟩ => rfl | ⟨2, _⟩ => rfl | ⟨3, _⟩ => rfl)).trans ?_
  refine (transpose_apply _ _ _ _ (ix4 b s n c)
    (fun a => match a with | ⟨0, _⟩ => rfl | ⟨1, _⟩ => rfl | ⟨2, _⟩ => rfl | ⟨3, _⟩ => rfl)).trans ?_
  -- rows against weights, plus the bias broadcast along the channel axis
  rw [addf_apply]
  congr 1
  · exact dot_rows_apply _ none t W b s n c
  · refine (broadcastInDim_apply _ _ _ _ (ix4 (0 : Fin 1) (0 : Fin 1) (0 : Fin 1) c)
      (fun a => match a with | ⟨0, _⟩ => rfl | ⟨1, _⟩ => rfl | ⟨2, _⟩ => rfl | ⟨3, _⟩ => rfl)).trans ?_
    exact broadcastInDim_apply _ _ _ _ (ix1 c) (fun a => match a with | ⟨0, _⟩ => rfl)

/-- Row n, column m of layer 2's input: channel (288n + m) / 36864 of the node that the neighbour word at node
    (288n + m) % 4096, slot (288n + m) / 4096 % 9 names. -/
theorem mid1_apply (h : FVec Ideal S8x24x32x4096 .f32) (I : IVec S4096x9x1 32) (b : Fin 8) (s : Fin 24) (n : Fin 4096) (m : Fin 288) :
    RStages.mid1 (F := Ideal) h I (ix4 b s n m) = h (ix4 b s (scrC288 n m) (gnode (curI I) (scrN288 n m) (scrK288 n m))) := by
  unfold RStages.mid1
  -- the reshape: flat position 288n + m of a (32, 9, 4096) block is channel, slot and node
  refine (shapeCast_apply _ _ _ (ix5 b s (scrC288 n m) (scrK288 n m) (scrN288 n m)) ?_).trans ?_
  · rw [Shape.rowMajor_val_four, Shape.rowMajor_val_five]
    show ((((b.val * 24 + s.val) * 32 + (n.val * 288 + m.val) / 36864) * 9 + (n.val * 288 + m.val) / 4096 % 9) * 4096
        + (n.val * 288 + m.val) % 4096)
      = ((b.val * 24 + s.val) * 4096 + n.val) * 288 + m.val
    omega
  -- the transposition exchanges slots and nodes
  refine (transpose_apply _ _ _ _ (ix5 b s (scrC288 n m) (scrN288 n m) (scrK288 n m))
    (fun a => match a with | ⟨0, _⟩ => rfl | ⟨1, _⟩ => rfl | ⟨2, _⟩ => rfl | ⟨3, _⟩ => rfl | ⟨4, _⟩ => rfl)).trans ?_
  -- the gather along the node axis
  exact Cert.LibGather.gather4_apply (by norm_num) _ h I b s (scrC288 n m) (scrN288 n m) (scrK288 n m)

/-- Layer 2 at (b, s, channel o, node n, 0): the row's product with weight row o, plus the bias. -/
theorem lin2_apply (t : FVec Ideal S8x24x4096x288 .f32) (W : FVec Ideal S16x288 .f32) (bias : FVec Ideal S16 .f32)
    (b : Fin 8) (s : Fin 24) (o : Fin 16) (n : Fin 4096) :
    RStages.lin2 (F := Ideal) t W bias (ix5 b s o n (0 : Fin 1)) = ∑ m : Fin 288, t (ix4 b s n m) * W (ix2 o m) + bias (ix1 o) := by
  unfold RStages.lin2
  -- the unit axis appended, channels moved before nodes
  refine (broadcastInDim_apply _ _ _ _ (ix4 b s o n)
    (fun a => match a with | ⟨0, _⟩ => rfl | ⟨1, _⟩ => rfl | ⟨2, _⟩ => rfl | ⟨3, _⟩ => rfl)).trans ?_
  refine (transpose_apply _ _ _ _ (ix4 b s n o)
    (fun a => match a with | ⟨0, _⟩ => rfl | ⟨1, _⟩ => rfl | ⟨2, _⟩ => rfl | ⟨3, _⟩ => rfl)).trans ?_
  -- rows against weights, plus the bias broadcast along the channel axis
  rw [addf_apply]
  congr 1
  · exact dot_rows_apply _ none t W b s n o
  · refine (broadcastInDim_apply _ _ _ _ (ix4 (0 : Fin 1) (0 : Fin 1) (0 : Fin 1) o)
      (fun a => match a with | ⟨0, _⟩ => rfl | ⟨1, _⟩ => rfl | ⟨2, _⟩ => rfl | ⟨3, _⟩ => rfl)).trans ?_
    exact broadcastInDim_apply _ _ _ _ (ix1 o) (fun a => match a with | ⟨0, _⟩ => rfl)

end Cert.RefA

end
-- ==== Proof.RefB.lean ====
/-
  The reference program's later stages read at one element: the statistics over batch and nodes, the normalization,
  the second gather with its re-layout, and layer 3.
-/
import proofs.«410499_j42975442764370_3_alg».proof.Proof.RStages
import proofs.«410499_j42975442764370_3_alg».proof.Proof.LibGather
import proofs.«410499_j42975442764370_3_alg».proof.Proof.LibReduce
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.RefB

open Idealize.ShloMosaic Idealize.ShloMosaic.ValueIdx Cert.Spec Cert.ReferenceIdeal

/-- The mean at step s, channel o. -/
theorem mean_apply (y : FVec Ideal S8x24x16x4096x1 .f32) (s : Fin 24) (o : Fin 16) :
    RStages.mean (F := Ideal) y (ix5 (0 : Fin 1) s o (0 : Fin 1) (0 : Fin 1))
      = Ideal.div (Z + ∑ b : Fin 8, ∑ n : Fin 4096, y (ix5 b s o n (0 : Fin 1))) CNT := by
  unfold RStages.mean
  refine (hostDivf_apply _ _ _).trans ?_
  rw [broadcastInDim_scalar_apply, constant_apply]
  refine congrArg (fun t => Ideal.div t CNT) ?_
  refine (broadcastInDim_apply _ _ _ (ix5 (0 : Fin 1) s o (0 : Fin 1) (0 : Fin 1)) (ix2 s o)
    (fun a => match a with | ⟨0, _⟩ => rfl | ⟨1, _⟩ => rfl)).trans ?_
  rw [hostReduceAdd_apply, Cert.LibReduce.hostReduceAdd_axes034]
  rfl

/-- The variance at step s, channel o. -/
theorem var_apply (y : FVec Ideal S8x24x16x4096x1 .f32) (s : Fin 24) (o : Fin 16) :
    RStages.var (F := Ideal) y (ix5 (0 : Fin 1) s o (0 : Fin 1) (0 : Fin 1))
      = Scalar.select (FloatOps.cmpf (F := Ideal) (φ := .f32) .ogt DEN Z)
          (Ideal.div (Z + ∑ b : Fin 8, ∑ n : Fin 4096,
            (y (ix5 b s o n (0 : Fin 1)) - Ideal.div (Z + ∑ b' : Fin 8, ∑ n' : Fin 4096, y (ix5 b' s o n' (0 : Fin 1))) CNT)
            * (y (ix5 b s o n (0 : Fin 1)) - Ideal.div (Z + ∑ b' : Fin 8, ∑ n' : Fin 4096, y (ix5 b' s o n' (0 : Fin 1))) CNT)) DEN) NAN := by
  -- the mean inside the variance is the mean stage's own expression
  have hM := mean_apply y s o
  unfold RStages.mean at hM
  -- a per-step, per-channel statistic, broadcast over batch and nodes, reads its entry (s, o)
  have hst : ∀ (v : FVec Ideal S1x24x16x1x1 .f32) (b : Fin 8) (n : Fin 4096),
      broadcastInDim S8x24x16x4096x1 ![0, 1, 2, 3, 4] Gen.bcast_S1x24x16x1x1_S8x24x16x4096x1_0_1_2_3_4 v (ix5 b s o n (0 : Fin 1))
        = v (ix5 (0 : Fin 1) s o (0 : Fin 1) (0 : Fin 1)) := by
    intro v b n
    exact broadcastInDim_apply _ _ _ (ix5 b s o n (0 : Fin 1)) (ix5 (0 : Fin 1) s o (0 : Fin 1) (0 : Fin 1))
      (fun a => match a with | ⟨0, _⟩ => rfl | ⟨1, _⟩ => rfl | ⟨2, _⟩ => rfl | ⟨3, _⟩ => rfl | ⟨4, _⟩ => rfl)
  unfold RStages.var
  rw [select_apply, hostDivf_apply, broadcastInDim_scalar_apply, broadcastInDim_scalar_apply, broadcastInDim_scalar_apply]
  -- the test DEN > 0, the divisor DEN and the fallback word are the scalars themselves
  refine congrArg₂ (fun (c : BitVec 1) (v : EReal) => Scalar.select c v NAN)
    (rfl : _ = FloatOps.cmpf (F := Ideal) (φ := .f32) .ogt DEN Z) ?_
  refine congrArg (fun v : EReal => Ideal.div v DEN) ?_
  -- the sum of squared deviations over batch and nodes
  refine (broadcastInDim_apply _ _ _ (ix5 (0 : Fin 1) s o (0 : Fin 1) (0 : Fin 1)) (ix2 s o)
    (fun a => match a with | ⟨0, _⟩ => rfl | ⟨1, _⟩ => rfl)).trans ?_
  rw [hostReduceAdd_apply, Cert.LibReduce.hostReduceAdd_axes034]
  refine congrArg₂ (fun u v : EReal => u + v) rfl ?_
  refine Finset.sum_congr rfl fun b _ => Finset.sum_congr rfl fun n _ => ?_
  rw [mulf_apply, subf_apply, hst, hM]

/-- The normalized, clipped value at (b, s, channel o, node n), over the statistics at (s, o). -/
theorem bn_apply (y : FVec Ideal S8x24x16x4096x1 .f32) (γ β : FVec Ideal S16 .f32) (b : Fin 8) (s : Fin 24) (o : Fin 16) (n : Fin 4096) :
    RStages.bn (F := Ideal) y γ β (ix4 b s o n)
      = max (γ (ix1 o) * (y (ix5 b s o n (0 : Fin 1)) - RStages.mean (F := Ideal) y (ix5 (0 : Fin 1) s o (0 : Fin 1) (0 : Fin 1)))
          * Ideal.rsqrt (RStages.var (F := Ideal) y (ix5 (0 : Fin 1) s o (0 : Fin 1) (0 : Fin 1)) + EPS) + β (ix1 o)) Z := by
  -- a per-channel vector, reshaped to [1, 1, 16, 1, 1] and broadcast, reads its entry o
  have hch : ∀ v : FVec Ideal S16 .f32,
      broadcastInDim S8x24x16x4096x1 ![0, 1, 2, 3, 4] Gen.bcast_S1x1x16x1x1_S8x24x16x4096x1_0_1_2_3_4
        (shapeCast S1x1x16x1x1 v Gen.shapeCasts_S16_S1x1x16x1x1) (ix5 b s o n (0 : Fin 1)) = v (ix1 o) := by
    intro v
    refine (broadcastInDim_apply _ _ _ (ix5 b s o n (0 : Fin 1)) (ix5 (0 : Fin 1) (0 : Fin 1) o (0 : Fin 1) (0 : Fin 1))
      (fun a => match a with | ⟨0, _⟩ => rfl | ⟨1, _⟩ => rfl | ⟨2, _⟩ => rfl | ⟨3, _⟩ => rfl | ⟨4, _⟩ => rfl)).trans ?_
    exact shapeCast_apply _ _ _ (ix1 o)
      (by rw [Shape.rowMajor_val_one, Shape.rowMajor_val_five]
          show o.val = (((0 * 1 + 0) * 16 + o.val) * 1 + 0) * 1 + 0
          omega)
  -- a per-step, per-channel statistic, broadcast, reads its entry (s, o)
  have hst : ∀ v : FVec Ideal S1x24x16x1x1 .f32,
      broadcastInDim S8x24x16x4096x1 ![0, 1, 2, 3, 4] Gen.bcast_S1x24x16x1x1_S8x24x16x4096x1_0_1_2_3_4 v (ix5 b s o n (0 : Fin 1))
        = v (ix5 (0 : Fin 1) s o (0 : Fin 1) (0 : Fin 1)) := by
    intro v
    exact broadcastInDim_apply _ _ _ (ix5 b s o n (0 : Fin 1)) (ix5 (0 : Fin 1) s o (0 : Fin 1) (0 : Fin 1))
      (fun a => match a with | ⟨0, _⟩ => rfl | ⟨1, _⟩ => rfl | ⟨2, _⟩ => rfl | ⟨3, _⟩ => rfl | ⟨4, _⟩ => rfl)
  unfold RStages.bn
  -- the reshape dropping the unit axis, then the transposition that moved it
  refine (shapeCast_apply _ _ (ix4 b s o n) (ix5 b s o (0 : Fin 1) n)
    (by rw [Shape.rowMajor_val_five, Shape.rowMajor_val_four]
        show (((b.val * 24 + s.val) * 16 + o.val) * 1 + 0) * 4096 + n.val = ((b.val * 24 + s.val) * 16 + o.val) * 4096 + n.val
        omega)).trans ?_
  refine (transpose_apply _ _ _ (ix5 b s o (0 : Fin 1) n) (ix5 b s o n (0 : Fin 1))
    (fun a => match a with | ⟨0, _⟩ => rfl | ⟨1, _⟩ => rfl | ⟨2, _⟩ => rfl | ⟨3, _⟩ => rfl | ⟨4, _⟩ => rfl)).trans ?_
  rw [maximumf_apply, addf_apply, mulf_apply, mulf_apply, subf_apply, hch γ, hch β, hst, hst,
    broadcastInDim_scalar_apply, constant_apply]
  simp only [Host.rsqrt, Ideal.hostUnary_rsqrt_def]
  rw [addf_apply, broadcastInDim_scalar_apply, constant_apply]

/-- Row n, column m of layer 3's input. -/
theorem mid3_apply (h : FVec Ideal S8x24x16x4096 .f32) (I : IVec S4096x9x1 32) (b : Fin 8) (s : Fin 24) (n : Fin 4096) (m : Fin 144) :
    RStages.mid3 (F := Ideal) h I (ix4 b s n m) = h (ix4 b s (scrC144 n m) (gnode (curI I) (scrN144 n m) (scrK144 n m))) := by
  unfold RStages.mid3
  -- the re-layout: row n, column m is flat position q = n·144 + m of the (16, 9, 4096) block, that is channel q / 36864,
  -- slot (q / 4096) % 9, node q % 4096
  refine (shapeCast_apply _ _ (ix4 b s n m) (ix5 b s (scrC144 n m) (scrK144 n m) (scrN144 n m))
    (by rw [Shape.rowMajor_val_five, Shape.rowMajor_val_four]
        show (((b.val * 24 + s.val) * 16 + (n.val * 144 + m.val) / 36864) * 9 + (n.val * 144 + m.val) / 4096 % 9) * 4096
            + (n.val * 144 + m.val) % 4096 = ((b.val * 24 + s.val) * 4096 + n.val) * 144 + m.val
        omega)).trans ?_
  -- slots before nodes: the transposition of the last two axes
  refine (transpose_apply _ _ _ (ix5 b s (scrC144 n m) (scrK144 n m) (scrN144 n m))
    (ix5 b s (scrC144 n m) (scrN144 n m) (scrK144 n m))
    (fun a => match a with | ⟨0, _⟩ => rfl | ⟨1, _⟩ => rfl | ⟨2, _⟩ => rfl | ⟨3, _⟩ => rfl | ⟨4, _⟩ => rfl)).trans ?_
  -- the gather along the node axis
  rw [show gather_S8x24x16x4096_S4096x9x1_S8x24x16x4096x9_012_3_n_n_3_2_824161
    = Cert.LibGather.gatherDims4 8 24 16 4096 4096 9 _ from rfl]
  exact Cert.LibGather.gather4_apply (by norm_num) _ h I b s (scrC144 n m) (scrN144 n m) (scrK144 n m)

/-- Layer 3 at (b, s, node n): the row's product with the one weight row, plus the bias, clipped at zero. -/
theorem lin3_apply (t : FVec Ideal S8x24x4096x144 .f32) (W : FVec Ideal S1x144 .f32) (bias : FVec Ideal S1 .f32)
    (b : Fin 8) (s : Fin 24) (n : Fin 4096) :
    RStages.lin3 (F := Ideal) t W bias (ix3 b s n)
      = max (∑ m : Fin 144, t (ix4 b s n m) * W (ix2 (0 : Fin 1) m) + bias (ix1 (0 : Fin 1))) Z := by
  unfold RStages.lin3
  -- the reshape dropping the two unit axes: (b, s, n) reads (b, s, 0, n, 0)
  refine (shapeCast_apply _ _ (ix3 b s n) (ix5 b s (0 : Fin 1) n (0 : Fin 1))
    (by rw [Shape.rowMajor_val_five, Shape.rowMajor_val_three]
        show (((b.val * 24 + s.val) * 1 + 0) * 4096 + n.val) * 1 + 0 = (b.val * 24 + s.val) * 4096 + n.val
        omega)).trans ?_
  rw [maximumf_apply, broadcastInDim_scalar_apply, constant_apply]
  refine congrArg (fun v : EReal => max v Z) ?_
  -- the trailing unit axis, then the transposition moving the unit channel axis
  refine (broadcastInDim_apply _ _ _ (ix5 b s (0 : Fin 1) n (0 : Fin 1)) (ix4 b s (0 : Fin 1) n)
    (fun a => match a with | ⟨0, _⟩ => rfl | ⟨1, _⟩ => rfl | ⟨2, _⟩ => rfl | ⟨3, _⟩ => rfl)).trans ?_
  refine (transpose_apply _ _ _ (ix4 b s (0 : Fin 1) n) (ix4 b s n (0 : Fin 1))
    (fun a => match a with | ⟨0, _⟩ => rfl | ⟨1, _⟩ => rfl | ⟨2, _⟩ => rfl | ⟨3, _⟩ => rfl)).trans ?_
  rw [addf_apply]
  refine congrArg₂ (fun u v : EReal => u + v) ?_ ?_
  · -- the product: the sum over the contracted coordinate
    simp only [Host.dotGeneral]
    rw [Ideal.dotGeneral_apply,
      ← Equiv.sum_comp (contrEquiv1 dot_S8x24x4096x144_S1x144_S8x24x4096x1_3_1_012_0_n_n 144 rfl rfl).symm]
    refine Finset.sum_congr rfl fun m _ => ?_
    have cm := contrEquiv1_symm_val dot_S8x24x4096x144_S1x144_S8x24x4096x1_3_1_012_0_n_n 144 rfl rfl m
    have l : dot_S8x24x4096x144_S1x144_S8x24x4096x1_3_1_012_0_n_n.lhsIdx (ix4 b s n (0 : Fin 1))
        ((contrEquiv1 _ 144 rfl rfl).symm m) = ix4 b s n m := by
      funext ax; apply Fin.ext
      match ax with
      | ⟨0, _⟩ => rfl
      | ⟨1, _⟩ => rfl
      | ⟨2, _⟩ => rfl
      | ⟨3, _⟩ => exact (DotDims.lhsIdx_val_of_single _ (cl := (3 : Fin 4)) rfl _ _).trans cm
    have r : dot_S8x24x4096x144_S1x144_S8x24x4096x1_3_1_012_0_n_n.rhsIdx (ix4 b s n (0 : Fin 1))
        ((contrEquiv1 _ 144 rfl rfl).symm m) = ix2 (0 : Fin 1) m := by
      funext ax; apply Fin.ext
      match ax with
      | ⟨0, _⟩ => rfl
      | ⟨1, _⟩ => exact (DotDims.rhsIdx_val_of_single _ (cr := (1 : Fin 2)) rfl _ _).trans cm
    rw [l, r]
  · -- the bias, broadcast from its one entry
    refine (broadcastInDim_apply _ _ _ (ix4 b s n (0 : Fin 1)) (ix4 (0 : Fin 1) (0 : Fin 1) (0 : Fin 1) (0 : Fin 1))
      (fun a => match a with | ⟨0, _⟩ => rfl | ⟨1, _⟩ => rfl | ⟨2, _⟩ => rfl | ⟨3, _⟩ => rfl)).trans ?_
    exact broadcastInDim_apply _ _ _ _ (ix1 (0 : Fin 1)) (fun a => match a with | ⟨0, _⟩ => rfl)

end Cert.RefB

end
-- ==== Proof.RefNet.lean ====
/-
  The reference program's result is the network of the specification: its stage functions, read element by element,
  are the layers.
-/
import proofs.«410499_j42975442764370_3_alg».proof.Proof.RStages
import proofs.«410499_j42975442764370_3_alg».proof.Proof.RefA
import proofs.«410499_j42975442764370_3_alg».proof.Proof.RefB
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.RefNet

open Idealize.ShloMosaic Idealize.ShloMosaic.ValueIdx Cert.Spec Cert.ReferenceIdeal

/-- The reference program computes the network. -/
theorem rOut_eq_net (x : FVec Ideal S8x24x4096x9 .f32) (neigh : IVec S4096x9 32) (W1 : FVec Ideal S32x9 .f32) (b1 : FVec Ideal S32 .f32) (W2 : FVec Ideal S16x288 .f32) (b2 : FVec Ideal S16 .f32) (γ β : FVec Ideal S16 .f32) (W3 : FVec Ideal S1x144 .f32) (b3 : FVec Ideal S1 .f32) :
    RStages.rOut (F := Ideal) x neigh W1 b1 W2 b2 γ β W3 b3 = Cert.Spec.net x neigh W1 b1 W2 b2 γ β W3 b3 := by
  funext j
  obtain ⟨b, s, n, rfl⟩ : ∃ (b : Fin 8) (s : Fin 24) (n : Fin 4096), j = ix3 b s n := ⟨j 0, j 1, j 2, eq_ix3 j⟩
  -- layer 1's rows
  have hT1 : ∀ (b : Fin 8) (s : Fin 24) (n : Fin 4096) (k : Fin 9),
      (RStages.pre0 (F := Ideal) x) (ix4 b s n k) = (sT1 (cur4 x)) b s n k := by
    intro b s n k
    rw [Cert.RefA.pre0_apply]
    rfl
  -- layer 1
  have hH1 : ∀ (b : Fin 8) (s : Fin 24) (c : Fin 32) (n : Fin 4096),
      (RStages.lin1 (F := Ideal) (RStages.pre0 (F := Ideal) x) W1 b1) (ix4 b s c n)
        = (sH1 (sT1 (cur4 x)) (cur2 W1) (cur1 b1)) b s n c := by
    intro b s c n
    rw [Cert.RefA.lin1_apply]
    simp only [hT1]
    rfl
  -- layer 2's rows
  have hT2 : ∀ (b : Fin 8) (s : Fin 24) (n : Fin 4096) (m : Fin 288),
      (RStages.mid1 (F := Ideal) (RStages.lin1 (F := Ideal) (RStages.pre0 (F := Ideal) x) W1 b1) (idxPrep neigh)) (ix4 b s n m)
        = (sT2 (sH1 (sT1 (cur4 x)) (cur2 W1) (cur1 b1)) (curI (idxPrep neigh))) b s n m := by
    intro b s n m
    rw [Cert.RefA.mid1_apply, hH1]
    rfl
  -- layer 2
  have hY2 : ∀ (b : Fin 8) (s : Fin 24) (o : Fin 16) (n : Fin 4096),
      (RStages.lin2 (F := Ideal) (RStages.mid1 (F := Ideal) (RStages.lin1 (F := Ideal) (RStages.pre0 (F := Ideal) x) W1 b1) (idxPrep neigh)) W2 b2) (ix5 b s o n (0 : Fin 1))
        = (sY2 (sT2 (sH1 (sT1 (cur4 x)) (cur2 W1) (cur1 b1)) (curI (idxPrep neigh))) (cur2 W2) (cur1 b2)) b s n o := by
    intro b s o n
    rw [Cert.RefA.lin2_apply]
    simp only [hT2]
    rfl
  -- the mean
  have hMean : ∀ (s : Fin 24) (o : Fin 16),
      RStages.mean (F := Ideal) (RStages.lin2 (F := Ideal) (RStages.mid1 (F := Ideal) (RStages.lin1 (F := Ideal) (RStages.pre0 (F := Ideal) x) W1 b1) (idxPrep neigh)) W2 b2) (ix5 (0 : Fin 1) s o (0 : Fin 1) (0 : Fin 1))
        = sMean (sY2 (sT2 (sH1 (sT1 (cur4 x)) (cur2 W1) (cur1 b1)) (curI (idxPrep neigh))) (cur2 W2) (cur1 b2)) s o := by
    intro s o
    rw [Cert.RefB.mean_apply]
    simp only [hY2]
    rfl
  -- the variance
  have hVar : ∀ (s : Fin 24) (o : Fin 16),
      RStages.var (F := Ideal) (RStages.lin2 (F := Ideal) (RStages.mid1 (F := Ideal) (RStages.lin1 (F := Ideal) (RStages.pre0 (F := Ideal) x) W1 b1) (idxPrep neigh)) W2 b2) (ix5 (0 : Fin 1) s o (0 : Fin 1) (0 : Fin 1))
        = sVar (sY2 (sT2 (sH1 (sT1 (cur4 x)) (cur2 W1) (cur1 b1)) (curI (idxPrep neigh))) (cur2 W2) (cur1 b2)) s o := by
    intro s o
    rw [Cert.RefB.var_apply]
    simp only [hY2]
    rfl
  -- the normalization
  have hYN : ∀ (b : Fin 8) (s : Fin 24) (o : Fin 16) (n : Fin 4096),
      (RStages.bn (F := Ideal) (RStages.lin2 (F := Ideal) (RStages.mid1 (F := Ideal) (RStages.lin1 (F := Ideal) (RStages.pre0 (F := Ideal) x) W1 b1) (idxPrep neigh)) W2 b2) γ β) (ix4 b s o n)
        = (sY2n (sY2 (sT2 (sH1 (sT1 (cur4 x)) (cur2 W1) (cur1 b1)) (curI (idxPrep neigh))) (cur2 W2) (cur1 b2)) (cur1 γ) (cur1 β)) b s n o := by
    intro b s o n
    rw [Cert.RefB.bn_apply, hMean, hVar, hY2]
    rfl
  -- layer 3's rows
  have hT3 : ∀ (b : Fin 8) (s : Fin 24) (n : Fin 4096) (m : Fin 144),
      (RStages.mid3 (F := Ideal) (RStages.bn (F := Ideal) (RStages.lin2 (F := Ideal) (RStages.mid1 (F := Ideal) (RStages.lin1 (F := Ideal) (RStages.pre0 (F := Ideal) x) W1 b1) (idxPrep neigh)) W2 b2) γ β) (idxPrep neigh)) (ix4 b s n m)
        = (sT3 (sY2n (sY2 (sT2 (sH1 (sT1 (cur4 x)) (cur2 W1) (cur1 b1)) (curI (idxPrep neigh))) (cur2 W2) (cur1 b2)) (cur1 γ) (cur1 β)) (curI (idxPrep neigh))) b s n m := by
    intro b s n m
    rw [Cert.RefB.mid3_apply, hYN]
    rfl
  -- layer 3
  show RStages.lin3 (F := Ideal) (RStages.mid3 (F := Ideal) (RStages.bn (F := Ideal) (RStages.lin2 (F := Ideal) (RStages.mid1 (F := Ideal) (RStages.lin1 (F := Ideal) (RStages.pre0 (F := Ideal) x) W1 b1) (idxPrep neigh)) W2 b2) γ β) (idxPrep neigh)) W3 b3 (ix3 b s n) = _
  rw [Cert.RefB.lin3_apply]
  simp only [hT3]
  rfl

end Cert.RefNet

end
-- ==== Proof.lean ====
/-
  The kernel and its reference are one function of the ten argument arrays over the extended reals: three "irregular
  convolution" layers (each node's row of gathered neighbour values, read through a scrambled re-layout, times a weight
  matrix, plus a bias), a batch normalization between the second and the third, clips at zero after the first, the
  normalization and the third. The kernel computes the three products and the normalization in four kernel calls over
  arrays whose batch and sequence axes are flattened to 192 rows, the gathers and re-layouts on the host between them;
  the reference computes everything on the host with batch and sequence apart and channels first. Both results are
  read index by index (b, s, n) down to the same curried function of coordinates, in which the sums over batch and
  nodes, the products over a row and the float words appear in the same order on both sides: no law of the extended
  reals beyond reordering the index sets of finite sums is needed, and the precondition is not opened.
  The frames of the two kernel programs are the generated ones; the reference's frame is its run with the result
  dropped; the idealization rewrote nothing, so what it preserves is trivial.
-/
import proofs.«410499_j42975442764370_3_alg».proof.Defs
import proofs.«410499_j42975442764370_3_alg».proof.Proof.Gen.Kernel
import proofs.«410499_j42975442764370_3_alg».proof.Proof.Gen.Kernel.Skeleton
import proofs.«410499_j42975442764370_3_alg».proof.Proof.Gen.Kernel.Launch
import proofs.«410499_j42975442764370_3_alg».proof.Proof.Gen.Kernel.Points
import proofs.«410499_j42975442764370_3_alg».proof.Proof.Gen.Kernel.Frame
import proofs.«410499_j42975442764370_3_alg».proof.Proof.Gen.KernelIdeal
import proofs.«410499_j42975442764370_3_alg».proof.Proof.Gen.KernelIdeal.Skeleton
import proofs.«410499_j42975442764370_3_alg».proof.Proof.Gen.KernelIdeal.Launch
import proofs.«410499_j42975442764370_3_alg».proof.Proof.Gen.KernelIdeal.Points
import proofs.«410499_j42975442764370_3_alg».proof.Proof.Gen.KernelIdeal.Frame
import proofs.«410499_j42975442764370_3_alg».proof.Proof.Gen.ReferenceIdeal
import proofs.«410499_j42975442764370_3_alg».proof.Proof.Gen.Pre_finite_inputs
import proofs.«410499_j42975442764370_3_alg».proof.Proof.KernelRun
import proofs.«410499_j42975442764370_3_alg».proof.Proof.KernelValue
import proofs.«410499_j42975442764370_3_alg».proof.Proof.KernelNet
import proofs.«410499_j42975442764370_3_alg».proof.Proof.RefRun
import proofs.«410499_j42975442764370_3_alg».proof.Proof.RefNet
import Idealize.ShloMosaic.Adequacy
import Idealize.ShloMosaic.Init

noncomputable section

namespace Cert.Proof

open Idealize.ShloMosaic Idealize.ShloMosaic.TcCoe Idealize.SL.Sem

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run (F := Ideal) m ρ)

/-- Both programs end with the network's array of the arguments: the kernel's result buffer is its program's function of
    the launch contents, the reference's likewise, and both functions are the network. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩) (Cert.KernelRun.run_out (F := Ideal) m ρ)
    exact (Cert.KernelValue.out_eq m ρ c).trans (Cert.KernelNet.kOut_eq_net _ _ _ _ _ _ _ _ _ _)
  · refine (θ_run Cert.ReferenceIdeal.defs _ _).mono (fun _ h c => ⟨(h c).1.trans ?_, (h c).2⟩) (Cert.RefRun.run (F := Ideal) m' ρ')
    rw [Cert.RefNet.rOut_eq_net, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
